-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v56) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v145) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S2048x2048 : Shape := ⟨2, ![2048, 2048]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x65536 : Shape := ⟨2, ![2, 65536]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x65536 : S_.BroadcastsInDim S2x65536 (![] : Fin 0 → Fin S2x65536.rank)
  reducesTo_S2x65536_S_d0_1 : S2x65536.ReducesTo [0, 1] S_

variable [Facts]

def fn_part2 {F : FTy → Type} [FloatOps F] (main_arg7 : FVec F S64 .f32) (main_arg8 : IVec S2x65536 32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_c_14 : IVec S_ 32 := constantI S_ 32 0#32
  let main_v39 : IVec S2x65536 32 := broadcastInDim S2x65536 ![] bcast_S_S2x65536 main_c_14
  let main_v40 : IVec S2x65536 1 := cmpi .sge main_arg8 main_v39
  let main_c_15 : IVec S_ 1 := constantI S_ 1 1#1
  let main_v41 : IVec S_ 1 := (fun x v => Host.reduce IntOp.andi x v reducesTo_S2x65536_S_d0_1 h_S_) main_v40 main_c_15
  let main_v42 : IVec S_ 1 := andi main_v38 main_v41
  let main_c_16 : IVec S_ 32 := constantI S_ 32 2048#32
  let main_v43 : IVec S2x65536 32 := broadcastInDim S2x65536 ![] bcast_S_S2x65536 main_c_16
  let main_v44 : IVec S2x65536 1 := cmpi .slt main_arg8 main_v43
  let main_c_17 : IVec S_ 1 := constantI S_ 1 1#1
  let main_v45 : IVec S_ 1 := (fun x v => Host.reduce IntOp.andi x v reducesTo_S2x65536_S_d0_1 h_S_) main_v44 main_c_17
  let main_v46 : IVec S_ 1 := andi main_v42 main_v45
  main_v46

def fn_part1 {F : FTy → Type} [FloatOps F] (main_arg4 : FVec F S128x64 .f32) (main_arg5 : FVec F S64 .f32) (main_arg6 : FVec F S128x64 .f32) (main_arg7 : FVec F S64 .f32) (main_arg8 : IVec S2x65536 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_v33

def fn {F : FTy → Type} [FloatOps F] (main_arg0 : FVec F S2048x128 .f32) (main_arg1 : FVec F S2048x2048 .f32) (main_arg2 : FVec F S128x128 .f32) (main_arg3 : FVec F S128 .f32) (main_arg4 : FVec F S128x64 .f32) (main_arg5 : FVec F S64 .f32) (main_arg6 : FVec F S128x64 .f32) (main_arg7 : FVec F S64 .f32) (main_arg8 : IVec S2x65536 32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_v13 main_v16
-- ==== Kernel.lean ====
abbrev S2048x128 : Shape := ⟨2, ![2048, 128]⟩
abbrev S2048x2048 : Shape := ⟨2, ![2048, 2048]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x65536 : Shape := ⟨2, ![2, 65536]⟩
abbrev S1024x1024 : Shape := ⟨2, ![1024, 1024]⟩
abbrev S_ : Shape := ⟨0, ![]⟩
abbrev S1 : Shape := ⟨1, ![1]⟩
abbrev S2 : Shape := ⟨1, ![2]⟩
abbrev S1x65536 : Shape := ⟨2, ![1, 65536]⟩
abbrev S65536 : Shape := ⟨1, ![65536]⟩
abbrev S65536x1 : Shape := ⟨2, ![65536, 1]⟩
abbrev S65536x2 : Shape := ⟨2, ![65536, 2]⟩
abbrev S2048 : Shape := ⟨1, ![2048]⟩
abbrev S2048x1 : Shape := ⟨2, ![2048, 1]⟩
abbrev S1x2048 : Shape := ⟨2, ![1, 2048]⟩
abbrev S1x128 : Shape := ⟨2, ![1, 128]⟩
abbrev S512x2048 : Shape := ⟨2, ![512, 2048]⟩
abbrev S512x128 : Shape := ⟨2, ![512, 128]⟩
abbrev S1x64 : Shape := ⟨2, ![1, 64]⟩
abbrev S2048x64 : Shape := ⟨2, ![2048, 64]⟩
abbrev S512x64 : Shape := ⟨2, ![512, 64]⟩

abbrev nBuf : Space → Nat
  | .hbm => 82
  | .vmem => 21
  | .smem => 0
  | _ => 0

abbrev bufTy : (tb : Table) → Fin (tcTables nBuf tb) → BufTy
  | .hbm, ⟨0, _⟩ => ⟨S2048x128, .f32⟩
  | .hbm, ⟨1, _⟩ => ⟨S2048x2048, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S2x65536, .i32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S2048x2048, .f32⟩
  | .hbm, ⟨20, _⟩ => ⟨S1024x1024, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S2048x2048, .f32⟩
  | .hbm, ⟨27, _⟩ => ⟨S2048x2048, .i32⟩
  | .hbm, ⟨28, _⟩ => ⟨S2048x2048, .i32⟩
  | .hbm, ⟨29, _⟩ => ⟨S_, .i32⟩
  | .hbm, ⟨30, _⟩ => ⟨S2048x2048, .i32⟩
  | .hbm, ⟨31, _⟩ => ⟨S2048x2048, .i32⟩
  | .hbm, ⟨32, _⟩ => ⟨S2048x2048, .i1⟩
  | .hbm, ⟨33, _⟩ => ⟨S2048x2048, .f32⟩
  | .hbm, ⟨34, _⟩ => ⟨S2048x2048, .f32⟩
  | .hbm, ⟨35, _⟩ => ⟨S1x65536, .i32⟩
  | .hbm, ⟨36, _⟩ => ⟨S65536, .i32⟩
  | .hbm, ⟨37, _⟩ => ⟨S1x65536, .i32⟩
  | .hbm, ⟨38, _⟩ => ⟨S65536, .i32⟩
  | .hbm, ⟨39, _⟩ => ⟨S_, .i32⟩
  | .hbm, ⟨40, _⟩ => ⟨S65536, .i32⟩
  | .hbm, ⟨41, _⟩ => ⟨S65536, .i1⟩
  | .hbm, ⟨42, _⟩ => ⟨S_, .i32⟩
  | .hbm, ⟨43, _⟩ => ⟨S65536, .i32⟩
  | .hbm, ⟨44, _⟩ => ⟨S65536, .i32⟩
  | .hbm, ⟨45, _⟩ => ⟨S65536, .i32⟩
  | .hbm, ⟨46, _⟩ => ⟨S_, .i32⟩
  | .hbm, ⟨47, _⟩ => ⟨S65536, .i32⟩
  | .hbm, ⟨48, _⟩ => ⟨S65536, .i1⟩
  | .hbm, ⟨49, _⟩ => ⟨S_, .i32⟩
  | .hbm, ⟨50, _⟩ => ⟨S65536, .i32⟩
  | .hbm, ⟨51, _⟩ => ⟨S65536, .i32⟩
  | .hbm, ⟨52, _⟩ => ⟨S65536, .i32⟩
  | .hbm, ⟨53, _⟩ => ⟨S65536x1, .i32⟩
  | .hbm, ⟨54, _⟩ => ⟨S65536x1, .i32⟩
  | .hbm, ⟨55, _⟩ => ⟨S65536x2, .i32⟩
  | .hbm, ⟨56, _⟩ => ⟨S_, .f32⟩
  | .hbm, ⟨57, _⟩ => ⟨S65536, .f32⟩
  | .hbm, ⟨58, _⟩ => ⟨S2048x2048, .f32⟩
  | .hbm, ⟨59, _⟩ => ⟨S_, .f32⟩
  | .hbm, ⟨60, _⟩ => ⟨S2048, .f32⟩
  | .hbm, ⟨61, _⟩ => ⟨S_, .f32⟩
  | .hbm, ⟨62, _⟩ => ⟨S2048, .f32⟩
  | .hbm, ⟨63, _⟩ => ⟨S2048, .i1⟩
  | .hbm, ⟨64, _⟩ => ⟨S2048, .f32⟩
  | .hbm, ⟨65, _⟩ => ⟨S_, .f32⟩
  | .hbm, ⟨66, _⟩ => ⟨S_, .f32⟩
  | .hbm, ⟨67, _⟩ => ⟨S2048, .f32⟩
  | .hbm, ⟨68, _⟩ => ⟨S2048, .f32⟩
  | .hbm, ⟨69, _⟩ => ⟨S2048x1, .f32⟩
  | .hbm, ⟨70, _⟩ => ⟨S2048x2048, .f32⟩
  | .hbm, ⟨71, _⟩ => ⟨S2048x2048, .f32⟩
  | .hbm, ⟨72, _⟩ => ⟨S1x2048, .f32⟩
  | .hbm, ⟨73, _⟩ => ⟨S2048x2048, .f32⟩
  | .hbm, ⟨74, _⟩ => ⟨S2048x2048, .f32⟩
  | .hbm, ⟨75, _⟩ => ⟨S2048x2048, .bf16⟩
  | .hbm, ⟨76, _⟩ => ⟨S1x128, .f32⟩
  | .hbm, ⟨77, _⟩ => ⟨S2048x128, .f32⟩
  | .hbm, ⟨78, _⟩ => ⟨S1x64, .f32⟩
  | .hbm, ⟨79, _⟩ => ⟨S2048x64, .f32⟩
  | .hbm, ⟨80, _⟩ => ⟨S1x64, .f32⟩
  | .hbm, ⟨81, _⟩ => ⟨S2048x64, .f32⟩
  | .local _ .vmem, ⟨0, _⟩ => ⟨S2048x128, .f32⟩
  | .local _ .vmem, ⟨1, _⟩ => ⟨S128x128, .f32⟩
  | .local _ .vmem, ⟨2, _⟩ => ⟨S1x128, .f32⟩
  | .local _ .vmem, ⟨3, _⟩ => ⟨S512x2048, .bf16⟩
  | .local _ .vmem, ⟨4, _⟩ => ⟨S512x2048, .bf16⟩
  | .local _ .vmem, ⟨5, _⟩ => ⟨S512x128, .f32⟩
  | .local _ .vmem, ⟨6, _⟩ => ⟨S512x128, .f32⟩
  | .local _ .vmem, ⟨7, _⟩ => ⟨S2048x128, .f32⟩
  | .local _ .vmem, ⟨8, _⟩ => ⟨S128x64, .f32⟩
  | .local _ .vmem, ⟨9, _⟩ => ⟨S1x64, .f32⟩
  | .local _ .vmem, ⟨10, _⟩ => ⟨S512x2048, .bf16⟩
  | .local _ .vmem, ⟨11, _⟩ => ⟨S512x2048, .bf16⟩
  | .local _ .vmem, ⟨12, _⟩ => ⟨S512x64, .f32⟩
  | .local _ .vmem, ⟨13, _⟩ => ⟨S512x64, .f32⟩
  | .local _ .vmem, ⟨14, _⟩ => ⟨S2048x128, .f32⟩
  | .local _ .vmem, ⟨15, _⟩ => ⟨S128x64, .f32⟩
  | .local _ .vmem, ⟨16, _⟩ => ⟨S1x64, .f32⟩
  | .local _ .vmem, ⟨17, _⟩ => ⟨S512x2048, .bf16⟩
  | .local _ .vmem, ⟨18, _⟩ => ⟨S512x2048, .bf16⟩
  | .local _ .vmem, ⟨19, _⟩ => ⟨S512x64, .f32⟩
  | .local _ .vmem, ⟨20, _⟩ => ⟨S512x64, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_11 : Ref sig .tc := ⟨.hbm, 65, rfl⟩
abbrev main_call0_v0 : Ref sig .tc := ⟨.hbm, 66, rfl⟩
abbrev main_call0_v1 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem3_1 : DmaSem sig := 18
abbrev cc2_sem4_0 : DmaSem sig := 19
abbrev cc2_sem4_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S2048x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S2048x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2048x2048_S1024x1024_0_0 : S2048x2048.Slices ![0, 0] S1024x1024
  bcast_S_S1024x1024 : S_.BroadcastsInDim S1024x1024 (![] : Fin 0 → Fin S1024x1024.rank)
  bcast_S_S2048x2048 : S_.BroadcastsInDim S2048x2048 (![] : Fin 0 → Fin S2048x2048.rank)
  transposes_S1024x1024_S1024x1024_1_0 : S1024x1024.Transposes [1, 0] S1024x1024
  bcast_S_S1 : S_.BroadcastsInDim S1 (![] : Fin 0 → Fin S1.rank)
  concatenates_S1_S1_S2_d0 : Shape.Concatenates [S1, S1] S2 0
  slices_S2x65536_S1x65536_1_0 : S2x65536.Slices ![1, 0] S1x65536
  shapeCasts_S1x65536_S65536 : S1x65536.ShapeCasts S65536
  slices_S2x65536_S1x65536_0_0 : S2x65536.Slices ![0, 0] S1x65536
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x2_d1 : Shape.Concatenates [S65536x1, S65536x1] S65536x2 1
  reducesTo_S2048x2048_S2048_d1 : S2048x2048.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bitsLt_bf16_f32 : FTy.bits .bf16 < FTy.bits .f32
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  inb_S128x128_S128x128_0_0 : ∀ a, (![0, 0] : Fin 2 → Nat) a + S128x128.size a ≤ S128x128.size a
  h_S128x128 : 0 < S128x128.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  shapeCasts_S64_S1x64 : S64.ShapeCasts S1x64
  shapeCasts_S2048x128_S2048x128 : S2048x128.ShapeCasts S2048x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  scatter_S2048x2048_S2_S1024x1024_01_n_01_0_wf : ScatterDims.WF S2048x2048 S2 S1024x1024 [0, 1] [] [0, 1] 0
  scatter_S2048x2048_S65536x2_S65536_n_01_01_1_wf : ScatterDims.WF S2048x2048 S65536x2 S65536 [] [0, 1] [0, 1] 1
  dot_S2048x128_S128x128_S2048x128_1_0_0_1_n_n_wf : DotDims.WF S2048x128 S128x128 S2048x128 [1] [0] [0] [1] [] []
  dot_S512x2048_S2048x128_S512x128_1_0_0_1_n_n_wf : DotDims.WF S512x2048 S2048x128 S512x128 [1] [0] [0] [1] [] []
  dot_S2048x128_S128x64_S2048x64_1_0_0_1_n_n_wf : DotDims.WF S2048x128 S128x64 S2048x64 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S2048x128.size a
  hwx0_0 : ∀ i : grid0.Coords, EltTy.bits .f32 = 32 ∨ (Rect.block (s := S2048x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S2048x2048.size a
  hwx0_3 : ∀ i : grid0.Coords, EltTy.bits .bf16 = 32 ∨ (Rect.block (s := S2048x2048) S512x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S2048x128.size a
  hwx0_4 : ∀ i : grid0.Coords, EltTy.bits .f32 = 32 ∨ (Rect.block (s := S2048x128) S512x128.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S2048x128.size a
  hwx1_0 : ∀ i : grid1.Coords, EltTy.bits .f32 = 32 ∨ (Rect.block (s := S2048x128) S2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S2048x2048.size a
  hwx1_3 : ∀ i : grid1.Coords, EltTy.bits .bf16 = 32 ∨ (Rect.block (s := S2048x2048) S512x2048.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x64.size a ≤ S2048x64.size a
  hwx1_4 : ∀ i : grid1.Coords, EltTy.bits .f32 = 32 ∨ (Rect.block (s := S2048x64) S512x64.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S2048x128.size a
  hwx2_0 : ∀ i : grid2.Coords, EltTy.bits .f32 = 32 ∨ (Rect.block (s := S2048x128) S2048x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x2048.size a ≤ S2048x2048.size a
  hwx2_3 : ∀ i : grid2.Coords, EltTy.bits .bf16 = 32 ∨ (Rect.block (s := S2048x2048) S512x2048.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x64.size a ≤ S2048x64.size a
  hwx2_4 : ∀ i : grid2.Coords, EltTy.bits .f32 = 32 ∨ (Rect.block (s := S2048x64) S512x64.size (cc2_transform_4 i) (hinb2_4 i)).WholeWords (EltTy.packing .f32)

variable [Facts₀]

def scatter_S2048x2048_S2_S1024x1024_01_n_01_0 : ScatterDims S2048x2048 S2 S1024x1024 where
  updateWindowDims := [0, 1]
  insertedWindowDims := []
  scatterDimsToOperandDims := [0, 1]
  indexVectorDim := 0
  wf := scatter_S2048x2048_S2_S1024x1024_01_n_01_0_wf
def scatter_S2048x2048_S65536x2_S65536_n_01_01_1 : ScatterDims S2048x2048 S65536x2 S65536 where
  updateWindowDims := []
  insertedWindowDims := [0, 1]
  scatterDimsToOperandDims := [0, 1]
  indexVectorDim := 1
  wf := scatter_S2048x2048_S65536x2_S65536_n_01_01_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S2048x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v51) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v50) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v52) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v52) S2048x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S512x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v54) S512x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v52) S2048x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S512x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v56) S512x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S2048x128 : Shape := ⟨2, ![2048, 128]⟩
abbrev S2048x2048 : Shape := ⟨2, ![2048, 2048]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x65536 : Shape := ⟨2, ![2, 65536]⟩
abbrev S1024 : Shape := ⟨1, ![1024]⟩
abbrev S1024x1024 : Shape := ⟨2, ![1024, 1024]⟩
abbrev S1048576 : Shape := ⟨1, ![1048576]⟩
abbrev S1x1024 : Shape := ⟨2, ![1, 1024]⟩
abbrev S_ : Shape := ⟨0, ![]⟩
abbrev S2048 : Shape := ⟨1, ![2048]⟩
abbrev S1x65536 : Shape := ⟨2, ![1, 65536]⟩
abbrev S65536 : Shape := ⟨1, ![65536]⟩
abbrev S1116160 : Shape := ⟨1, ![1116160]⟩
abbrev S1116160x1 : Shape := ⟨2, ![1116160, 1]⟩
abbrev S1116160x128 : Shape := ⟨2, ![1116160, 128]⟩
abbrev S1x128 : Shape := ⟨2, ![1, 128]⟩
abbrev S2048x64 : Shape := ⟨2, ![2048, 64]⟩
abbrev S1116160x64 : Shape := ⟨2, ![1116160, 64]⟩
abbrev S1x64 : Shape := ⟨2, ![1, 64]⟩

abbrev nBuf : Space → Nat
  | .hbm => 197
  | .vmem => 0
  | .smem => 0
  | _ => 0

abbrev hbmTy0_0 (i : Nat) : BufTy := match i % 128 with
  | 0 => ⟨S2048x128, .f32⟩
  | 1 => ⟨S2048x2048, .f32⟩
  | 2 => ⟨S128x128, .f32⟩
  | 3 => ⟨S128, .f32⟩
  | 4 => ⟨S128x64, .f32⟩
  | 5 => ⟨S64, .f32⟩
  | 6 => ⟨S128x64, .f32⟩
  | 7 => ⟨S64, .f32⟩
  | 8 => ⟨S2x65536, .i32⟩
  | 9 => ⟨S1024, .i32⟩
  | 10 => ⟨S1024x1024, .i32⟩
  | 11 => ⟨S1048576, .i32⟩
  | 12 => ⟨S1024, .i32⟩
  | 13 => ⟨S1x1024, .i32⟩
  | 14 => ⟨S1024x1024, .i32⟩
  | 15 => ⟨S1048576, .i32⟩
  | 16 => ⟨S1024x1024, .f32⟩
  | 17 => ⟨S1048576, .f32⟩
  | 18 => ⟨S1048576, .f32⟩
  | 19 => ⟨S1048576, .f32⟩
  | 20 => ⟨S_, .f32⟩
  | 21 => ⟨S1048576, .f32⟩
  | 22 => ⟨S1048576, .f32⟩
  | 23 => ⟨S_, .f32⟩
  | 24 => ⟨S1048576, .f32⟩
  | 25 => ⟨S1048576, .f32⟩
  | 26 => ⟨S2048, .i32⟩
  | 27 => ⟨S1x65536, .i32⟩
  | 28 => ⟨S65536, .i32⟩
  | 29 => ⟨S1116160, .i32⟩
  | 30 => ⟨S1x65536, .i32⟩
  | 31 => ⟨S65536, .i32⟩
  | 32 => ⟨S1116160, .i32⟩
  | 33 => ⟨S_, .f32⟩
  | 34 => ⟨S65536, .f32⟩
  | 35 => ⟨S_, .f32⟩
  | 36 => ⟨S2048, .f32⟩
  | 37 => ⟨S1116160, .f32⟩
  | 38 => ⟨S_, .f32⟩
  | 39 => ⟨S2048, .f32⟩
  | 40 => ⟨S1116160x1, .i32⟩
  | 41 => ⟨S2048, .f32⟩
  | 42 => ⟨S_, .f32⟩
  | 43 => ⟨S2048, .f32⟩
  | 44 => ⟨S2048, .i1⟩
  | 45 => ⟨S2048, .f32⟩
  | 46 => ⟨S_, .f32⟩
  | 47 => ⟨S_, .f32⟩
  | 48 => ⟨S2048, .f32⟩
  | 49 => ⟨S2048, .f32⟩
  | 50 => ⟨S_, .i32⟩
  | 51 => ⟨S1116160, .i32⟩
  | 52 => ⟨S1116160, .i1⟩
  | 53 => ⟨S_, .i32⟩
  | 54 => ⟨S1116160, .i32⟩
  | 55 => ⟨S1116160, .i32⟩
  | 56 => ⟨S1116160, .i32⟩
  | 57 => ⟨S1116160x1, .i32⟩
  | 58 => ⟨S1116160, .f32⟩
  | 59 => ⟨S1116160, .f32⟩
  | 60 => ⟨S_, .i32⟩
  | 61 => ⟨S1116160, .i32⟩
  | 62 => ⟨S1116160, .i1⟩
  | 63 => ⟨S_, .i32⟩
  | 64 => ⟨S1116160, .i32⟩
  | 65 => ⟨S1116160, .i32⟩
  | 66 => ⟨S1116160, .i32⟩
  | 67 => ⟨S1116160x1, .i32⟩
  | 68 => ⟨S1116160, .f32⟩
  | 69 => ⟨S1116160, .f32⟩
  | 70 => ⟨S2048x128, .f32⟩
  | 71 => ⟨S_, .i32⟩
  | 72 => ⟨S1116160, .i32⟩
  | 73 => ⟨S1116160, .i1⟩
  | 74 => ⟨S_, .i32⟩
  | 75 => ⟨S1116160, .i32⟩
  | 76 => ⟨S1116160, .i32⟩
  | 77 => ⟨S1116160, .i32⟩
  | 78 => ⟨S1116160x1, .i32⟩
  | 79 => ⟨S1116160x128, .f32⟩
  | 80 => ⟨S1116160x1, .f32⟩
  | 81 => ⟨S1116160x128, .f32⟩
  | 82 => ⟨S1116160x128, .f32⟩
  | 83 => ⟨S_, .f32⟩
  | 84 => ⟨S2048x128, .f32⟩
  | 85 => ⟨S1116160x1, .i32⟩
  | 86 => ⟨S2048x128, .f32⟩
  | 87 => ⟨S1x128, .f32⟩
  | 88 => ⟨S2048x128, .f32⟩
  | 89 => ⟨S2048x128, .f32⟩
  | 90 => ⟨S_, .f32⟩
  | 91 => ⟨S2048x128, .f32⟩
  | 92 => ⟨S2048x128, .f32⟩
  | 93 => ⟨S_, .f32⟩
  | 94 => ⟨S2048, .f32⟩
  | 95 => ⟨S1116160x1, .i32⟩
  | 96 => ⟨S2048, .f32⟩
  | 97 => ⟨S_, .f32⟩
  | 98 => ⟨S2048, .f32⟩
  | 99 => ⟨S2048, .i1⟩
  | 100 => ⟨S2048, .f32⟩
  | 101 => ⟨S_, .f32⟩
  | 102 => ⟨S_, .f32⟩
  | 103 => ⟨S2048, .f32⟩
  | 104 => ⟨S2048, .f32⟩
  | 105 => ⟨S_, .i32⟩
  | 106 => ⟨S1116160, .i32⟩
  | 107 => ⟨S1116160, .i1⟩
  | 108 => ⟨S_, .i32⟩
  | 109 => ⟨S1116160, .i32⟩
  | 110 => ⟨S1116160, .i32⟩
  | 111 => ⟨S1116160, .i32⟩
  | 112 => ⟨S1116160x1, .i32⟩
  | 113 => ⟨S1116160, .f32⟩
  | 114 => ⟨S1116160, .f32⟩
  | 115 => ⟨S_, .i32⟩
  | 116 => ⟨S1116160, .i32⟩
  | 117 => ⟨S1116160, .i1⟩
  | 118 => ⟨S_, .i32⟩
  | 119 => ⟨S1116160, .i32⟩
  | 120 => ⟨S1116160, .i32⟩
  | 121 => ⟨S1116160, .i32⟩
  | 122 => ⟨S1116160x1, .i32⟩
  | 123 => ⟨S1116160, .f32⟩
  | 124 => ⟨S1116160, .f32⟩
  | 125 => ⟨S2048x64, .f32⟩
  | 126 => ⟨S_, .i32⟩
  | 127 => ⟨S1116160, .i32⟩
  | _ => ⟨S2048x128, .f32⟩

abbrev hbmTy0_1 (i : Nat) : BufTy := match i % 128 with
  | 0 => ⟨S1116160, .i1⟩
  | 1 => ⟨S_, .i32⟩
  | 2 => ⟨S1116160, .i32⟩
  | 3 => ⟨S1116160, .i32⟩
  | 4 => ⟨S1116160, .i32⟩
  | 5 => ⟨S1116160x1, .i32⟩
  | 6 => ⟨S1116160x64, .f32⟩
  | 7 => ⟨S1116160x1, .f32⟩
  | 8 => ⟨S1116160x64, .f32⟩
  | 9 => ⟨S1116160x64, .f32⟩
  | 10 => ⟨S_, .f32⟩
  | 11 => ⟨S2048x64, .f32⟩
  | 12 => ⟨S1116160x1, .i32⟩
  | 13 => ⟨S2048x64, .f32⟩
  | 14 => ⟨S1x64, .f32⟩
  | 15 => ⟨S2048x64, .f32⟩
  | 16 => ⟨S2048x64, .f32⟩
  | 17 => ⟨S_, .f32⟩
  | 18 => ⟨S2048, .f32⟩
  | 19 => ⟨S1116160x1, .i32⟩
  | 20 => ⟨S2048, .f32⟩
  | 21 => ⟨S_, .f32⟩
  | 22 => ⟨S2048, .f32⟩
  | 23 => ⟨S2048, .i1⟩
  | 24 => ⟨S2048, .f32⟩
  | 25 => ⟨S_, .f32⟩
  | 26 => ⟨S_, .f32⟩
  | 27 => ⟨S2048, .f32⟩
  | 28 => ⟨S2048, .f32⟩
  | 29 => ⟨S_, .i32⟩
  | 30 => ⟨S1116160, .i32⟩
  | 31 => ⟨S1116160, .i1⟩
  | 32 => ⟨S_, .i32⟩
  | 33 => ⟨S1116160, .i32⟩
  | 34 => ⟨S1116160, .i32⟩
  | 35 => ⟨S1116160, .i32⟩
  | 36 => ⟨S1116160x1, .i32⟩
  | 37 => ⟨S1116160, .f32⟩
  | 38 => ⟨S1116160, .f32⟩
  | 39 => ⟨S_, .i32⟩
  | 40 => ⟨S1116160, .i32⟩
  | 41 => ⟨S1116160, .i1⟩
  | 42 => ⟨S_, .i32⟩
  | 43 => ⟨S1116160, .i32⟩
  | 44 => ⟨S1116160, .i32⟩
  | 45 => ⟨S1116160, .i32⟩
  | 46 => ⟨S1116160x1, .i32⟩
  | 47 => ⟨S1116160, .f32⟩
  | 48 => ⟨S1116160, .f32⟩
  | 49 => ⟨S2048x64, .f32⟩
  | 50 => ⟨S_, .i32⟩
  | 51 => ⟨S1116160, .i32⟩
  | 52 => ⟨S1116160, .i1⟩
  | 53 => ⟨S_, .i32⟩
  | 54 => ⟨S1116160, .i32⟩
  | 55 => ⟨S1116160, .i32⟩
  | 56 => ⟨S1116160, .i32⟩
  | 57 => ⟨S1116160x1, .i32⟩
  | 58 => ⟨S1116160x64, .f32⟩
  | 59 => ⟨S1116160x1, .f32⟩
  | 60 => ⟨S1116160x64, .f32⟩
  | 61 => ⟨S1116160x64, .f32⟩
  | 62 => ⟨S_, .f32⟩
  | 63 => ⟨S2048x64, .f32⟩
  | 64 => ⟨S1116160x1, .i32⟩
  | 65 => ⟨S2048x64, .f32⟩
  | 66 => ⟨S1x64, .f32⟩
  | 67 => ⟨S2048x64, .f32⟩
  | 68 => ⟨S2048x64, .f32⟩
  | _ => ⟨S2048x128, .f32⟩

abbrev hbmTy (i : Nat) : BufTy := match i / 128 with
  | 0 => hbmTy0_0 i
  | 1 => hbmTy0_1 i
  | _ => ⟨S2048x128, .f32⟩

abbrev bufTy : (tb : Table) → Fin (tcTables nBuf tb) → BufTy
  | .hbm, ⟨i, _⟩ => hbmTy i
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_call0_v0 : Ref sig .tc := ⟨.hbm, 47, rfl⟩
abbrev main_call0_v1 : Ref sig .tc := ⟨.hbm, 48, rfl⟩
abbrev main_v31 : Ref sig .tc := ⟨.hbm, 49, rfl⟩
abbrev main_c : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_7 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_call1_cst : Ref sig .tc := ⟨.hbm, 90, rfl⟩
abbrev main_call1_v0 : Ref sig .tc := ⟨.hbm, 91, rfl⟩
abbrev main_v65 : Ref sig .tc := ⟨.hbm, 92, rfl⟩
abbrev main_cst_12 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_14 : Ref sig .tc := ⟨.hbm, 101, rfl⟩
abbrev main_call2_v0 : Ref sig .tc := ⟨.hbm, 102, rfl⟩
abbrev main_call2_v1 : Ref sig .tc := ⟨.hbm, 103, rfl⟩
abbrev main_v72 : Ref sig .tc := ⟨.hbm, 104, rfl⟩
abbrev main_c_15 : Ref sig .tc := ⟨.hbm, 105, rfl⟩
abbrev main_v73 : Ref sig .tc := ⟨.hbm, 106, rfl⟩
abbrev main_v74 : Ref sig .tc := ⟨.hbm, 107, rfl⟩
abbrev main_c_16 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_c_17 : Ref sig .tc := ⟨.hbm, 115, rfl⟩
abbrev main_v81 : Ref sig .tc := ⟨.hbm, 116, rfl⟩
abbrev main_v82 : Ref sig .tc := ⟨.hbm, 117, rfl⟩
abbrev main_c_18 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_c_19 : Ref sig .tc := ⟨.hbm, 126, rfl⟩
abbrev main_v90 : Ref sig .tc := ⟨.hbm, 127, rfl⟩
abbrev main_v91 : Ref sig .tc := ⟨.hbm, 128, rfl⟩
abbrev main_c_20 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_21 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_22 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_23 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_24 : Ref sig .tc := ⟨.hbm, 153, rfl⟩
abbrev main_call3_v0 : Ref sig .tc := ⟨.hbm, 154, rfl⟩
abbrev main_call3_v1 : Ref sig .tc := ⟨.hbm, 155, rfl⟩
abbrev main_v112 : Ref sig .tc := ⟨.hbm, 156, rfl⟩
abbrev main_c_25 : Ref sig .tc := ⟨.hbm, 157, rfl⟩
abbrev main_v113 : Ref sig .tc := ⟨.hbm, 158, rfl⟩
abbrev main_v114 : Ref sig .tc := ⟨.hbm, 159, rfl⟩
abbrev main_c_26 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_c_27 : Ref sig .tc := ⟨.hbm, 167, rfl⟩
abbrev main_v121 : Ref sig .tc := ⟨.hbm, 168, rfl⟩
abbrev main_v122 : Ref sig .tc := ⟨.hbm, 169, rfl⟩
abbrev main_c_28 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_c_29 : Ref sig .tc := ⟨.hbm, 178, rfl⟩
abbrev main_v130 : Ref sig .tc := ⟨.hbm, 179, rfl⟩
abbrev main_v131 : Ref sig .tc := ⟨.hbm, 180, rfl⟩
abbrev main_c_30 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_cst_31 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩

abbrev nD : Nat := 1
abbrev τ : Topo := Topo.v7x

variable {F : FTy → Type} [FloatOps F]

class Facts₀ : Prop where
  bcast_S1024_S1024x1024_0 : S1024.BroadcastsInDim S1024x1024 (![0] : Fin 1 → Fin S1024x1024.rank)
  shapeCasts_S1024x1024_S1048576 : S1024x1024.ShapeCasts S1048576
  shapeCasts_S1024_S1x1024 : S1024.ShapeCasts S1x1024
  bcast_S1x1024_S1024x1024_0_1 : S1x1024.BroadcastsInDim S1024x1024 (![0, 1] : Fin 2 → Fin S1024x1024.rank)
  slices_S2048x2048_S1024x1024_0_0 : S2048x2048.Slices ![0, 0] S1024x1024
  bcast_S_S1048576 : S_.BroadcastsInDim S1048576 (![] : Fin 0 → Fin S1048576.rank)
  slices_S2x65536_S1x65536_0_0 : S2x65536.Slices ![0, 0] S1x65536
  shapeCasts_S1x65536_S65536 : S1x65536.ShapeCasts S65536
  concatenates_S65536_S1048576_S2048_S1116160_d0 : Shape.Concatenates [S65536, S1048576, S2048] S1116160 0
  slices_S2x65536_S1x65536_1_0 : S2x65536.Slices ![1, 0] S1x65536
  bcast_S_S65536 : S_.BroadcastsInDim S65536 (![] : Fin 0 → Fin S65536.rank)
  bcast_S_S2048 : S_.BroadcastsInDim S2048 (![] : Fin 0 → Fin S2048.rank)
  bcast_S1116160_S1116160x1_0 : S1116160.BroadcastsInDim S1116160x1 (![0] : Fin 1 → Fin S1116160x1.rank)
  bcast_S_S1116160 : S_.BroadcastsInDim S1116160 (![] : Fin 0 → Fin S1116160.rank)
  bcast_S1116160x1_S1116160x128_0_1 : S1116160x1.BroadcastsInDim S1116160x128 (![0, 1] : Fin 2 → Fin S1116160x128.rank)
  bcast_S_S2048x128 : S_.BroadcastsInDim S2048x128 (![] : Fin 0 → Fin S2048x128.rank)
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  bcast_S1116160x1_S1116160x64_0_1 : S1116160x1.BroadcastsInDim S1116160x64 (![0, 1] : Fin 2 → Fin S1116160x64.rank)
  bcast_S_S2048x64 : S_.BroadcastsInDim S2048x64 (![] : Fin 0 → Fin S2048x64.rank)
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  scatter_S2048_S1116160x1_S1116160_n_0_0_1_wf : ScatterDims.WF S2048 S1116160x1 S1116160 [] [0] [0] 1
  gather_S2048_S1116160x1_S1116160_n_0_n_n_0_1_1_wf : GatherDims.WF S2048 S1116160x1 S1116160 [] [0] [] [0] [] 1 ![1]
  dot_S2048x128_S128x128_S2048x128_1_0_0_1_n_n_wf : DotDims.WF S2048x128 S128x128 S2048x128 [1] [0] [0] [1] [] []
  gather_S2048x128_S1116160x1_S1116160x128_1_0_n_n_0_1_1128_wf : GatherDims.WF S2048x128 S1116160x1 S1116160x128 [1] [0] [] [0] [] 1 ![1, 128]
  scatter_S2048x128_S1116160x1_S1116160x128_1_0_0_1_wf : ScatterDims.WF S2048x128 S1116160x1 S1116160x128 [1] [0] [0] 1
  dot_S2048x128_S128x64_S2048x64_1_0_0_1_n_n_wf : DotDims.WF S2048x128 S128x64 S2048x64 [1] [0] [0] [1] [] []
  gather_S2048x64_S1116160x1_S1116160x64_1_0_n_n_0_1_164_wf : GatherDims.WF S2048x64 S1116160x1 S1116160x64 [1] [0] [] [0] [] 1 ![1, 64]
  scatter_S2048x64_S1116160x1_S1116160x64_1_0_0_1_wf : ScatterDims.WF S2048x64 S1116160x1 S1116160x64 [1] [0] [0] 1

variable [Facts₀]

def scatter_S2048_S1116160x1_S1116160_n_0_0_1 : ScatterDims S2048 S1116160x1 S1116160 where
  updateWindowDims := []
  insertedWindowDims := [0]
  scatterDimsToOperandDims := [0]
  indexVectorDim := 1
  wf := scatter_S2048_S1116160x1_S1116160_n_0_0_1_wf
def gather_S2048_S1116160x1_S1116160_n_0_n_n_0_1_1 : GatherDims S2048 S1116160x1 S1116160 where
  offsetDims := []
  collapsedSliceDims := [0]
  operandBatchingDims := []
  startIndicesBatchingDims := []
  startIndexMap := [0]
  indexVectorDim := 1
  sliceSizes := ![1]
  wf := gather_S2048_S1116160x1_S1116160_n_0_n_n_0_1_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def gather_S2048x128_S1116160x1_S1116160x128_1_0_n_n_0_1_1128 : GatherDims S2048x128 S1116160x1 S1116160x128 where
  offsetDims := [1]
  collapsedSliceDims := [0]
  operandBatchingDims := []
  startIndicesBatchingDims := []
  startIndexMap := [0]
  indexVectorDim := 1
  sliceSizes := ![1, 128]
  wf := gather_S2048x128_S1116160x1_S1116160x128_1_0_n_n_0_1_1128_wf
def scatter_S2048x128_S1116160x1_S1116160x128_1_0_0_1 : ScatterDims S2048x128 S1116160x1 S1116160x128 where
  updateWindowDims := [1]
  insertedWindowDims := [0]
  scatterDimsToOperandDims := [0]
  indexVectorDim := 1
  wf := scatter_S2048x128_S1116160x1_S1116160x128_1_0_0_1_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def gather_S2048x64_S1116160x1_S1116160x64_1_0_n_n_0_1_164 : GatherDims S2048x64 S1116160x1 S1116160x64 where
  offsetDims := [1]
  collapsedSliceDims := [0]
  operandBatchingDims := []
  startIndicesBatchingDims := []
  startIndexMap := [0]
  indexVectorDim := 1
  sliceSizes := ![1, 64]
  wf := gather_S2048x64_S1116160x1_S1116160x64_1_0_n_n_0_1_164_wf
def scatter_S2048x64_S1116160x1_S1116160x64_1_0_0_1 : ScatterDims S2048x64 S1116160x1 S1116160x64 where
  updateWindowDims := [1]
  insertedWindowDims := [0]
  scatterDimsToOperandDims := [0]
  indexVectorDim := 1
  wf := scatter_S2048x64_S1116160x1_S1116160x64_1_0_0_1_wf

class Facts : Prop extends Facts₀ where

variable [Facts]
-- ==== Proof.GcnSpec.lean ====
/-
  The graph-convolution mathematics both programs compute, stated once over plain index types.

  A graph on 2048 nodes is given by three groups of weighted directed edges: 65536 "sparse" edges
  (source and destination read from an index table, weight 1), the 1024 x 1024 "dense" pairs (r, c)
  with weight the logistic of an input entry, and the 2048 self loops of weight 1.  One layer sends
  node features H to  agg(H W) + b,  where agg is the degree-normalised neighbourhood sum
  agg(G)_i = sum over edges e into i of  G_(src e) * dinv_(src e) * w_e * dinv_(dst e),
  deg_i = sum of the weights of the edges into i, and dinv = deg^(-1/2) where deg > 0, else 0.

  The sum can be laid out in two ways.  EDGE-WISE (suffix R): one term per edge of the concatenated
  list of all 1116160 edges.  DENSE (suffix K): first collect the weights into a 2048 x 2048 matrix
  adj_(i j) = total weight of the edges j -> i, normalise it, and multiply.  This file defines both
  layouts; that they agree is proved separately.
-/
import Idealize.ShloMosaic.PureOps.Ideal
import Idealize.ShloMosaic.Lib.ValueIdx

noncomputable section

namespace Cert.Gcn

open Idealize.ShloMosaic Idealize.ShloMosaic.ValueIdx

/-! ## The inputs read as plain functions -/

/-- The logistic of entry (r, c) of the top-left 1024 x 1024 block of a 2048 x 2048 array, as the
    quotient 1 / (1 + exp (-t)) on the extended reals. -/
def sgOf (y : (⟨2, ![2048, 2048]⟩ : Shape).Idx → EReal) (r c : Fin 1024) : EReal :=
  Ideal.div (Ideal.ofBits .f32 0x3F800000#32)
    (Ideal.ofBits .f32 0x3F800000#32 + Ideal.exp (- y (ix2 (⟨r.val, by omega⟩ : Fin 2048) (⟨c.val, by omega⟩ : Fin 2048))))

/-- Row `r` (0: sources, 1: destinations) of the 2 x 65536 edge table, as node numbers. The table's
    words are read unsigned and reduced modulo 2048: the identity on the words 0 ≤ w < 2048. -/
def nodeOf (ei : IVec (⟨2, ![2, 65536]⟩ : Shape) 32) (r : Fin 2) (e : Fin 65536) : Fin 2048 :=
  ⟨(ei (ix2 r e)).toNat % 2048, Nat.mod_lt _ (by norm_num)⟩

/-- The table's words are node numbers: signed, between 0 and 2047. -/
def InRange (ei : IVec (⟨2, ![2, 65536]⟩ : Shape) 32) : Prop :=
  ∀ (r : Fin 2) (e : Fin 65536), 0 ≤ (ei (ix2 r e)).toInt ∧ (ei (ix2 r e)).toInt < 2048

/-- `dinv`: the inverse square root of a positive degree, 0 otherwise. -/
def dinvOf (deg : EReal) : EReal := if 0 < deg then Ideal.rsqrt deg else 0

/-- The rectifier. -/
def relu (t : EReal) : EReal := max t 0

/-- The feature projection (H W)_(j c). -/
def proj {C : Nat} (H : Fin 2048 → Fin 128 → EReal) (W : Fin 128 → Fin C → EReal) (j : Fin 2048) (c : Fin C) : EReal :=
  ∑ k : Fin 128, H j k * W k c

section Graph

variable (src dst : Fin 65536 → Fin 2048) (sg : Fin 1024 → Fin 1024 → EReal)

/-! ## The edge-wise layout: one list of 1116160 = 65536 + 1048576 + 2048 edges -/

/-- Source of edge `e`: a sparse edge's table entry; the dense pair k = 1024 r + c has source r; loop l has source l. -/
def eSrc (e : Fin 1116160) : Fin 2048 :=
  if h : e.val < 65536 then src ⟨e.val, h⟩
  else if _h2 : e.val < 1114112 then ⟨(e.val - 65536) / 1024, by omega⟩
  else ⟨e.val - 1114112, by omega⟩

/-- Destination of edge `e`: a sparse edge's table entry; the dense pair k = 1024 r + c has destination c; loop l has destination l. -/
def eDst (e : Fin 1116160) : Fin 2048 :=
  if h : e.val < 65536 then dst ⟨e.val, h⟩
  else if _h2 : e.val < 1114112 then ⟨(e.val - 65536) % 1024, by omega⟩
  else ⟨e.val - 1114112, by omega⟩

/-- Weight of edge `e`: 1 on sparse edges and loops, the logistic entry (r, c) on the dense pair k = 1024 r + c. -/
def eW (e : Fin 1116160) : EReal :=
  if _h : e.val < 65536 then 1
  else if _h2 : e.val < 1114112 then sg ⟨(e.val - 65536) / 1024, by omega⟩ ⟨(e.val - 65536) % 1024, by omega⟩
  else 1

/-- Degree of node i: the weights of the edges into i, summed onto 0. -/
def degR (i : Fin 2048) : EReal := 0 + ∑ e ∈ Finset.univ.filter (fun e : Fin 1116160 => eDst dst e = i), eW sg e

/-- The normalised weight of edge e. -/
def normR (e : Fin 1116160) : EReal :=
  (dinvOf (degR dst sg (eSrc src e)) * eW sg e) * dinvOf (degR dst sg (eDst dst e))

/-- Edge-wise aggregation of node features G. -/
def aggR {C : Nat} (G : Fin 2048 → Fin C → EReal) (i : Fin 2048) (c : Fin C) : EReal :=
  0 + ∑ e ∈ Finset.univ.filter (fun e : Fin 1116160 => eDst dst e = i), G (eSrc src e) c * normR src dst sg e

/-- One layer, edge-wise. -/
def layerR {C : Nat} (H : Fin 2048 → Fin 128 → EReal) (W : Fin 128 → Fin C → EReal) (b : Fin C → EReal)
    (i : Fin 2048) (c : Fin C) : EReal :=
  aggR src dst sg (proj H W) i c + b c

/-! ## The dense layout: a 2048 x 2048 weight matrix -/

/-- adj_(i j): the total weight of the edges j -> i — the transposed logistic block, the identity, and the
    number of sparse edges from j to i. -/
def adjK (i j : Fin 2048) : EReal :=
  ((if h : i.val < 1024 ∧ j.val < 1024 then 0 + sg ⟨j.val, h.2⟩ ⟨i.val, h.1⟩ else 0) + (if i = j then 1 else 0))
    + ∑ _e ∈ Finset.univ.filter (fun e : Fin 65536 => dst e = i ∧ src e = j), (1 : EReal)

/-- Degree of node i: the row sum of adj, onto 0. -/
def degK (i : Fin 2048) : EReal := 0 + ∑ j : Fin 2048, adjK src dst sg i j

/-- The normalised matrix. -/
def normK (i j : Fin 2048) : EReal :=
  (dinvOf (degK src dst sg i) * adjK src dst sg i j) * dinvOf (degK src dst sg j)

/-- Dense aggregation of node features G: a matrix product. -/
def aggK {C : Nat} (G : Fin 2048 → Fin C → EReal) (i : Fin 2048) (c : Fin C) : EReal :=
  ∑ j : Fin 2048, normK src dst sg i j * G j c

/-- One layer, dense. -/
def layerK {C : Nat} (H : Fin 2048 → Fin 128 → EReal) (W : Fin 128 → Fin C → EReal) (b : Fin C → EReal)
    (i : Fin 2048) (c : Fin C) : EReal :=
  aggK src dst sg (proj H W) i c + b c

end Graph

/-! ## The two-layer network, in either layout -/

section Net

variable (x : (⟨2, ![2048, 128]⟩ : Shape).Idx → EReal) (y : (⟨2, ![2048, 2048]⟩ : Shape).Idx → EReal)
  (W1 : (⟨2, ![128, 128]⟩ : Shape).Idx → EReal) (b1 : (⟨1, ![128]⟩ : Shape).Idx → EReal)
  (ei : IVec (⟨2, ![2, 65536]⟩ : Shape) 32)

/-- The hidden features, dense layout: relu of the first layer. -/
def hiddenK (i : Fin 2048) (c : Fin 128) : EReal :=
  relu (layerK (nodeOf ei 0) (nodeOf ei 1) (sgOf y) (fun j k => x (ix2 j k)) (fun k c => W1 (ix2 k c)) (fun c => b1 (ix1 c)) i c)

/-- The hidden features, edge-wise layout. -/
def hiddenR (i : Fin 2048) (c : Fin 128) : EReal :=
  relu (layerR (nodeOf ei 0) (nodeOf ei 1) (sgOf y) (fun j k => x (ix2 j k)) (fun k c => W1 (ix2 k c)) (fun c => b1 (ix1 c)) i c)

/-- An output head (mu or log-std) over the hidden features, dense layout. -/
def headK (Wo : (⟨2, ![128, 64]⟩ : Shape).Idx → EReal) (bo : (⟨1, ![64]⟩ : Shape).Idx → EReal) (i : Fin 2048) (c : Fin 64) : EReal :=
  layerK (nodeOf ei 0) (nodeOf ei 1) (sgOf y) (hiddenK x y W1 b1 ei) (fun k c => Wo (ix2 k c)) (fun c => bo (ix1 c)) i c

/-- An output head over the hidden features, edge-wise layout. -/
def headR (Wo : (⟨2, ![128, 64]⟩ : Shape).Idx → EReal) (bo : (⟨1, ![64]⟩ : Shape).Idx → EReal) (i : Fin 2048) (c : Fin 64) : EReal :=
  layerR (nodeOf ei 0) (nodeOf ei 1) (sgOf y) (hiddenR x y W1 b1 ei) (fun k c => Wo (ix2 k c)) (fun c => bo (ix1 c)) i c

end Net

end Cert.Gcn

end
-- ==== Proof.PreRange.lean ====
/-
  The certificate's precondition, read: every word of the edge table is a node number.
-/
import proofs.«420779_j55757265436854_1_alg».proof.Pre_finite_inputs
import proofs.«420779_j55757265436854_1_alg».proof.Proof.GcnSpec
import Idealize.ShloMosaic.Lib.ReduceAll
import Idealize.ShloMosaic.Lib.StableHlo.Predicate

noncomputable section

namespace Cert.Gcn

open Idealize.ShloMosaic Idealize.ShloMosaic.ValueIdx

instance : Subsingleton (⟨0, ![]⟩ : Shape).Idx := ⟨fun a b => funext fun d => d.elim0⟩

/-- A 32-bit word that is at least 0 and less than 2048 as a signed number. -/
theorem word_range (w : BitVec 32) (h0 : IntOp.cmpi .sge w 0#32 = 1#1) (h1 : IntOp.cmpi .slt w 2048#32 = 1#1) :
    0 ≤ w.toInt ∧ w.toInt < 2048 := by
  have z : (0#32 : BitVec 32).toInt = 0 := by decide
  have t : (2048#32 : BitVec 32).toInt = 2048 := by decide
  simp only [IntOp.cmpi, StableHlo.Predicate.ofBool_eq_one_iff, BitVec.sle, BitVec.slt, decide_eq_true_eq, z, t] at h0 h1
  exact ⟨h0, h1⟩

/-- Under the precondition every word of the edge table is a node number. -/
theorem inRange_of_pre [Cert.Pre_finite_inputs.Facts]
    (a0 : FVec Ideal Cert.Pre_finite_inputs.S2048x128 .f32) (a1 : FVec Ideal Cert.Pre_finite_inputs.S2048x2048 .f32)
    (a2 : FVec Ideal Cert.Pre_finite_inputs.S128x128 .f32) (a3 : FVec Ideal Cert.Pre_finite_inputs.S128 .f32)
    (a4 : FVec Ideal Cert.Pre_finite_inputs.S128x64 .f32) (a5 : FVec Ideal Cert.Pre_finite_inputs.S64 .f32)
    (a6 : FVec Ideal Cert.Pre_finite_inputs.S128x64 .f32) (a7 : FVec Ideal Cert.Pre_finite_inputs.S64 .f32)
    (a8 : IVec Cert.Pre_finite_inputs.S2x65536 32)
    (h : Cert.Pre_finite_inputs.fn (F := Ideal) a0 a1 a2 a3 a4 a5 a6 a7 a8 = fun _ => 1#1) : InRange a8 := by
  have e := congrFun h ix0
  dsimp only [Cert.Pre_finite_inputs.fn, Cert.Pre_finite_inputs.fn_part1, Cert.Pre_finite_inputs.fn_part2] at e
  have and1 : ∀ a b : BitVec 1, IntOp.andi a b = 1#1 → a = 1#1 ∧ b = 1#1 := by decide
  obtain ⟨e1, hlt⟩ := and1 _ _ e
  obtain ⟨_, hge⟩ := and1 _ _ e1
  intro r k
  have g := Host.reduce_andi_all _ _ _ _ ix0 hge (ix2 r k)
  have l := Host.reduce_andi_all _ _ _ _ ix0 hlt (ix2 r k)
  exact word_range _ g l

end Cert.Gcn

end
-- ==== Proof.GcnBridge.lean ====
/-
  The dense layout of the graph convolution equals the edge-wise layout.

  adj_(i j) is the total weight of the edges j -> i: the list of all edges splits into its three groups, the
  sparse edges contribute their count, the dense pairs the one pair (j, i), the loops the diagonal.  Summing
  over j gives the degrees.  For one layer the edge sum is grouped by source and the normalising factors are
  moved inside the sum: in the extended reals multiplication distributes over a sum of nonnegative terms
  whatever the other factor is, and all weights and all inverse square roots of degrees are nonnegative.
-/
import proofs.«420779_j55757265436854_1_alg».proof.Proof.GcnSpec
import Idealize.ShloMosaic.Lib.IdealHost

noncomputable section

namespace Cert.Gcn

open Idealize.ShloMosaic Idealize.ShloMosaic.ValueIdx

/-- The exponential is nonnegative on every extended real. -/
theorem exp_nonneg' (t : EReal) : 0 ≤ Ideal.exp t := by
  induction t using EReal.rec with
  | bot => simp
  | top => simp
  | coe r => rw [Ideal.exp_coe]; exact EReal.coe_nonneg.mpr (Real.exp_pos r).le

/-- The logistic is nonnegative on every extended real. -/
theorem sgOf_nonneg (y : (⟨2, ![2048, 2048]⟩ : Shape).Idx → EReal) (r c : Fin 1024) : 0 ≤ sgOf y r c := by
  unfold sgOf
  rw [Ideal.ofBits_one_f32]
  generalize (- y (ix2 (⟨r.val, by omega⟩ : Fin 2048) (⟨c.val, by omega⟩ : Fin 2048))) = t
  have h0 : 0 ≤ Ideal.exp t := exp_nonneg' t
  have hpos : (0 : EReal) < 1 + Ideal.exp t :=
    lt_of_lt_of_le zero_lt_one (le_add_of_nonneg_right h0)
  unfold Ideal.div
  rw [if_neg hpos.ne', one_mul]
  exact EReal.inv_nonneg_of_nonneg hpos.le

/-- dinv is nonnegative. -/
theorem dinvOf_nonneg (d : EReal) : 0 ≤ dinvOf d := by
  unfold dinvOf
  split_ifs with h
  · induction d using EReal.rec with
    | bot => exact absurd h (by simp)
    | top => simp
    | coe r =>
      have hr : 0 < r := by exact_mod_cast h
      rw [Ideal.rsqrt_coe, if_neg (not_lt.mpr hr.le), if_neg hr.ne']
      exact EReal.coe_nonneg.mpr (inv_nonneg.mpr (Real.sqrt_nonneg r))
  · exact le_rfl

/-- Multiplication distributes over a finite sum of nonnegative extended reals, whatever the factor. -/
theorem mul_sum_nonneg {ι : Type*} (s : Finset ι) (f : ι → EReal) (hf : ∀ i ∈ s, 0 ≤ f i) (a : EReal) :
    a * ∑ i ∈ s, f i = ∑ i ∈ s, a * f i := by
  classical
  induction s using Finset.induction_on with
  | empty => simp
  | insert x s hx ih =>
    rw [Finset.sum_insert hx, Finset.sum_insert hx,
      EReal.left_distrib_of_nonneg (hf x (Finset.mem_insert_self x s))
        (Finset.sum_nonneg fun i hi => hf i (Finset.mem_insert_of_mem hi)),
      ih fun i hi => hf i (Finset.mem_insert_of_mem hi)]

/-- The same with the factor on the right. -/
theorem sum_mul_nonneg {ι : Type*} (s : Finset ι) (f : ι → EReal) (hf : ∀ i ∈ s, 0 ≤ f i) (a : EReal) :
    (∑ i ∈ s, f i) * a = ∑ i ∈ s, f i * a := by
  rw [mul_comm, mul_sum_nonneg s f hf a]
  exact Finset.sum_congr rfl fun i _ => mul_comm _ _

/-- The normalised neighbourhood sum, grouped by source: edges e : E with endpoints in V, nonnegative weights
    and nonnegative node factors; the features g are arbitrary extended reals. -/
theorem agg_general {E V : Type*} [Fintype E] [Fintype V] [DecidableEq V] (sE dE : E → V) (w : E → EReal)
    (hw : ∀ e, 0 ≤ w e) (d : V → EReal) (hd : ∀ v, 0 ≤ d v) (g : V → EReal) (i : V) :
    ∑ j : V, ((d i * ∑ e ∈ Finset.univ.filter (fun e => dE e = i ∧ sE e = j), w e) * d j) * g j
      = ∑ e ∈ Finset.univ.filter (fun e => dE e = i), g (sE e) * ((d (sE e) * w e) * d (dE e)) := by
  rw [← Finset.sum_fiberwise (Finset.univ.filter (fun e => dE e = i)) sE]
  refine Finset.sum_congr rfl fun j _ => ?_
  rw [Finset.filter_filter]
  rw [mul_sum_nonneg _ _ (fun e _ => hw e), sum_mul_nonneg _ _ (fun e _ => mul_nonneg (hd i) (hw e)),
    sum_mul_nonneg _ _ (fun e _ => mul_nonneg (mul_nonneg (hd i) (hw e)) (hd j))]
  refine Finset.sum_congr rfl fun e he => ?_
  obtain ⟨h1, h2⟩ := (Finset.mem_filter.mp he).2
  rw [h1, h2]
  ac_rfl

/-- A sum over n = a + b indices is the sum over the first a plus the sum over the last b. -/
theorem sum_fin_add' {M : Type*} [AddCommMonoid M] (a b n : ℕ) (h : a + b = n) (f : Fin n → M) :
    ∑ e, f e = ∑ x : Fin a, f ⟨x.val, by omega⟩ + ∑ y : Fin b, f ⟨a + y.val, by omega⟩ := by
  subst h
  rw [Fin.sum_univ_add]; rfl

/-- A sum over 1024 * 1024 indices k = 1024 r + c is the double sum over r and c. -/
theorem sum_fin_sq {M : Type*} [AddCommMonoid M] (f : Fin 1048576 → M) :
    ∑ k, f k = ∑ r : Fin 1024, ∑ c : Fin 1024, f ⟨c.val + 1024 * r.val, by omega⟩ := by
  rw [← (finProdFinEquiv (m := 1024) (n := 1024)).sum_comp, Fintype.sum_prod_type]; rfl

/-- The list of all edges splits into its three groups. -/
theorem sum_edges {M : Type*} [AddCommMonoid M] (f : Fin 1116160 → M) :
    ∑ e, f e = ∑ a : Fin 65536, f ⟨a.val, by omega⟩
      + (∑ r : Fin 1024, ∑ c : Fin 1024, f ⟨65536 + (c.val + 1024 * r.val), by omega⟩
        + ∑ l : Fin 2048, f ⟨1114112 + l.val, by omega⟩) := by
  rw [sum_fin_add' 65536 1050624 1116160 rfl f,
    sum_fin_add' 1048576 2048 1050624 rfl (fun y => f ⟨65536 + y.val, by omega⟩),
    sum_fin_sq (fun k => f ⟨65536 + k.val, by omega⟩)]
  refine congrArg₂ (· + ·) rfl (congrArg₂ (· + ·) rfl ?_)
  exact Finset.sum_congr rfl fun l _ => congrArg f (Fin.ext (by simp only []; omega))

section Points

variable (src dst : Fin 65536 → Fin 2048) (sg : Fin 1024 → Fin 1024 → EReal)

/-! ### The three groups of edges, read at their own indices -/

theorem eDst_sparse (a : Fin 65536) (h : a.val < 1116160) : eDst dst ⟨a.val, h⟩ = dst a := by
  simp only [eDst, dif_pos a.isLt]

theorem eSrc_sparse (a : Fin 65536) (h : a.val < 1116160) : eSrc src ⟨a.val, h⟩ = src a := by
  simp only [eSrc, dif_pos a.isLt]

theorem eW_sparse (a : Fin 65536) (h : a.val < 1116160) : eW sg ⟨a.val, h⟩ = 1 := by
  simp only [eW, dif_pos a.isLt]

theorem eDst_dense (r c : Fin 1024) (h : 65536 + (c.val + 1024 * r.val) < 1116160) :
    eDst dst ⟨65536 + (c.val + 1024 * r.val), h⟩ = ⟨c.val, by omega⟩ := by
  have h1 : ¬ (65536 + (c.val + 1024 * r.val) < 65536) := by omega
  have h2 : 65536 + (c.val + 1024 * r.val) < 1114112 := by omega
  simp only [eDst, dif_neg h1, dif_pos h2]
  exact Fin.ext (by simp only []; omega)

theorem eSrc_dense (r c : Fin 1024) (h : 65536 + (c.val + 1024 * r.val) < 1116160) :
    eSrc src ⟨65536 + (c.val + 1024 * r.val), h⟩ = ⟨r.val, by omega⟩ := by
  have h1 : ¬ (65536 + (c.val + 1024 * r.val) < 65536) := by omega
  have h2 : 65536 + (c.val + 1024 * r.val) < 1114112 := by omega
  simp only [eSrc, dif_neg h1, dif_pos h2]
  exact Fin.ext (by simp only []; omega)

theorem eW_dense (r c : Fin 1024) (h : 65536 + (c.val + 1024 * r.val) < 1116160) :
    eW sg ⟨65536 + (c.val + 1024 * r.val), h⟩ = sg r c := by
  have h1 : ¬ (65536 + (c.val + 1024 * r.val) < 65536) := by omega
  have h2 : 65536 + (c.val + 1024 * r.val) < 1114112 := by omega
  simp only [eW, dif_neg h1, dif_pos h2]
  exact congrArg₂ sg (Fin.ext (by simp only []; omega)) (Fin.ext (by simp only []; omega))

theorem eDst_loop (l : Fin 2048) (h : 1114112 + l.val < 1116160) : eDst dst ⟨1114112 + l.val, h⟩ = l := by
  have h1 : ¬ (1114112 + l.val < 65536) := by omega
  have h2 : ¬ (1114112 + l.val < 1114112) := by omega
  simp only [eDst, dif_neg h1, dif_neg h2]
  exact Fin.ext (by simp only []; omega)

theorem eSrc_loop (l : Fin 2048) (h : 1114112 + l.val < 1116160) : eSrc src ⟨1114112 + l.val, h⟩ = l := by
  have h1 : ¬ (1114112 + l.val < 65536) := by omega
  have h2 : ¬ (1114112 + l.val < 1114112) := by omega
  simp only [eSrc, dif_neg h1, dif_neg h2]
  exact Fin.ext (by simp only []; omega)

theorem eW_loop (l : Fin 2048) (h : 1114112 + l.val < 1116160) : eW sg ⟨1114112 + l.val, h⟩ = 1 := by
  have h1 : ¬ (1114112 + l.val < 65536) := by omega
  have h2 : ¬ (1114112 + l.val < 1114112) := by omega
  simp only [eW, dif_neg h1, dif_neg h2]

/-- The dense pairs with destination i and source j: the one pair (j, i) when both are below 1024, none otherwise. -/
theorem dense_part (i j : Fin 2048) :
    (∑ r : Fin 1024, ∑ c : Fin 1024,
        if ((⟨c.val, by omega⟩ : Fin 2048) = i ∧ (⟨r.val, by omega⟩ : Fin 2048) = j) then sg r c else 0)
      = if h : i.val < 1024 ∧ j.val < 1024 then sg ⟨j.val, h.2⟩ ⟨i.val, h.1⟩ else 0 := by
  by_cases h : i.val < 1024 ∧ j.val < 1024
  · rw [dif_pos h, Finset.sum_eq_single (⟨j.val, h.2⟩ : Fin 1024), Finset.sum_eq_single (⟨i.val, h.1⟩ : Fin 1024)]
    · exact if_pos ⟨Fin.ext rfl, Fin.ext rfl⟩
    · intro c _ hc
      exact if_neg fun hh => hc (Fin.ext (by have := congrArg Fin.val hh.1; simpa using this))
    · intro hh; exact absurd (Finset.mem_univ _) hh
    · intro r _ hr
      exact Finset.sum_eq_zero fun c _ =>
        if_neg fun hh => hr (Fin.ext (by have := congrArg Fin.val hh.2; simpa using this))
    · intro hh; exact absurd (Finset.mem_univ _) hh
  · rw [dif_neg h]
    exact Finset.sum_eq_zero fun r _ => Finset.sum_eq_zero fun c _ =>
      if_neg fun hh => h ⟨by rw [← hh.1]; exact c.isLt, by rw [← hh.2]; exact r.isLt⟩

/-- The loops with destination i and source j: one when i = j. -/
theorem loop_part (i j : Fin 2048) :
    (∑ l : Fin 2048, if (l = i ∧ l = j) then (1 : EReal) else 0) = if i = j then 1 else 0 := by
  by_cases hij : i = j
  · subst hij
    rw [if_pos rfl, Finset.sum_eq_single i]
    · exact if_pos ⟨rfl, rfl⟩
    · intro l _ hl; exact if_neg fun hh => hl hh.1
    · intro hh; exact absurd (Finset.mem_univ _) hh
  · rw [if_neg hij]
    exact Finset.sum_eq_zero fun l _ => if_neg fun hh => hij (hh.1.symm.trans hh.2)

/-- adj_(i j) is the total weight of the edges from j to i. -/
theorem adjK_eq (i j : Fin 2048) :
    adjK src dst sg i j
      = ∑ e ∈ Finset.univ.filter (fun e : Fin 1116160 => eDst dst e = i ∧ eSrc src e = j), eW sg e := by
  rw [Finset.sum_filter, sum_edges]
  simp only [eDst_sparse, eSrc_sparse, eW_sparse, eDst_dense, eSrc_dense, eW_dense, eDst_loop, eSrc_loop, eW_loop]
  rw [dense_part, loop_part, ← Finset.sum_filter]
  unfold adjK
  simp only [zero_add]
  rw [add_comm]

end Points

/-- The two degree vectors agree. -/
theorem degK_eq_degR (src dst : Fin 65536 → Fin 2048) (sg : Fin 1024 → Fin 1024 → EReal) (i : Fin 2048) :
    degK src dst sg i = degR dst sg i := by
  unfold degK degR
  refine congrArg (0 + ·) ?_
  rw [← Finset.sum_fiberwise (Finset.univ.filter (fun e : Fin 1116160 => eDst dst e = i)) (eSrc src)]
  refine Finset.sum_congr rfl fun j _ => ?_
  rw [adjK_eq, Finset.filter_filter]

/-- Every edge weight is nonnegative when the dense weights are. -/
theorem eW_nonneg (sg : Fin 1024 → Fin 1024 → EReal) (hsg : ∀ r c, 0 ≤ sg r c) (e : Fin 1116160) : 0 ≤ eW sg e := by
  unfold eW
  split_ifs
  · exact zero_le_one
  · exact hsg _ _
  · exact zero_le_one

/-- One layer: the dense layout equals the edge-wise layout, for nonnegative dense weights and any features. -/
theorem layerK_eq_layerR (src dst : Fin 65536 → Fin 2048) (sg : Fin 1024 → Fin 1024 → EReal) (hsg : ∀ r c, 0 ≤ sg r c)
    {C : Nat} (H : Fin 2048 → Fin 128 → EReal) (W : Fin 128 → Fin C → EReal) (b : Fin C → EReal) (i : Fin 2048) (c : Fin C) :
    layerK src dst sg H W b i c = layerR src dst sg H W b i c := by
  unfold layerK layerR
  refine congrArg (· + b c) ?_
  unfold aggK aggR normK normR
  rw [zero_add]
  simp only [degK_eq_degR, adjK_eq]
  exact agg_general (eSrc src) (eDst dst) (eW sg) (eW_nonneg sg hsg) (fun v => dinvOf (degR dst sg v))
    (fun v => dinvOf_nonneg _) (fun v => proj H W v c) i

/-- An output head: the dense layout equals the edge-wise layout. -/
theorem headK_eq_headR (x : (⟨2, ![2048, 128]⟩ : Shape).Idx → EReal) (y : (⟨2, ![2048, 2048]⟩ : Shape).Idx → EReal)
    (W1 : (⟨2, ![128, 128]⟩ : Shape).Idx → EReal) (b1 : (⟨1, ![128]⟩ : Shape).Idx → EReal)
    (ei : IVec (⟨2, ![2, 65536]⟩ : Shape) 32)
    (Wo : (⟨2, ![128, 64]⟩ : Shape).Idx → EReal) (bo : (⟨1, ![64]⟩ : Shape).Idx → EReal) (i : Fin 2048) (c : Fin 64) :
    headK x y W1 b1 ei Wo bo i c = headR x y W1 b1 ei Wo bo i c := by
  have hh : hiddenK x y W1 b1 ei = hiddenR x y W1 b1 ei := by
    funext i c
    unfold hiddenK hiddenR
    rw [layerK_eq_layerR _ _ _ (sgOf_nonneg y)]
  unfold headK headR
  rw [hh, layerK_eq_layerR _ _ _ (sgOf_nonneg y)]

end Cert.Gcn

end
-- ==== Proof.LibScatter.lean ====
/-
  A host scatter read at an index, when distinct update positions land on distinct result positions.
-/
import Idealize.ShloMosaic.PureOps.ShapeOps

namespace Cert.LibScatter

open Idealize.ShloMosaic

variable {α : Type} {s si u : Shape} {w : Nat}

section Fold

variable {β ι : Type} [DecidableEq ι]

/-- One step of a pointwise-overwriting fold: position `n` replaces the element at `h n` by that element
    combined with `v n`, and leaves every other element alone. -/
def overwrite (f : α → α → α) (h : β → ι) (v : β → α) (r : ι → α) (n : β) : ι → α :=
  fun i' => if i' = h n then f (r (h n)) (v n) else r i'

/-- Folding the overwriting step over positions none of which lands on `i` leaves the element at `i` alone. -/
theorem foldl_overwrite_miss (f : α → α → α) (h : β → ι) (v : β → α) (i : ι) :
    ∀ (L : List β) (r0 : ι → α), (∀ n ∈ L, h n ≠ i) → L.foldl (overwrite f h v) r0 i = r0 i
  | [], _, _ => rfl
  | a :: L, r0, hL => by
    rw [List.foldl_cons, foldl_overwrite_miss f h v i L _ (fun n hn => hL n (List.mem_cons_of_mem a hn))]
    have ha : i ≠ h a := fun e => hL a List.mem_cons_self e.symm
    simp only [overwrite, if_neg ha]

/-- Folding the overwriting step over a list of distinct positions, with `h` injective: the element at `h n`, for
    `n` in the list, is the starting element there combined with `v n` alone. -/
theorem foldl_overwrite_hit (f : α → α → α) (h : β → ι) (v : β → α) (hinj : Function.Injective h) (n : β) :
    ∀ (L : List β) (r0 : ι → α), L.Nodup → n ∈ L → L.foldl (overwrite f h v) r0 (h n) = f (r0 (h n)) (v n)
  | [], _, _, hn => absurd hn List.not_mem_nil
  | a :: L, r0, hnd, hn => by
    rw [List.foldl_cons]
    obtain ⟨haL, hndL⟩ := List.nodup_cons.mp hnd
    rcases List.mem_cons.mp hn with rfl | hnL
    · -- the head is `n` itself: no later position lands on `h n`
      rw [foldl_overwrite_miss f h v (h n) L _ (fun m hm e => haL (hinj e ▸ hm))]
      simp only [overwrite, if_true]
    · -- `n` comes later: the head lands elsewhere
      rw [foldl_overwrite_hit f h v hinj n L _ hndL hnL]
      have hne : h n ≠ h a := fun e => haL (hinj e ▸ hnL)
      simp only [overwrite, if_neg hne]

end Fold

/-- Where every update position lands inside the operand, at `g j`, the scatter is the fold of the overwriting step
    over all update positions in row-major order. -/
theorem scatter_eq_foldl (d : ScatterDims s si u) (f : α → α → α) (x : s.Idx → α) (idx : IVec si w) (upd : u.Idx → α)
    (g : u.Idx → s.Idx) (hg : ∀ j, d.resultIdx? j idx = some (g j)) :
    Host.scatter d f x idx upd
      = (List.finRange u.numel).foldl
          (overwrite f (fun n => g (u.rowMajor.symm n)) (fun n => upd (u.rowMajor.symm n))) x := by
  unfold Host.scatter
  congr 1
  funext r n
  simp only [hg]
  rfl

/-- Where every update position `j` lands inside the operand, at `g j`, and `g` is injective, the result at `g j` is the
    operand's element there combined with update `j` alone. -/
theorem scatter_hit (d : ScatterDims s si u) (f : α → α → α) (x : s.Idx → α) (idx : IVec si w) (upd : u.Idx → α)
    (g : u.Idx → s.Idx) (hg : ∀ j, d.resultIdx? j idx = some (g j)) (hinj : Function.Injective g) (j : u.Idx) :
    Host.scatter d f x idx upd (g j) = f (x (g j)) (upd j) := by
  rw [scatter_eq_foldl d f x idx upd g hg]
  have hinj' : Function.Injective (fun n : Fin u.numel => g (u.rowMajor.symm n)) :=
    hinj.comp u.rowMajor.symm.injective
  have key := foldl_overwrite_hit f (fun n : Fin u.numel => g (u.rowMajor.symm n))
    (fun n => upd (u.rowMajor.symm n)) hinj' (u.rowMajor j) (List.finRange u.numel) x
    (List.nodup_finRange _) (List.mem_finRange _)
  simpa only [Equiv.symm_apply_apply] using key

/-- And a result position no update lands on keeps the operand's element. -/
theorem scatter_miss (d : ScatterDims s si u) (f : α → α → α) (x : s.Idx → α) (idx : IVec si w) (upd : u.Idx → α)
    (g : u.Idx → s.Idx) (hg : ∀ j, d.resultIdx? j idx = some (g j)) (i : s.Idx) (hi : ∀ j, g j ≠ i) :
    Host.scatter d f x idx upd i = x i := by
  rw [scatter_eq_foldl d f x idx upd g hg]
  exact foldl_overwrite_miss f _ _ i _ x (fun n _ => hi _)

end Cert.LibScatter
-- ==== Proof.KAdjAux1.lean ====
/-
  The kernel program's un-normalised adjacency matrix as a composition of named vectors (the logistic block, the
  block written into a zero matrix, the identity, the edge table's rows and the index vectors built from them), and
  the first half read at an index: the block write leaves 0 + the logistic of y[j, i] at (i, j) inside the top-left
  1024 x 1024 corner and 0 outside.
-/
import proofs.«420779_j55757265436854_1_alg».proof.Proof.Gen.KernelIdeal
import proofs.«420779_j55757265436854_1_alg».proof.Proof.GcnSpec
import proofs.«420779_j55757265436854_1_alg».proof.Proof.LibScatter
import Idealize.ShloMosaic.Lib.Pipeline.Value
import Idealize.ShloMosaic.Lib.ValueIdx
import Idealize.ShloMosaic.PureOps.Ideal.Laws

set_option maxRecDepth 16384

noncomputable section

namespace Cert.Gcn.KerAdj

open Idealize.ShloMosaic Idealize.ShloMosaic.ValueIdx
open Cert.KernelIdeal Cert.KernelIdeal.Gen Cert.Gcn

/-! ## The stages of the first stretch of host operations, as named vectors -/

/-- The logistic block: 1 / (1 + exp (- y[r, c])) on the top-left 1024 x 1024 corner. -/
def kSig (y : S2048x2048.Idx → EReal) : S1024x1024.Idx → EReal :=
  Host.divf (F := Ideal) (φ := .f32) (broadcastInDim S1024x1024 ![] bcast_S_S1024x1024 (constant (F := Ideal) S_ .f32 0x3F800000#32))
    (addf (F := Ideal) (φ := .f32) (broadcastInDim S1024x1024 ![] bcast_S_S1024x1024 (constant (F := Ideal) S_ .f32 0x3F800000#32))
      (Host.exp (F := Ideal) (φ := .f32) (Host.negf (F := Ideal) (φ := .f32) (extractStridedSlice S1024x1024 ![0, 0] y slices_S2048x2048_S1024x1024_0_0))))

/-- The start index (0, 0) of the block write. -/
def kStart : IVec S2 32 :=
  concatenate S2 0 [⟨S1, broadcastInDim S1 ![] bcast_S_S1 (constantI S_ 32 0#32)⟩, ⟨S1, broadcastInDim S1 ![] bcast_S_S1 (constantI S_ 32 0#32)⟩] concatenates_S1_S1_S2_d0

/-- The zero matrix with the transposed logistic block added at (0, 0). -/
def kBlock (y : S2048x2048.Idx → EReal) : S2048x2048.Idx → EReal :=
  Host.scatter scatter_S2048x2048_S2_S1024x1024_01_n_01_0 (FloatOps.addf (F := Ideal) (φ := .f32))
    (broadcastInDim S2048x2048 ![] bcast_S_S2048x2048 (constant (F := Ideal) S_ .f32 0x00000000#32)) kStart
    (transpose S1024x1024 [1, 0] (kSig y) transposes_S1024x1024_S1024x1024_1_0)

/-- The identity matrix: the bit [row = column] read as a float. -/
def kEye : S2048x2048.Idx → EReal :=
  uitofp (F := Ideal) .f32 (cmpi .eq (addi (iotaInDim S2048x2048 32 0) (broadcastInDim S2048x2048 ![] bcast_S_S2048x2048 (constantI S_ 32 0#32)))
    (iotaInDim S2048x2048 32 1))

/-- Row r of the edge table as 65536 words. -/
def kRow (r : Fin 2) (ei : IVec S2x65536 32) : IVec S65536 32 :=
  match r with
  | 0 => shapeCast S65536 (extractStridedSlice S1x65536 ![0, 0] ei slices_S2x65536_S1x65536_0_0) shapeCasts_S1x65536_S65536
  | 1 => shapeCast S65536 (extractStridedSlice S1x65536 ![1, 0] ei slices_S2x65536_S1x65536_1_0) shapeCasts_S1x65536_S65536

/-- A word normalised: w + 2048 where w < 0, else w. -/
def kNorm (v : IVec S65536 32) : IVec S65536 32 :=
  select (cmpi .slt v (broadcastInDim S65536 ![] bcast_S_S65536 (constantI S_ 32 0#32)))
    (addi v (broadcastInDim S65536 ![] bcast_S_S65536 (constantI S_ 32 2048#32))) v

/-- The 65536 x 2 index vectors (destination, source). -/
def kIdx (ei : IVec S2x65536 32) : IVec S65536x2 32 :=
  concatenate S65536x2 1 [⟨S65536x1, broadcastInDim S65536x1 ![0] bcast_S65536_S65536x1_0 (kNorm (kRow 1 ei))⟩,
    ⟨S65536x1, broadcastInDim S65536x1 ![0] bcast_S65536_S65536x1_0 (kNorm (kRow 0 ei))⟩] concatenates_S65536x1_S65536x1_S65536x2_d1

/-- The whole matrix: block plus identity, then one added per sparse edge. -/
def kAdj (y : S2048x2048.Idx → EReal) (ei : IVec S2x65536 32) : S2048x2048.Idx → EReal :=
  Host.scatterAdd (F := Ideal) (φ := .f32) scatter_S2048x2048_S65536x2_S65536_n_01_01_1 (addf (F := Ideal) (φ := .f32) (kBlock y) kEye) (kIdx ei)
    (broadcastInDim S65536 ![] bcast_S_S65536 (constant (F := Ideal) S_ .f32 0x3F800000#32))

/-! ## The logistic block and the block write -/

/-- The logistic block at (r, c) is the logistic of y[r, c]. -/
theorem kSig_apply (y : S2048x2048.Idx → EReal) (r c : Fin 1024) : kSig y (ix2 r c) = sgOf y r c := by
  unfold kSig sgOf
  show Ideal.div (Ideal.ofBits .f32 0x3F800000#32) (Ideal.ofBits .f32 0x3F800000#32
      + Ideal.exp (- (extractStridedSlice S1024x1024 ![0, 0] y slices_S2048x2048_S1024x1024_0_0 (ix2 r c)))) = _
  rw [extractStridedSlice_apply ![0, 0] y slices_S2048x2048_S1024x1024_0_0 (ix2 r c)
    (ix2 (⟨r.val, by omega⟩ : Fin 2048) (⟨c.val, by omega⟩ : Fin 2048))
    (fun a => by match a with | ⟨0, _⟩ => exact (Nat.zero_add _).symm | ⟨1, _⟩ => exact (Nat.zero_add _).symm)]

/-- The start index of the block write is (0, 0). -/
theorem kStart_apply (k : S2.Idx) : kStart k = 0#32 := by
  obtain ⟨a, rfl⟩ : ∃ a, k = ix1 a := ⟨k 0, eq_ix1 k⟩
  unfold kStart
  match a with
  | ⟨0, _⟩ =>
    exact (concatenate_pair_apply_left (t := S2) (s₁ := S1) (s₂ := S1) 0 _ _ concatenates_S1_S1_S2_d0 _ rfl (ix1 0)
      (fun b => by match b with | ⟨0, _⟩ => rfl)).trans rfl
  | ⟨1, _⟩ =>
    exact (concatenate_pair_apply_right (t := S2) (s₁ := S1) (s₂ := S1) 0 _ _ concatenates_S1_S1_S2_d0 _ rfl rfl (ix1 0)
      (fun b hb => by match b with | ⟨0, _⟩ => exact absurd rfl hb) rfl).trans rfl

/-- Where update position u of the block lands: at the same coordinates of the big matrix. -/
def blockPos (u : S1024x1024.Idx) : S2048x2048.Idx :=
  ix2 (⟨(u 0).val, by have := (u 0).isLt; have e : S1024x1024.size 0 = 1024 := rfl; omega⟩ : Fin 2048)
    (⟨(u 1).val, by have := (u 1).isLt; have e : S1024x1024.size 1 = 1024 := rfl; omega⟩ : Fin 2048)

theorem blockD_start (u : S1024x1024.Idx) (a : Fin 2) :
    scatter_S2048x2048_S2_S1024x1024_01_n_01_0.start u kStart a = 0 := by
  unfold ScatterDims.start
  split
  · rw [kStart_apply]; rfl
  · rfl

theorem blockD_window (u : S1024x1024.Idx) (a : Fin 2) :
    scatter_S2048x2048_S2_S1024x1024_01_n_01_0.window u a = (u a).val := by
  have h0 : (⟨0, by omega⟩ : Fin 2) ∈ scatter_S2048x2048_S2_S1024x1024_01_n_01_0.sKept := by decide
  have h1 : (⟨1, by omega⟩ : Fin 2) ∈ scatter_S2048x2048_S2_S1024x1024_01_n_01_0.sKept := by decide
  unfold ScatterDims.window
  match a with
  | ⟨0, _⟩ => rw [dif_pos h0]; rfl
  | ⟨1, _⟩ => rw [dif_pos h1]; rfl

theorem blockD_result (u : S1024x1024.Idx) :
    scatter_S2048x2048_S2_S1024x1024_01_n_01_0.resultIdx? u kStart = some (blockPos u) := by
  unfold ScatterDims.resultIdx?
  have H : ∀ a : Fin 2, 0 ≤ scatter_S2048x2048_S2_S1024x1024_01_n_01_0.start u kStart a + scatter_S2048x2048_S2_S1024x1024_01_n_01_0.window u a
      ∧ scatter_S2048x2048_S2_S1024x1024_01_n_01_0.start u kStart a + scatter_S2048x2048_S2_S1024x1024_01_n_01_0.window u a < S2048x2048.size a := fun a => by
    rw [blockD_start, blockD_window]
    match a with
    | ⟨0, _⟩ => have h : (u 0).val < 1024 := (u 0).isLt; show 0 ≤ 0 + ((u 0).val : Int) ∧ 0 + ((u 0).val : Int) < ((2048 : Nat) : Int); omega
    | ⟨1, _⟩ => have h : (u 1).val < 1024 := (u 1).isLt; show 0 ≤ 0 + ((u 1).val : Int) ∧ 0 + ((u 1).val : Int) < ((2048 : Nat) : Int); omega
  rw [dif_pos H]
  congr 1
  funext a
  apply Fin.ext
  show (scatter_S2048x2048_S2_S1024x1024_01_n_01_0.start u kStart a + scatter_S2048x2048_S2_S1024x1024_01_n_01_0.window u a).toNat = (blockPos u a).val
  rw [blockD_start, blockD_window]
  match a with
  | ⟨0, _⟩ => show (0 + ((u 0).val : Int)).toNat = (u 0).val; omega
  | ⟨1, _⟩ => show (0 + ((u 1).val : Int)).toNat = (u 1).val; omega

theorem blockPos_inj : Function.Injective blockPos := fun u v h => by
  funext a
  apply Fin.ext
  match a with
  | ⟨0, _⟩ => exact congrArg (fun k : S2048x2048.Idx => (k 0).val) h
  | ⟨1, _⟩ => exact congrArg (fun k : S2048x2048.Idx => (k 1).val) h

/-- The matrix after the block write, at (i, j): 0 + the logistic of y[j, i] inside the top-left 1024 x 1024 corner, 0 outside. -/
theorem kBlock_apply (y : S2048x2048.Idx → EReal) (i j : Fin 2048) :
    kBlock y (ix2 i j) = if h : i.val < 1024 ∧ j.val < 1024 then 0 + sgOf y ⟨j.val, h.2⟩ ⟨i.val, h.1⟩ else 0 := by
  unfold kBlock
  by_cases h : i.val < 1024 ∧ j.val < 1024
  · rw [dif_pos h]
    have e : ix2 i j = blockPos (ix2 (⟨i.val, h.1⟩ : Fin 1024) (⟨j.val, h.2⟩ : Fin 1024)) := by
      funext a; apply Fin.ext; match a with | ⟨0, _⟩ => rfl | ⟨1, _⟩ => rfl
    rw [e, Cert.LibScatter.scatter_hit _ _ _ _ _ blockPos blockD_result blockPos_inj]
    show Ideal.ofBits .f32 0x00000000#32 + transpose S1024x1024 [1, 0] (kSig y) transposes_S1024x1024_S1024x1024_1_0 (ix2 (⟨i.val, h.1⟩ : Fin 1024) (⟨j.val, h.2⟩ : Fin 1024)) = _
    rw [Ideal.ofBits_zero_f32, transpose_apply [1, 0] (kSig y) transposes_S1024x1024_S1024x1024_1_0 _ (ix2 (⟨j.val, h.2⟩ : Fin 1024) (⟨i.val, h.1⟩ : Fin 1024))
      (fun b => by match b with | ⟨0, _⟩ => rfl | ⟨1, _⟩ => rfl), kSig_apply]
  · rw [dif_neg h, Cert.LibScatter.scatter_miss _ _ _ _ _ blockPos blockD_result (ix2 i j) (fun u hu => h ?_)]
    · show Ideal.ofBits .f32 0x00000000#32 = 0
      exact Ideal.ofBits_zero_f32
    · have h0 : (u 0).val = i.val := congrArg (fun k : S2048x2048.Idx => (k 0).val) hu
      have h1 : (u 1).val = j.val := congrArg (fun k : S2048x2048.Idx => (k 1).val) hu
      have l0 : (u 0).val < 1024 := (u 0).isLt
      have l1 : (u 1).val < 1024 := (u 1).isLt
      omega

end Cert.Gcn.KerAdj

end
-- ==== Proof.KAdjAux2.lean ====
/-
  The second half of the kernel program's un-normalised adjacency matrix read at an index: the identity matrix, the
  edge table's rows and the index vectors (destination, source) under the range condition, where each sparse edge
  lands, and the whole entry (i, j): block plus identity plus the number of sparse edges j -> i.
-/
import proofs.«420779_j55757265436854_1_alg».proof.Proof.Gen.KernelIdeal
import proofs.«420779_j55757265436854_1_alg».proof.Proof.GcnSpec
import proofs.«420779_j55757265436854_1_alg».proof.Proof.KAdjAux1
import Idealize.ShloMosaic.Lib.IdealHost

set_option maxRecDepth 16384

noncomputable section

namespace Cert.Gcn.KerAdj

open Idealize.ShloMosaic Idealize.ShloMosaic.ValueIdx
open Cert.KernelIdeal Cert.KernelIdeal.Gen Cert.Gcn

/-! ## The identity matrix -/

/-- The compare-and-convert of the two coordinate grids is the identity matrix. -/
theorem kEye_apply (i j : Fin 2048) : kEye (ix2 i j) = if i = j then 1 else 0 := by
  unfold kEye
  show (((IntOp.cmpi .eq (IntOp.addi (BitVec.ofNat 32 i.val) 0#32) (BitVec.ofNat 32 j.val)).toNat : ℝ) : EReal) = _
  have hi := i.isLt
  have hj := j.isLt
  have e : IntOp.cmpi .eq (IntOp.addi (BitVec.ofNat 32 i.val) 0#32) (BitVec.ofNat 32 j.val) = if i = j then 1#1 else 0#1 := by
    unfold IntOp.cmpi IntOp.addi
    rw [BitVec.add_zero]
    by_cases h : i = j
    · subst h; simp
    · rw [if_neg h]
      have hne : BitVec.ofNat 32 i.val ≠ BitVec.ofNat 32 j.val := fun e => h (Fin.ext (by
        have := congrArg BitVec.toNat e
        simp only [BitVec.toNat_ofNat] at this
        omega))
      rw [beq_eq_false_iff_ne.mpr hne]; rfl
  rw [e]
  split <;> simp

/-! ## The edge table's rows, the index vectors -/

/-- Row r of the table, flattened, at e is the table's entry (r, e). -/
theorem kRow_apply (r : Fin 2) (ei : IVec S2x65536 32) (e : Fin 65536) : kRow r ei (ix1 e) = ei (ix2 r e) := by
  match r with
  | ⟨0, _⟩ =>
    show shapeCast S65536 (extractStridedSlice S1x65536 ![0, 0] ei slices_S2x65536_S1x65536_0_0) shapeCasts_S1x65536_S65536 (ix1 e) = _
    rw [shapeCast_apply _ shapeCasts_S1x65536_S65536 (ix1 e) (ix2 (0 : Fin 1) e)
      (by rw [Shape.rowMajor_val_two, Shape.rowMajor_val_one]; show 0 * 65536 + e.val = e.val; omega)]
    exact extractStridedSlice_apply ![0, 0] ei slices_S2x65536_S1x65536_0_0 (ix2 (0 : Fin 1) e) (ix2 (0 : Fin 2) e)
      (fun a => by match a with | ⟨0, _⟩ => rfl | ⟨1, _⟩ => exact (Nat.zero_add _).symm)
  | ⟨1, _⟩ =>
    show shapeCast S65536 (extractStridedSlice S1x65536 ![1, 0] ei slices_S2x65536_S1x65536_1_0) shapeCasts_S1x65536_S65536 (ix1 e) = _
    rw [shapeCast_apply _ shapeCasts_S1x65536_S65536 (ix1 e) (ix2 (0 : Fin 1) e)
      (by rw [Shape.rowMajor_val_two, Shape.rowMajor_val_one]; show 0 * 65536 + e.val = e.val; omega)]
    exact extractStridedSlice_apply ![1, 0] ei slices_S2x65536_S1x65536_1_0 (ix2 (0 : Fin 1) e) (ix2 (1 : Fin 2) e)
      (fun a => by match a with | ⟨0, _⟩ => rfl | ⟨1, _⟩ => exact (Nat.zero_add _).symm)

/-- The normalisation leaves a word that is not negative alone. -/
theorem kNorm_apply (v : IVec S65536 32) (k : S65536.Idx) (h : 0 ≤ (v k).toInt) : kNorm v k = v k := by
  unfold kNorm
  show Scalar.select (IntOp.cmpi .slt (v k) 0#32) (IntOp.addi (v k) 2048#32) (v k) = v k
  have e : IntOp.cmpi .slt (v k) 0#32 = 0#1 := by
    unfold IntOp.cmpi
    have hs : (v k).slt 0#32 = false := by
      rw [BitVec.slt_eq_decide, BitVec.toInt_zero]
      exact decide_eq_false (not_lt.mpr h)
    simp [hs]
  rw [e, select_zero]

/-- Column 0 of the index vectors: the normalised destination row. -/
theorem kIdx_col0 (ei : IVec S2x65536 32) (e : Fin 65536) : kIdx ei (ix2 e (0 : Fin 2)) = kNorm (kRow 1 ei) (ix1 e) := by
  unfold kIdx
  refine (concatenate_pair_apply_left (t := S65536x2) (s₁ := S65536x1) (s₂ := S65536x1) 1 _ _ concatenates_S65536x1_S65536x1_S65536x2_d1 _ rfl
    (ix2 e (0 : Fin 1)) (fun b => by match b with | ⟨0, _⟩ => rfl | ⟨1, _⟩ => rfl)).trans ?_
  exact broadcastInDim_apply ![0] bcast_S65536_S65536x1_0 _ (ix2 e (0 : Fin 1)) (ix1 e) (fun a => by
    match a with
    | ⟨0, _⟩ => show e.val = if (65536 : ℕ) = 1 then 0 else e.val; rw [if_neg (by norm_num)])

/-- Column 1 of the index vectors: the normalised source row. -/
theorem kIdx_col1 (ei : IVec S2x65536 32) (e : Fin 65536) : kIdx ei (ix2 e (1 : Fin 2)) = kNorm (kRow 0 ei) (ix1 e) := by
  unfold kIdx
  refine (concatenate_pair_apply_right (t := S65536x2) (s₁ := S65536x1) (s₂ := S65536x1) 1 _ _ concatenates_S65536x1_S65536x1_S65536x2_d1 _ rfl rfl
    (ix2 e (0 : Fin 1)) (fun b hb => by match b with | ⟨0, _⟩ => rfl | ⟨1, _⟩ => exact absurd rfl hb) rfl).trans ?_
  exact broadcastInDim_apply ![0] bcast_S65536_S65536x1_0 _ (ix2 e (0 : Fin 1)) (ix1 e) (fun a => by
    match a with
    | ⟨0, _⟩ => show e.val = if (65536 : ℕ) = 1 then 0 else e.val; rw [if_neg (by norm_num)])

/-- Under the range condition the index vector of edge e is (destination word, source word). -/
theorem kIdx_dst (ei : IVec S2x65536 32) (hin : InRange ei) (e : Fin 65536) : kIdx ei (ix2 e (0 : Fin 2)) = ei (ix2 (1 : Fin 2) e) := by
  rw [kIdx_col0, kNorm_apply _ _ (by rw [kRow_apply]; exact (hin 1 e).1), kRow_apply]
theorem kIdx_src (ei : IVec S2x65536 32) (hin : InRange ei) (e : Fin 65536) : kIdx ei (ix2 e (1 : Fin 2)) = ei (ix2 (0 : Fin 2) e) := by
  rw [kIdx_col1, kNorm_apply _ _ (by rw [kRow_apply]; exact (hin 0 e).1), kRow_apply]

/-- A word between 0 and 2047 read signed is the word read unsigned and reduced modulo 2048. -/
theorem word_node (w : BitVec 32) (h0 : 0 ≤ w.toInt) (h1 : w.toInt < 2048) : w.toInt.toNat = w.toNat % 2048 := by
  have hlt : w.toNat < 4294967296 := w.isLt
  have e : w.toInt = if 2 * w.toNat < 4294967296 then (w.toNat : ℤ) else (w.toNat : ℤ) - 4294967296 := by
    rw [BitVec.toInt_eq_toNat_cond]; norm_num
  rw [e] at h0 h1 ⊢
  split_ifs at h0 h1 ⊢ <;> omega

/-! ## The edge scatter's dimension numbers read -/

theorem edgeD_window (u : S65536.Idx) (a : Fin 2) : scatter_S2048x2048_S65536x2_S65536_n_01_01_1.window u a = 0 := by
  have h : ∀ a : Fin 2, a ∉ scatter_S2048x2048_S65536x2_S65536_n_01_01_1.sKept := by decide
  unfold ScatterDims.window
  rw [dif_neg (h a)]

theorem edgeD_start (u : S65536.Idx) (idx : IVec S65536x2 32) (a : Fin 2) :
    scatter_S2048x2048_S65536x2_S65536_n_01_01_1.start u idx a = (idx (ix2 (u 0) a)).toInt := by
  have h0 : (⟨0, by omega⟩ : Fin 2) ∈ scatter_S2048x2048_S65536x2_S65536_n_01_01_1.scatterDimsToOperandDims := by decide
  have h1 : (⟨1, by omega⟩ : Fin 2) ∈ scatter_S2048x2048_S65536x2_S65536_n_01_01_1.scatterDimsToOperandDims := by decide
  unfold ScatterDims.start
  match a with
  | ⟨0, _⟩ =>
    rw [dif_pos h0]
    refine congrArg (fun k => (idx k).toInt) (funext fun b => ?_)
    match b with
    | ⟨0, _⟩ => rfl
    | ⟨1, _⟩ => rfl
  | ⟨1, _⟩ =>
    rw [dif_pos h1]
    refine congrArg (fun k => (idx k).toInt) (funext fun b => ?_)
    match b with
    | ⟨0, _⟩ => rfl
    | ⟨1, _⟩ => rfl

/-- Under the range condition edge e lands at (destination, source). -/
theorem edgeD_result (ei : IVec S2x65536 32) (hin : InRange ei) (e : Fin 65536) :
    scatter_S2048x2048_S65536x2_S65536_n_01_01_1.resultIdx? (ix1 e) (kIdx ei) = some (ix2 (nodeOf ei 1 e) (nodeOf ei 0 e)) := by
  have r1 := hin 1 e
  have r0 := hin 0 e
  unfold ScatterDims.resultIdx?
  have H : ∀ a : Fin 2, 0 ≤ scatter_S2048x2048_S65536x2_S65536_n_01_01_1.start (ix1 e) (kIdx ei) a + scatter_S2048x2048_S65536x2_S65536_n_01_01_1.window (ix1 e) a
      ∧ scatter_S2048x2048_S65536x2_S65536_n_01_01_1.start (ix1 e) (kIdx ei) a + scatter_S2048x2048_S65536x2_S65536_n_01_01_1.window (ix1 e) a < S2048x2048.size a := fun a => by
    rw [edgeD_start, edgeD_window]
    match a with
    | ⟨0, _⟩ =>
      show 0 ≤ (kIdx ei (ix2 e (0 : Fin 2))).toInt + ((0 : ℕ) : ℤ) ∧ (kIdx ei (ix2 e (0 : Fin 2))).toInt + ((0 : ℕ) : ℤ) < ((2048 : ℕ) : ℤ)
      rw [kIdx_dst ei hin]; omega
    | ⟨1, _⟩ =>
      show 0 ≤ (kIdx ei (ix2 e (1 : Fin 2))).toInt + ((0 : ℕ) : ℤ) ∧ (kIdx ei (ix2 e (1 : Fin 2))).toInt + ((0 : ℕ) : ℤ) < ((2048 : ℕ) : ℤ)
      rw [kIdx_src ei hin]; omega
  rw [dif_pos H]
  congr 1
  funext a
  apply Fin.ext
  show (scatter_S2048x2048_S65536x2_S65536_n_01_01_1.start (ix1 e) (kIdx ei) a + scatter_S2048x2048_S65536x2_S65536_n_01_01_1.window (ix1 e) a).toNat
    = ((ix2 (nodeOf ei 1 e) (nodeOf ei 0 e)) a).val
  rw [edgeD_start, edgeD_window]
  match a with
  | ⟨0, _⟩ =>
    show ((kIdx ei (ix2 e (0 : Fin 2))).toInt + ((0 : ℕ) : ℤ)).toNat = (ei (ix2 (1 : Fin 2) e)).toNat % 2048
    rw [kIdx_dst ei hin, ← word_node _ r1.1 r1.2]; omega
  | ⟨1, _⟩ =>
    show ((kIdx ei (ix2 e (1 : Fin 2))).toInt + ((0 : ℕ) : ℤ)).toNat = (ei (ix2 (0 : Fin 2) e)).toNat % 2048
    rw [kIdx_src ei hin, ← word_node _ r0.1 r0.2]; omega

/-! ## The whole matrix -/

/-- The float word 0x3F800000 is the real 1. -/
theorem ofBits_one_f32 : Ideal.ofBits .f32 0x3F800000#32 = 1 := by
  -- sign bit 0, exponent field 127 (the bias), fraction field 0: the value is 2^23 * 2^(127 - 127 - 23)
  show Ideal.ieee 8 23 (0x3F800000#32) = 1
  have hneg : ((0x3F800000#32).extractLsb' (8 + 23) 1 == 1#1) = false := by decide
  have hex : ((0x3F800000#32).extractLsb' 23 8).toNat = 127 := by decide
  have hfr : ((0x3F800000#32).extractLsb' 0 23).toNat = 0 := by decide
  unfold Ideal.ieee
  simp only [hneg, hex, hfr]
  norm_num

/-- A rank-1 index set is its coordinate's range. -/
def idxEquiv1 {n : Nat} : (⟨1, ![n]⟩ : Shape).Idx ≃ Fin n where
  toFun u := u 0
  invFun e := ix1 e
  left_inv u := (eq_ix1 u).symm
  right_inv _ := rfl

/-- The edge scatter at (i, j), over any starting matrix and any index vectors that send edge e to (dst e, src e): the starting
    entry plus one for every edge e with dst e = i and src e = j. -/
theorem edgeScatter_apply (X : S2048x2048.Idx → EReal) (idx : IVec S65536x2 32) (dst src : Fin 65536 → Fin 2048)
    (hres : ∀ e : Fin 65536, scatter_S2048x2048_S65536x2_S65536_n_01_01_1.resultIdx? (ix1 e) idx = some (ix2 (dst e) (src e))) (i j : Fin 2048) :
    Host.scatterAdd (F := Ideal) (φ := .f32) scatter_S2048x2048_S65536x2_S65536_n_01_01_1 X idx
        (broadcastInDim S65536 ![] bcast_S_S65536 (constant (F := Ideal) S_ .f32 0x3F800000#32)) (ix2 i j)
      = X (ix2 i j) + ∑ _e ∈ Finset.univ.filter (fun e : Fin 65536 => dst e = i ∧ src e = j), (1 : EReal) := by
  show Ideal.hostScatterAdd scatter_S2048x2048_S65536x2_S65536_n_01_01_1 X idx _ (ix2 i j) = _
  unfold Ideal.hostScatterAdd
  refine congrArg (X (ix2 i j) + ·) ?_
  refine Finset.sum_equiv idxEquiv1 (fun u => ?_) (fun u _ => ?_)
  · obtain ⟨e, rfl⟩ : ∃ e, u = ix1 e := ⟨u 0, eq_ix1 u⟩
    rw [Finset.mem_filter, Finset.mem_filter, hres e, Option.some.injEq]
    show _ ∧ _ ↔ _ ∧ (dst e = i ∧ src e = j)
    constructor
    · intro h
      exact ⟨Finset.mem_univ _, congrFun h.2 0, congrFun h.2 1⟩
    · rintro ⟨_, rfl, rfl⟩; exact ⟨Finset.mem_univ _, rfl⟩
  · show Ideal.ofBits .f32 0x3F800000#32 = 1
    exact ofBits_one_f32

/-- Entry (i, j) of the composed matrix is the dense adjacency weight: block, identity, and the count of sparse edges j -> i. -/
theorem kAdj_apply (y : S2048x2048.Idx → EReal) (ei : IVec S2x65536 32) (hin : InRange ei) (i j : Fin 2048) :
    kAdj y ei (ix2 i j) = adjK (nodeOf ei 0) (nodeOf ei 1) (sgOf y) i j := by
  unfold kAdj adjK
  rw [edgeScatter_apply _ _ (nodeOf ei 1) (nodeOf ei 0) (edgeD_result ei hin), addf_apply, kBlock_apply, kEye_apply]

end Cert.Gcn.KerAdj

end
-- ==== Proof.KAdj.lean ====
/-
  The kernel program's adjacency matrix read at an index: the transposed logistic block written into a zero
  matrix, plus the identity, plus one for every sparse edge scattered at (destination, source).
-/
import proofs.«420779_j55757265436854_1_alg».proof.Proof.Gen.KernelIdeal.Frame
import proofs.«420779_j55757265436854_1_alg».proof.Proof.GcnSpec
import proofs.«420779_j55757265436854_1_alg».proof.Proof.KAdjAux2

set_option maxRecDepth 16384

noncomputable section

namespace Cert.Gcn.KerAdj

open Idealize.ShloMosaic Idealize.ShloMosaic.TcCoe Idealize.ShloMosaic.ValueIdx Idealize.SL.Sem
open Cert.KernelIdeal Cert.KernelIdeal.Gen Cert.Gcn

variable (m : (ℓ : Loc nD τ sig) → Buf (Elt Ideal) ℓ) (ρ : Dev nD → PrngReg)

/-! ## Congruences that let the operands of a two-piece concatenation and of the two scatters be compared one by one -/

theorem concat2_congr {α : Type} {s1 s2 t : Shape} (ax : Fin t.rank) {a a' : s1.Idx → α} {b b' : s2.Idx → α}
    (h : Shape.Concatenates [s1, s2] t ax) (ha : a = a') (hb : b = b') :
    concatenate t ax [⟨s1, a⟩, ⟨s2, b⟩] h = concatenate t ax [⟨s1, a'⟩, ⟨s2, b'⟩] h := by
  subst ha; subst hb; rfl

theorem scatterAdd_congr {s si u : Shape} {w : Nat} (d : ScatterDims s si u) {x x' : FVec Ideal s .f32} {idx idx' : IVec si w}
    {v v' : FVec Ideal u .f32} (hx : x = x') (hi : idx = idx') (hv : v = v') :
    Host.scatterAdd d x idx v = Host.scatterAdd d x' idx' v' := by
  subst hx; subst hi; subst hv; rfl

theorem scatter_congr {α : Type} {s si u : Shape} {w : Nat} (d : ScatterDims s si u) (f : α → α → α) {x x' : s.Idx → α} {idx idx' : IVec si w}
    {v v' : u.Idx → α} (hx : x = x') (hi : idx = idx') (hv : v = v') :
    Host.scatter d f x idx v = Host.scatter d f x' idx' v' := by
  subst hx; subst hi; subst hv; rfl

set_option maxHeartbeats 1000000 in
/-- The adjacency buffer after the first stretch of host operations is the composed vector `kAdj` of the two inputs. -/
theorem W1_eq (c : Dev nD) :
    (show S2048x2048.Idx → EReal from W1 (F := Ideal) m ρ c (Proc.devRef .tc main_v38))
      = kAdj (m ((c.tc : Thread nD τ).loc main_arg1)) (m ((c.tc : Thread nD τ).loc main_arg8)) := by
  show StableHlo.after hostOps0 _ (Proc.devRef .tc main_v38) = _
  after_results_simp
  unfold kAdj kBlock kIdx kStart
  refine scatterAdd_congr _ ?_ ?_ rfl
  · refine congrArg₂ (addf (F := Ideal) (φ := .f32)) ?_ rfl
    refine scatter_congr _ _ rfl ?_ rfl
    refine concat2_congr _ _ ?_ ?_
    · after_results_simp <;> rfl
    · after_results_simp <;> rfl
  · refine concat2_congr _ _ ?_ ?_
    · after_results_simp <;> rfl
    · after_results_simp <;> rfl

/-- Entry (i, j) of the un-normalised adjacency matrix after the first stretch of host operations. -/
theorem W1_main_v38 (c : Dev nD) (hin : InRange (m ((c.tc : Thread nD τ).loc main_arg8))) (i j : Fin 2048) :
    (show S2048x2048.Idx → EReal from W1 (F := Ideal) m ρ c (Proc.devRef .tc main_v38)) (ix2 i j)
      = adjK (nodeOf (m ((c.tc : Thread nD τ).loc main_arg8)) 0) (nodeOf (m ((c.tc : Thread nD τ).loc main_arg8)) 1)
          (sgOf (m ((c.tc : Thread nD τ).loc main_arg1))) i j := by
  exact (congrFun (W1_eq m ρ c) (ix2 i j)).trans (kAdj_apply _ _ hin i j)

end Cert.Gcn.KerAdj

end
-- ==== Proof.KHost.lean ====
/-
  The kernel program's host operations before the first region, read at an index: the normalised adjacency
  matrix it builds from the edge table and the logistic block, the reshaped bias, and the untouched arguments.
-/
import proofs.«420779_j55757265436854_1_alg».proof.Proof.Gen.KernelIdeal.Frame
import proofs.«420779_j55757265436854_1_alg».proof.Proof.GcnSpec
import proofs.«420779_j55757265436854_1_alg».proof.Proof.KAdj
import Idealize.ShloMosaic.Lib.Pipeline.Value
import Idealize.ShloMosaic.PureOps.Ideal.Laws

set_option maxRecDepth 16384

noncomputable section

namespace Cert.Gcn.KerHost

open Idealize.ShloMosaic Idealize.ShloMosaic.TcCoe Idealize.ShloMosaic.ValueIdx Idealize.SL.Sem
open Cert.KernelIdeal Cert.KernelIdeal.Gen Cert.Gcn

variable (m : (ℓ : Loc nD τ sig) → Buf (Elt Ideal) ℓ) (ρ : Dev nD → PrngReg)

/-! ## The operations of the three stretches read at an index -/

/-- A vector laid along the rows of the square (constant along each row) reads, at (i, j), its entry i. -/
theorem rows_read (d : FVec Ideal S2048 .f32) (i j : Fin 2048) :
    broadcastInDim S2048x2048 ![0, 1] bcast_S2048x1_S2048x2048_0_1 (broadcastInDim S2048x1 ![0] bcast_S2048_S2048x1_0 d) (ix2 i j)
      = d (ix1 i) := by
  rw [broadcastInDim_apply _ bcast_S2048x1_S2048x2048_0_1 _ (ix2 i j) (ix2 i (0 : Fin 1)) (fun a => match a with
        | ⟨0, _⟩ => by show i.val = if (2048 : Nat) = 1 then 0 else i.val; rw [if_neg (by decide)]
        | ⟨1, _⟩ => by show (0 : Nat) = if (1 : Nat) = 1 then 0 else j.val; rw [if_pos rfl]),
    broadcastInDim_apply _ bcast_S2048_S2048x1_0 d (ix2 i (0 : Fin 1)) (ix1 i) (fun a => match a with
        | ⟨0, _⟩ => by show i.val = if (2048 : Nat) = 1 then 0 else i.val; rw [if_neg (by decide)])]

/-- A vector laid along the columns of the square (constant down each column) reads, at (i, j), its entry j. -/
theorem cols_read (d : FVec Ideal S2048 .f32) (i j : Fin 2048) :
    broadcastInDim S2048x2048 ![0, 1] bcast_S1x2048_S2048x2048_0_1 (broadcastInDim S1x2048 ![1] bcast_S2048_S1x2048_1 d) (ix2 i j)
      = d (ix1 j) := by
  rw [broadcastInDim_apply _ bcast_S1x2048_S2048x2048_0_1 _ (ix2 i j) (ix2 (0 : Fin 1) j) (fun a => match a with
        | ⟨0, _⟩ => by show (0 : Nat) = if (1 : Nat) = 1 then 0 else i.val; rw [if_pos rfl]
        | ⟨1, _⟩ => by show j.val = if (2048 : Nat) = 1 then 0 else j.val; rw [if_neg (by decide)]),
    broadcastInDim_apply _ bcast_S2048_S1x2048_1 d (ix2 (0 : Fin 1) j) (ix1 j) (fun a => match a with
        | ⟨0, _⟩ => by show j.val = if (2048 : Nat) = 1 then 0 else j.val; rw [if_neg (by decide)])]

/-- The sum of the square over its second axis, onto the initial value zero, at row i. -/
theorem rowsum_read (A : FVec Ideal S2048x2048 .f32) (i : Fin 2048) :
    Host.reduceAdd A (constant (F := Ideal) S_ .f32 0x00000000#32) reducesTo_S2048x2048_S2048_d1 h_S_ (ix1 i)
      = 0 + ∑ j : Fin 2048, A (ix2 i j) := by
  show Ideal.hostReduceAdd reducesTo_S2048x2048_S2048_d1 A (Ideal.ofBits .f32 0x00000000#32) (ix1 i) = _
  rw [Ideal.hostReduceAdd_single reducesTo_S2048x2048_S2048_d1 (by decide : S2048x2048.Reduces [1] S2048), Ideal.ofBits_zero_f32]
  refine congrArg (0 + ·) (Finset.sum_congr rfl fun k _ => congrArg A (funext fun a => ?_))
  match a with
  | ⟨0, _⟩ => rfl
  | ⟨1, _⟩ => rfl

/-- The choice on the test "the degree is positive": the inverse square root of a positive degree, else the constant zero. -/
theorem where_read (deg : EReal) :
    Scalar.select (FloatOps.cmpf (F := Ideal) (φ := .f32) .ogt deg (Ideal.ofBits .f32 0x00000000#32)) (FloatOps.hostUnary (F := Ideal) (φ := .f32) .rsqrt deg) (Ideal.ofBits .f32 0x00000000#32)
      = dinvOf deg := by
  show (if BitVec.ofBool (decide (Ideal.ofBits .f32 0x00000000#32 < deg)) = 1 then Ideal.rsqrt deg else Ideal.ofBits .f32 0x00000000#32) = _
  rw [Ideal.ofBits_zero_f32]
  unfold dinvOf
  by_cases h : (0 : EReal) < deg
  · rw [if_pos h, decide_eq_true h]; rfl
  · rw [if_neg h, decide_eq_false h]; rfl

variable (V : Valuation τ sig (Elt Ideal))

/-! ## The third stretch: the two scalings -/

/-- Entry (i, j) after the third stretch: the scaling vector at i, times the adjacency entry (i, j), times the scaling vector at j
    (the change of float format that follows is the identity on the extended reals). -/
theorem stretch2_v50 (i j : Fin 2048) :
    (show S2048x2048.Idx → EReal from StableHlo.after hostOps0_2 V (Proc.devRef .tc main_v50)) (ix2 i j)
      = ((show S2048.Idx → EReal from V (Proc.devRef .tc main_v43)) (ix1 i)
          * (show S2048x2048.Idx → EReal from V (Proc.devRef .tc main_v38)) (ix2 i j))
        * (show S2048.Idx → EReal from V (Proc.devRef .tc main_v43)) (ix1 j) := by
  after_results
  show ((broadcastInDim S2048x2048 _ bcast_S2048x1_S2048x2048_0_1 (broadcastInDim S2048x1 _ bcast_S2048_S2048x1_0 _) (ix2 i j) : EReal) * _)
      * (broadcastInDim S2048x2048 _ bcast_S1x2048_S2048x2048_0_1 (broadcastInDim S1x2048 _ bcast_S2048_S1x2048_1 _) (ix2 i j) : EReal) = _
  rw [rows_read, cols_read]

/-- The third stretch reshapes the first layer's bias to one row. -/
theorem stretch2_v51 (k : Fin 128) :
    (show S1x128.Idx → EReal from StableHlo.after hostOps0_2 V (Proc.devRef .tc main_v51)) (ix2 (0 : Fin 1) k)
      = (show S128.Idx → EReal from V (Proc.devRef .tc main_arg3)) (ix1 k) := by
  after_results
  show shapeCast S1x128 (show S128.Idx → EReal from V (Proc.devRef .tc main_arg3)) shapeCasts_S128_S1x128 (ix2 (0 : Fin 1) k) = _
  refine shapeCast_apply _ _ _ (ix1 k) ?_
  rw [Shape.rowMajor_val_one, Shape.rowMajor_val_two]
  show k.val = 0 * 128 + k.val
  omega

/-! ## The second stretch: the choice between the inverse square root and zero -/

/-- Entry i after the second stretch: the second operand where the test bit is one, else the scalar operand. -/
theorem stretch1_v43 (i : Fin 2048) :
    (show S2048.Idx → EReal from StableHlo.after hostOps0_1 V (Proc.devRef .tc main_v43)) (ix1 i)
      = Scalar.select ((show S2048.Idx → BitVec 1 from V (Proc.devRef .tc main_v41)) (ix1 i))
          ((show S2048.Idx → EReal from V (Proc.devRef .tc main_v42)) (ix1 i))
          ((show S_.Idx → EReal from V (Proc.devRef .tc main_cst_11)) ix0) := by
  after_results
  show Scalar.select _ _ ((broadcastInDim S2048 _ bcast_S_S2048 _ (ix1 i) : EReal)) = _
  rw [broadcastInDim_apply _ bcast_S_S2048 _ (ix1 i) ix0 (fun a => a.elim0)]
  rfl

/-- The second stretch does not write the adjacency matrix. -/
theorem stretch1_v38 : StableHlo.after hostOps0_1 V (Proc.devRef .tc main_v38) = V (Proc.devRef .tc main_v38) := by
  after_results

/-! ## The end of the first stretch: the row sums, the test, the inverse square root -/

/-- The last seven operations of the first stretch (the row sum of the adjacency matrix and what is computed from it). -/
abbrev tail0 : List (HloOp τ sig (Elt Ideal)) := List.drop 50 (hostOps0 (F := Ideal))

/-- The last seven operations do not write the adjacency matrix. -/
theorem tail0_v38 : StableHlo.after tail0 V (Proc.devRef .tc main_v38) = V (Proc.devRef .tc main_v38) := by
  show StableHlo.after [_, _, _, _, _, _, _] V (Proc.devRef .tc main_v38) = _
  after_results

/-- Entry i of the inverse square root of the row sums. -/
theorem tail0_v42 (i : Fin 2048) :
    (show S2048.Idx → EReal from StableHlo.after tail0 V (Proc.devRef .tc main_v42)) (ix1 i)
      = FloatOps.hostUnary (F := Ideal) (φ := .f32) .rsqrt (0 + ∑ j : Fin 2048, (show S2048x2048.Idx → EReal from V (Proc.devRef .tc main_v38)) (ix2 i j)) := by
  show (show S2048.Idx → EReal from StableHlo.after [_, _, _, _, _, _, _] V (Proc.devRef .tc main_v42)) (ix1 i) = _
  after_results
  show FloatOps.hostUnary (F := Ideal) (φ := .f32) .rsqrt (Host.reduceAdd _ (constant (F := Ideal) S_ .f32 0x00000000#32) reducesTo_S2048x2048_S2048_d1 h_S_ (ix1 i)) = _
  rw [rowsum_read]

/-- Entry i of the test "the row sum exceeds zero". -/
theorem tail0_v41 (i : Fin 2048) :
    (show S2048.Idx → BitVec 1 from StableHlo.after tail0 V (Proc.devRef .tc main_v41)) (ix1 i)
      = FloatOps.cmpf (F := Ideal) (φ := .f32) .ogt (0 + ∑ j : Fin 2048, (show S2048x2048.Idx → EReal from V (Proc.devRef .tc main_v38)) (ix2 i j))
          (Ideal.ofBits .f32 0x00000000#32) := by
  show (show S2048.Idx → BitVec 1 from StableHlo.after [_, _, _, _, _, _, _] V (Proc.devRef .tc main_v41)) (ix1 i) = _
  after_results
  show FloatOps.cmpf (F := Ideal) (φ := .f32) .ogt (Host.reduceAdd _ (constant (F := Ideal) S_ .f32 0x00000000#32) reducesTo_S2048x2048_S2048_d1 h_S_ (ix1 i))
    ((broadcastInDim S2048 _ bcast_S_S2048 (constant (F := Ideal) S_ .f32 0x00000000#32) (ix1 i) : EReal)) = _
  rw [rowsum_read, broadcastInDim_apply _ bcast_S_S2048 _ (ix1 i) ix0 (fun a => a.elim0)]
  rfl

/-- The scalar the choice falls back on is zero. -/
theorem tail0_cst_11 :
    (show S_.Idx → EReal from StableHlo.after tail0 V (Proc.devRef .tc main_cst_11)) ix0 = Ideal.ofBits .f32 0x00000000#32 := by
  show (show S_.Idx → EReal from StableHlo.after [_, _, _, _, _, _, _] V (Proc.devRef .tc main_cst_11)) ix0 = _
  after_results
  rfl

/-- The first stretch is its first fifty operations followed by its last seven. -/
theorem W1_split (c : Dev nD) :
    W1 (F := Ideal) m ρ c = StableHlo.after tail0 (StableHlo.after (List.take 50 (hostOps0 (F := Ideal))) (W0 (F := Ideal) m ρ c)) := by
  show StableHlo.after (hostOps0 (F := Ideal)) (W0 (F := Ideal) m ρ c) = _
  rw [← StableHlo.after_append, List.take_append_drop]

/-! ## The assembly: each boundary's buffers from the previous boundary's -/

/-- The same three readings over the whole first stretch, in terms of the adjacency matrix the stretch leaves. -/
theorem W1_v42 (c : Dev nD) (i : Fin 2048) :
    (show S2048.Idx → EReal from W1 (F := Ideal) m ρ c (Proc.devRef .tc main_v42)) (ix1 i)
      = FloatOps.hostUnary (F := Ideal) (φ := .f32) .rsqrt
          (0 + ∑ j : Fin 2048, (show S2048x2048.Idx → EReal from W1 (F := Ideal) m ρ c (Proc.devRef .tc main_v38)) (ix2 i j)) := by
  rw [W1_split m ρ c, tail0_v42, tail0_v38]

theorem W1_v41 (c : Dev nD) (i : Fin 2048) :
    (show S2048.Idx → BitVec 1 from W1 (F := Ideal) m ρ c (Proc.devRef .tc main_v41)) (ix1 i)
      = FloatOps.cmpf (F := Ideal) (φ := .f32) .ogt
          (0 + ∑ j : Fin 2048, (show S2048x2048.Idx → EReal from W1 (F := Ideal) m ρ c (Proc.devRef .tc main_v38)) (ix2 i j))
          (Ideal.ofBits .f32 0x00000000#32) := by
  rw [W1_split m ρ c, tail0_v41, tail0_v38]

theorem W1_cst_11 (c : Dev nD) :
    (show S_.Idx → EReal from W1 (F := Ideal) m ρ c (Proc.devRef .tc main_cst_11)) ix0 = Ideal.ofBits .f32 0x00000000#32 := by
  rw [W1_split m ρ c, tail0_cst_11]

/-- After the second stretch the scaling vector is the inverse square root of the degree, zero where the degree is not positive. -/
theorem W2_v43 (c : Dev nD) (hin : InRange (m ((c.tc : Thread nD τ).loc main_arg8))) (i : Fin 2048) :
    (show S2048.Idx → EReal from W2 (F := Ideal) m ρ c (Proc.devRef .tc main_v43)) (ix1 i)
      = dinvOf (degK (nodeOf (m ((c.tc : Thread nD τ).loc main_arg8)) 0) (nodeOf (m ((c.tc : Thread nD τ).loc main_arg8)) 1)
          (sgOf (m ((c.tc : Thread nD τ).loc main_arg1))) i) := by
  show (show S2048.Idx → EReal from StableHlo.after hostOps0_1 (W1 (F := Ideal) m ρ c) (Proc.devRef .tc main_v43)) (ix1 i) = _
  rw [stretch1_v43, W1_v41, W1_v42, W1_cst_11, where_read]
  exact congrArg dinvOf (congrArg (0 + ·) (Finset.sum_congr rfl fun j _ => KerAdj.W1_main_v38 m ρ c hin i j))

/-- The second stretch leaves the adjacency matrix as the first wrote it. -/
theorem W2_v38 (c : Dev nD) (hin : InRange (m ((c.tc : Thread nD τ).loc main_arg8))) (i j : Fin 2048) :
    (show S2048x2048.Idx → EReal from W2 (F := Ideal) m ρ c (Proc.devRef .tc main_v38)) (ix2 i j)
      = adjK (nodeOf (m ((c.tc : Thread nD τ).loc main_arg8)) 0) (nodeOf (m ((c.tc : Thread nD τ).loc main_arg8)) 1)
          (sgOf (m ((c.tc : Thread nD τ).loc main_arg1))) i j := by
  show (show S2048x2048.Idx → EReal from StableHlo.after hostOps0_1 (W1 (F := Ideal) m ρ c) (Proc.devRef .tc main_v38)) (ix2 i j) = _
  rw [stretch1_v38]
  exact KerAdj.W1_main_v38 m ρ c hin i j

/-! ## The arguments: no operation of the three stretches writes one -/

/-- A buffer that no operation of the named stretch writes holds after it what it held before. -/
local macro "not_written " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

/-- The first layer's bias enters the third stretch as launched. -/
theorem W2_main_arg3 (c : Dev nD) : W2 (F := Ideal) m ρ c (Proc.devRef .tc main_arg3) = m ((c.tc : Thread nD τ).loc main_arg3) :=
  calc W2 (F := Ideal) m ρ c (Proc.devRef .tc main_arg3)
    _ = W1 (F := Ideal) m ρ c (Proc.devRef .tc main_arg3) := by not_written hostOps0_1
    _ = W0 (F := Ideal) m ρ c (Proc.devRef .tc main_arg3) := by not_written hostOps0
    _ = m ((c.tc : Thread nD τ).loc main_arg3) := rfl

/-- Entry (i, j) of the matrix the first region streams is the normalised adjacency weight. -/
theorem W3_main_v50 (c : Dev nD) (hin : InRange (m ((c.tc : Thread nD τ).loc main_arg8))) (i j : Fin 2048) :
    (show S2048x2048.Idx → EReal from W3 (F := Ideal) m ρ c (Proc.devRef .tc main_v50)) (ix2 i j)
      = normK (nodeOf (m ((c.tc : Thread nD τ).loc main_arg8)) 0) (nodeOf (m ((c.tc : Thread nD τ).loc main_arg8)) 1)
          (sgOf (m ((c.tc : Thread nD τ).loc main_arg1))) i j := by
  show (show S2048x2048.Idx → EReal from StableHlo.after hostOps0_2 (W2 (F := Ideal) m ρ c) (Proc.devRef .tc main_v50)) (ix2 i j) = _
  rw [stretch2_v50, W2_v43 m ρ c hin, W2_v43 m ρ c hin, W2_v38 m ρ c hin]
  rfl

/-- The first layer's bias as a 1 x 128 row. -/
theorem W3_main_v51 (c : Dev nD) (k : Fin 128) :
    (show S1x128.Idx → EReal from W3 (F := Ideal) m ρ c (Proc.devRef .tc main_v51)) (ix2 (0 : Fin 1) k)
      = (show S128.Idx → EReal from m ((c.tc : Thread nD τ).loc main_arg3)) (ix1 k) := by
  show (show S1x128.Idx → EReal from StableHlo.after hostOps0_2 (W2 (F := Ideal) m ρ c) (Proc.devRef .tc main_v51)) (ix2 (0 : Fin 1) k) = _
  rw [stretch2_v51, W2_main_arg3]

/-- The host operations write no argument. -/
theorem W3_main_arg0 (c : Dev nD) : W3 (F := Ideal) m ρ c (Proc.devRef .tc main_arg0) = m ((c.tc : Thread nD τ).loc main_arg0) :=
  calc W3 (F := Ideal) m ρ c (Proc.devRef .tc main_arg0)
    _ = W2 (F := Ideal) m ρ c (Proc.devRef .tc main_arg0) := by not_written hostOps0_2
    _ = W1 (F := Ideal) m ρ c (Proc.devRef .tc main_arg0) := by not_written hostOps0_1
    _ = W0 (F := Ideal) m ρ c (Proc.devRef .tc main_arg0) := by not_written hostOps0
    _ = m ((c.tc : Thread nD τ).loc main_arg0) := rfl
theorem W3_main_arg2 (c : Dev nD) : W3 (F := Ideal) m ρ c (Proc.devRef .tc main_arg2) = m ((c.tc : Thread nD τ).loc main_arg2) :=
  calc W3 (F := Ideal) m ρ c (Proc.devRef .tc main_arg2)
    _ = W2 (F := Ideal) m ρ c (Proc.devRef .tc main_arg2) := by not_written hostOps0_2
    _ = W1 (F := Ideal) m ρ c (Proc.devRef .tc main_arg2) := by not_written hostOps0_1
    _ = W0 (F := Ideal) m ρ c (Proc.devRef .tc main_arg2) := by not_written hostOps0
    _ = m ((c.tc : Thread nD τ).loc main_arg2) := rfl
theorem W3_main_arg4 (c : Dev nD) : W3 (F := Ideal) m ρ c (Proc.devRef .tc main_arg4) = m ((c.tc : Thread nD τ).loc main_arg4) :=
  calc W3 (F := Ideal) m ρ c (Proc.devRef .tc main_arg4)
    _ = W2 (F := Ideal) m ρ c (Proc.devRef .tc main_arg4) := by not_written hostOps0_2
    _ = W1 (F := Ideal) m ρ c (Proc.devRef .tc main_arg4) := by not_written hostOps0_1
    _ = W0 (F := Ideal) m ρ c (Proc.devRef .tc main_arg4) := by not_written hostOps0
    _ = m ((c.tc : Thread nD τ).loc main_arg4) := rfl
theorem W3_main_arg5 (c : Dev nD) : W3 (F := Ideal) m ρ c (Proc.devRef .tc main_arg5) = m ((c.tc : Thread nD τ).loc main_arg5) :=
  calc W3 (F := Ideal) m ρ c (Proc.devRef .tc main_arg5)
    _ = W2 (F := Ideal) m ρ c (Proc.devRef .tc main_arg5) := by not_written hostOps0_2
    _ = W1 (F := Ideal) m ρ c (Proc.devRef .tc main_arg5) := by not_written hostOps0_1
    _ = W0 (F := Ideal) m ρ c (Proc.devRef .tc main_arg5) := by not_written hostOps0
    _ = m ((c.tc : Thread nD τ).loc main_arg5) := rfl
theorem W3_main_arg6 (c : Dev nD) : W3 (F := Ideal) m ρ c (Proc.devRef .tc main_arg6) = m ((c.tc : Thread nD τ).loc main_arg6) :=
  calc W3 (F := Ideal) m ρ c (Proc.devRef .tc main_arg6)
    _ = W2 (F := Ideal) m ρ c (Proc.devRef .tc main_arg6) := by not_written hostOps0_2
    _ = W1 (F := Ideal) m ρ c (Proc.devRef .tc main_arg6) := by not_written hostOps0_1
    _ = W0 (F := Ideal) m ρ c (Proc.devRef .tc main_arg6) := by not_written hostOps0
    _ = m ((c.tc : Thread nD τ).loc main_arg6) := rfl
theorem W3_main_arg7 (c : Dev nD) : W3 (F := Ideal) m ρ c (Proc.devRef .tc main_arg7) = m ((c.tc : Thread nD τ).loc main_arg7) :=
  calc W3 (F := Ideal) m ρ c (Proc.devRef .tc main_arg7)
    _ = W2 (F := Ideal) m ρ c (Proc.devRef .tc main_arg7) := by not_written hostOps0_2
    _ = W1 (F := Ideal) m ρ c (Proc.devRef .tc main_arg7) := by not_written hostOps0_1
    _ = W0 (F := Ideal) m ρ c (Proc.devRef .tc main_arg7) := by not_written hostOps0
    _ = m ((c.tc : Thread nD τ).loc main_arg7) := rfl

end Cert.Gcn.KerHost

end
-- ==== Proof.KRegionPay.lean ====
/-
  The arithmetic of the three regions' bodies, read entry by entry: each body multiplies a 512-row block of
  the 2048 x 2048 matrix into the projected features (features times weights), adds the bias row, and, in the
  hidden layer, applies the rectifier.  Stated over arbitrary blocks of the literal shapes.
-/
import proofs.«420779_j55757265436854_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.Gcn.KerRegion

open Idealize.ShloMosaic Idealize.ShloMosaic.ValueIdx
open Cert.KernelIdeal Cert.KernelIdeal.Gen

/-! ## The four matrix products, each at an entry

A product's operand indices at result entry (p, q) and contracted coordinate k are (p, k) on the left and
(k, q) on the right: the left operand keeps the result's row on axis 0 and reads k on axis 1, the right one
reads k on axis 0 and keeps the result's column on axis 1. -/

/-! ### The feature projection of the hidden layer: [2048,128] by [128,128] -/

theorem lhs_xw128_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhs_xw128_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhs_xw128_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhs_xw128_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- Entry (p, q) of the product into a zero accumulator: the sum over the contracted coordinate k of l(p, k) r(k, q). -/
theorem mm_xw128_apply {φ₁ φ₂ : FTy} (l : FVec Ideal S2048x128 φ₁) (r : FVec Ideal S128x128 φ₂) (p : Fin 2048) (q : Fin 128) :
    matmul dot_S2048x128_S128x128_S2048x128_1_0_0_1_n_n none l r (constant S2048x128 .f32 0x00000000#32) (ix2 p q)
      = ∑ k : Fin 128, l (ix2 p k) * r (ix2 k q) := by
  simp only [matmul]
  rw [Ideal.matmul_constant_zero_apply, ← Equiv.sum_comp (ValueIdx.contrEquiv1 dot_S2048x128_S128x128_S2048x128_1_0_0_1_n_n 128 rfl rfl).symm]
  refine Finset.sum_congr rfl fun k _ => ?_
  have hk := ValueIdx.contrEquiv1_symm_val dot_S2048x128_S128x128_S2048x128_1_0_0_1_n_n 128 rfl rfl k
  have el : dot_S2048x128_S128x128_S2048x128_1_0_0_1_n_n.lhsIdx (ix2 p q) ((ValueIdx.contrEquiv1 dot_S2048x128_S128x128_S2048x128_1_0_0_1_n_n 128 rfl rfl).symm k) = ix2 p k := funext fun a => Fin.ext (by
    match a with
    | ⟨0, _⟩ => exact lhs_xw128_0 _ _
    | ⟨1, _⟩ => exact (lhs_xw128_1 _ _).trans hk)
  have er : dot_S2048x128_S128x128_S2048x128_1_0_0_1_n_n.rhsIdx (ix2 p q) ((ValueIdx.contrEquiv1 dot_S2048x128_S128x128_S2048x128_1_0_0_1_n_n 128 rfl rfl).symm k) = ix2 k q := funext fun a => Fin.ext (by
    match a with
    | ⟨0, _⟩ => exact (rhs_xw128_0 _ _).trans hk
    | ⟨1, _⟩ => exact rhs_xw128_1 _ _)
  rw [el, er]

/-! ### A row block of the matrix by the projected features: [512,2048] by [2048,128] -/

theorem lhs_mx128_0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem lhs_mx128_1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
theorem rhs_mx128_0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
theorem rhs_mx128_1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- Entry (p, q) of the product into a zero accumulator: the sum over the contracted coordinate k of l(p, k) r(k, q). -/
theorem mm_mx128_apply {φ₁ φ₂ : FTy} (l : FVec Ideal S512x2048 φ₁) (r : FVec Ideal S2048x128 φ₂) (p : Fin 512) (q : Fin 128) :
    matmul dot_S512x2048_S2048x128_S512x128_1_0_0_1_n_n none l r (constant S512x128 .f32 0x00000000#32) (ix2 p q)
      = ∑ k : Fin 2048, l (ix2 p k) * r (ix2 k q) := by
  simp only [matmul]
  rw [Ideal.matmul_constant_zero_apply, ← Equiv.sum_comp (ValueIdx.contrEquiv1 dot_S512x2048_S2048x128_S512x128_1_0_0_1_n_n 2048 rfl rfl).symm]
  refine Finset.sum_congr rfl fun k _ => ?_
  have hk := ValueIdx.contrEquiv1_symm_val dot_S512x2048_S2048x128_S512x128_1_0_0_1_n_n 2048 rfl rfl k
  have el : dot_S512x2048_S2048x128_S512x128_1_0_0_1_n_n.lhsIdx (ix2 p q) ((ValueIdx.contrEquiv1 dot_S512x2048_S2048x128_S512x128_1_0_0_1_n_n 2048 rfl rfl).symm k) = ix2 p k := funext fun a => Fin.ext (by
    match a with
    | ⟨0, _⟩ => exact lhs_mx128_0 _ _
    | ⟨1, _⟩ => exact (lhs_mx128_1 _ _).trans hk)
  have er : dot_S512x2048_S2048x128_S512x128_1_0_0_1_n_n.rhsIdx (ix2 p q) ((ValueIdx.contrEquiv1 dot_S512x2048_S2048x128_S512x128_1_0_0_1_n_n 2048 rfl rfl).symm k) = ix2 k q := funext fun a => Fin.ext (by
    match a with
    | ⟨0, _⟩ => exact (rhs_mx128_0 _ _).trans hk
    | ⟨1, _⟩ => exact rhs_mx128_1 _ _)
  rw [el, er]

/-! ### The feature projection of an output head: [2048,128] by [128,64] -/

theorem lhs_xw64_0 (i : S2048x64.Idx) (q : dot_S2048x128_S128x64_S2048x64_1_0_0_1_n_n.contr.Idx) :
    (dot_S2048x128_S128x64_S2048x64_1_0_0_1_n_n.lhsIdx i q 0).val = (i 0).val := by
  unfold DotDims.lhsIdx
  rw [dif_neg (show ¬(0 : Fin S2048x128.rank) ∈ dot_S2048x128_S128x64_S2048x64_1_0_0_1_n_n.lhsBatch by decide), dif_pos (show (0 : Fin S2048x128.rank) ∈ dot_S2048x128_S128x64_S2048x64_1_0_0_1_n_n.lhsNonContracting by decide)]
  rfl
theorem lhs_xw64_1 (i : S2048x64.Idx) (q : dot_S2048x128_S128x64_S2048x64_1_0_0_1_n_n.contr.Idx) :
    (dot_S2048x128_S128x64_S2048x64_1_0_0_1_n_n.lhsIdx i q 1).val = (q ⟨0, by decide⟩).val :=
  dot_S2048x128_S128x64_S2048x64_1_0_0_1_n_n.lhsIdx_val_of_single rfl i q
theorem rhs_xw64_0 (i : S2048x64.Idx) (q : dot_S2048x128_S128x64_S2048x64_1_0_0_1_n_n.contr.Idx) :
    (dot_S2048x128_S128x64_S2048x64_1_0_0_1_n_n.rhsIdx i q 0).val = (q ⟨0, by decide⟩).val :=
  dot_S2048x128_S128x64_S2048x64_1_0_0_1_n_n.rhsIdx_val_of_single rfl i q
theorem rhs_xw64_1 (i : S2048x64.Idx) (q : dot_S2048x128_S128x64_S2048x64_1_0_0_1_n_n.contr.Idx) :
    (dot_S2048x128_S128x64_S2048x64_1_0_0_1_n_n.rhsIdx i q 1).val = (i 1).val := by
  unfold DotDims.rhsIdx
  rw [dif_neg (show ¬(1 : Fin S128x64.rank) ∈ dot_S2048x128_S128x64_S2048x64_1_0_0_1_n_n.rhsBatch by decide), dif_pos (show (1 : Fin S128x64.rank) ∈ dot_S2048x128_S128x64_S2048x64_1_0_0_1_n_n.rhsNonContracting by decide)]
  rfl

/-- Entry (p, q) of the product into a zero accumulator: the sum over the contracted coordinate k of l(p, k) r(k, q). -/
theorem mm_xw64_apply {φ₁ φ₂ : FTy} (l : FVec Ideal S2048x128 φ₁) (r : FVec Ideal S128x64 φ₂) (p : Fin 2048) (q : Fin 64) :
    matmul dot_S2048x128_S128x64_S2048x64_1_0_0_1_n_n none l r (constant S2048x64 .f32 0x00000000#32) (ix2 p q)
      = ∑ k : Fin 128, l (ix2 p k) * r (ix2 k q) := by
  simp only [matmul]
  rw [Ideal.matmul_constant_zero_apply, ← Equiv.sum_comp (ValueIdx.contrEquiv1 dot_S2048x128_S128x64_S2048x64_1_0_0_1_n_n 128 rfl rfl).symm]
  refine Finset.sum_congr rfl fun k _ => ?_
  have hk := ValueIdx.contrEquiv1_symm_val dot_S2048x128_S128x64_S2048x64_1_0_0_1_n_n 128 rfl rfl k
  have el : dot_S2048x128_S128x64_S2048x64_1_0_0_1_n_n.lhsIdx (ix2 p q) ((ValueIdx.contrEquiv1 dot_S2048x128_S128x64_S2048x64_1_0_0_1_n_n 128 rfl rfl).symm k) = ix2 p k := funext fun a => Fin.ext (by
    match a with
    | ⟨0, _⟩ => exact lhs_xw64_0 _ _
    | ⟨1, _⟩ => exact (lhs_xw64_1 _ _).trans hk)
  have er : dot_S2048x128_S128x64_S2048x64_1_0_0_1_n_n.rhsIdx (ix2 p q) ((ValueIdx.contrEquiv1 dot_S2048x128_S128x64_S2048x64_1_0_0_1_n_n 128 rfl rfl).symm k) = ix2 k q := funext fun a => Fin.ext (by
    match a with
    | ⟨0, _⟩ => exact (rhs_xw64_0 _ _).trans hk
    | ⟨1, _⟩ => exact rhs_xw64_1 _ _)
  rw [el, er]

/-! ### A row block of the matrix by a head's projected features: [512,2048] by [2048,64] -/

theorem lhs_mx64_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_mx64_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhs_mx64_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhs_mx64_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Entry (p, q) of the product into a zero accumulator: the sum over the contracted coordinate k of l(p, k) r(k, q). -/
theorem mm_mx64_apply {φ₁ φ₂ : FTy} (l : FVec Ideal S512x2048 φ₁) (r : FVec Ideal S2048x64 φ₂) (p : Fin 512) (q : Fin 64) :
    matmul dot_S512x2048_S2048x64_S512x64_1_0_0_1_n_n none l r (constant S512x64 .f32 0x00000000#32) (ix2 p q)
      = ∑ k : Fin 2048, l (ix2 p k) * r (ix2 k q) := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 p q) ((ValueIdx.contrEquiv1 dot_S512x2048_S2048x64_S512x64_1_0_0_1_n_n 2048 rfl rfl).symm k) = ix2 p k := funext fun a => Fin.ext (by
    match a with
    | ⟨0, _⟩ => exact lhs_mx64_0 _ _
    | ⟨1, _⟩ => exact (lhs_mx64_1 _ _).trans hk)
  have er : dot_S512x2048_S2048x64_S512x64_1_0_0_1_n_n.rhsIdx (ix2 p q) ((ValueIdx.contrEquiv1 dot_S512x2048_S2048x64_S512x64_1_0_0_1_n_n 2048 rfl rfl).symm k) = ix2 k q := funext fun a => Fin.ext (by
    match a with
    | ⟨0, _⟩ => exact (rhs_mx64_0 _ _).trans hk
    | ⟨1, _⟩ => exact rhs_mx64_1 _ _)
  rw [el, er]

/-! ## The bias rows spread over a block -/

/-- The 128-wide bias row spread over the 512 rows of a block, read at (p, q): the row's entry q. -/
theorem bias128_apply (x2 : Vec Ideal S1x128 .f32) (p : Fin 512) (q : Fin 128) :
    broadcastTo S512x128 x2 broadcasts_S1x128_S512x128 (ix2 p q) = x2 (ix2 (0 : Fin 1) q) :=
  broadcastTo_apply x2 _ (ix2 p q) (ix2 (0 : Fin 1) q) (fun a => by match a with | ⟨0, _⟩ => rfl | ⟨1, _⟩ => rfl)

/-- The 64-wide bias row spread over the 512 rows of a block, read at (p, q): the row's entry q. -/
theorem bias64_apply (x2 : Vec Ideal S1x64 .f32) (p : Fin 512) (q : Fin 64) :
    broadcastTo S512x64 x2 broadcasts_S1x64_S512x64 (ix2 p q) = x2 (ix2 (0 : Fin 1) q) :=
  broadcastTo_apply x2 _ (ix2 p q) (ix2 (0 : Fin 1) q) (fun a => by match a with | ⟨0, _⟩ => rfl | ⟨1, _⟩ => rfl)

/-! ## The bodies at an entry -/

/-- The hidden layer's body at entry (p, q) of its block: the rectifier of the matrix rows times the projected
    features plus the bias row. A change of float format is the identity on the extended reals, and the zero
    the rectifier compares with is the extended real 0. -/
theorem pay0_apply (x0 : Vec Ideal S2048x128 .f32) (x1 : Vec Ideal S128x128 .f32) (x3 : Vec Ideal S512x2048 .bf16)
    (x2 : Vec Ideal S1x128 .f32) (p : Fin 512) (q : Fin 128) :
    k0_pay1 (F := Ideal) x0 x1 x3 x2 (ix2 p q)
      = max ((∑ j : Fin 2048, x3 (ix2 p j) * ∑ k : Fin 128, x0 (ix2 j k) * x1 (ix2 k q)) + x2 (ix2 (0 : Fin 1) q)) 0 := by
  unfold k0_pay1
  simp only [maximumf_apply, addf_apply, broadcast_apply, shapeCast_self]
  rw [mm_mx128_apply, bias128_apply]
  have hz : (FloatOps.ofBits FTy.f32 0x00000000#32 : Ideal .f32) = 0 := Ideal.ofBits_zero_f32
  rw [hz]
  refine congrArg (fun s => max (s + x2 (ix2 (0 : Fin 1) q)) 0) (Finset.sum_congr rfl fun j _ => ?_)
  rw [truncf_apply, mm_xw128_apply]

/-- The mu head's body at entry (p, q) of its block: the matrix rows times the projected features, plus
    the bias row. -/
theorem pay1_apply (x0 : Vec Ideal S2048x128 .f32) (x1 : Vec Ideal S128x64 .f32) (x3 : Vec Ideal S512x2048 .bf16)
    (x2 : Vec Ideal S1x64 .f32) (p : Fin 512) (q : Fin 64) :
    k1_pay1 (F := Ideal) x0 x1 x3 x2 (ix2 p q)
      = (∑ j : Fin 2048, x3 (ix2 p j) * ∑ k : Fin 128, x0 (ix2 j k) * x1 (ix2 k q)) + x2 (ix2 (0 : Fin 1) q) := by
  unfold k1_pay1
  simp only [addf_apply, shapeCast_self]
  rw [mm_mx64_apply, bias64_apply]
  refine congrArg (fun s => s + x2 (ix2 (0 : Fin 1) q)) (Finset.sum_congr rfl fun j _ => ?_)
  rw [truncf_apply, mm_xw64_apply]

/-- The log-std head's body at entry (p, q) of its block: the matrix rows times the projected features, plus
    the bias row. -/
theorem pay2_apply (x0 : Vec Ideal S2048x128 .f32) (x1 : Vec Ideal S128x64 .f32) (x3 : Vec Ideal S512x2048 .bf16)
    (x2 : Vec Ideal S1x64 .f32) (p : Fin 512) (q : Fin 64) :
    k2_pay1 (F := Ideal) x0 x1 x3 x2 (ix2 p q)
      = (∑ j : Fin 2048, x3 (ix2 p j) * ∑ k : Fin 128, x0 (ix2 j k) * x1 (ix2 k q)) + x2 (ix2 (0 : Fin 1) q) := by
  unfold k2_pay1
  simp only [addf_apply, shapeCast_self]
  rw [mm_mx64_apply, bias64_apply]
  refine congrArg (fun s => s + x2 (ix2 (0 : Fin 1) q)) (Finset.sum_congr rfl fun j _ => ?_)
  rw [truncf_apply, mm_xw64_apply]

end Cert.Gcn.KerRegion

end
-- ==== Proof.KRegion.lean ====
/-
  Each of the kernel program's three regions, from the arrays it finds at entry: the output array it leaves is
  the streamed matrix times the projected features, plus the bias row (and the rectifier in the first region).
-/
import proofs.«420779_j55757265436854_1_alg».proof.Proof.Gen.KernelIdeal.Frame
import proofs.«420779_j55757265436854_1_alg».proof.Proof.GcnSpec
import proofs.«420779_j55757265436854_1_alg».proof.Proof.KRegionPay
import Idealize.ShloMosaic.Lib.Pipeline.Value

set_option maxRecDepth 16384

noncomputable section

namespace Cert.Gcn.KerRegion

open Idealize.ShloMosaic Idealize.ShloMosaic.TcCoe Idealize.ShloMosaic.ValueIdx Idealize.SL.Sem
open Cert.KernelIdeal Cert.KernelIdeal.Gen Cert.Gcn

variable (V : (c : Dev nD) → (b : Ref sig .tc) → Buf (Elt Ideal) ((c : Thread nD τ).loc b))

/-- The zero offsets of a body's whole-buffer accesses. -/
theorem zeroOff : (![0, 0] : Fin 2 → Nat) = fun _ => 0 := funext fun a => by fin_cases a <;> rfl

/-! ## Region 0: the hidden layer -/

/-- The hidden layer's whole output as one function of the four arrays: at (i, q) the rectifier of row i of
    the matrix times column q of the projected features, plus the bias row's entry q. -/
def G0 (M : S2048x2048.Idx → EReal) (X : S2048x128.Idx → EReal) (W : S128x128.Idx → EReal) (B : S1x128.Idx → EReal) :
    S2048x128.Idx → EReal := fun i =>
  relu ((∑ j : Fin 2048, M (ix2 (i 0) j) * ∑ k : Fin 128, X (ix2 j k) * W (ix2 k (i 1))) + B (ix2 (0 : Fin 1) (i 1)))

/-- The body at entry (p, q) of its block, from what its four blocks hold: row r of the matrix M in row p of
    the matrix block, the whole arrays X, W, B in the other three. -/
theorem body0_entry (x0 : Vec Ideal S2048x128 .f32) (x1 : Vec Ideal S128x128 .f32) (x3 : Vec Ideal S512x2048 .bf16)
    (x2 : Vec Ideal S1x128 .f32) (M : S2048x2048.Idx → EReal) (X : S2048x128.Idx → EReal) (W : S128x128.Idx → EReal)
    (B : S1x128.Idx → EReal) (p : Fin 512) (q : Fin 128) (r : Fin 2048)
    (h3 : ∀ j : Fin 2048, x3 (ix2 p j) = M (ix2 r j)) (h0 : ∀ (j : Fin 2048) (k : Fin 128), x0 (ix2 j k) = X (ix2 j k))
    (h1 : ∀ (k : Fin 128) (q : Fin 128), x1 (ix2 k q) = W (ix2 k q)) (h2 : ∀ q : Fin 128, x2 (ix2 (0 : Fin 1) q) = B (ix2 (0 : Fin 1) q)) :
    k0_pay1 (F := Ideal) x0 x1 x3 x2 (ix2 p q) = G0 M X W B (ix2 r q) := by
  rw [pay0_apply]
  simp only [h3, h0, h1, h2]
  rfl

/-- The block indices of the five windows at a grid point t: the three whole-array windows sit at block (0, 0),
    the matrix and the output at row block t. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The features' block at any point is the whole feature array. -/
theorem iblk0_0_apply (c : Dev nD) (t : Fin cfg0.N) (j : Fin 2048) (k : Fin 128) :
    (iblk0 V c 0 t : S2048x128.Idx → EReal) (ix2 j k) = (V c main_arg0 : S2048x128.Idx → EReal) (ix2 j k) := by
  obtain ⟨e0, e1, -⟩ := idx0 t
  unfold iblk0
  rw [View.read_apply]
  show V c main_arg0 _ = V c main_arg0 _
  congr 1
  funext a; apply Fin.ext
  match a with
  | ⟨0, _⟩ => show win0_0.index t (0 : Fin 2) * 2048 + 1 * j.val = j.val; omega
  | ⟨1, _⟩ => show win0_0.index t (1 : Fin 2) * 128 + 1 * k.val = k.val; omega

/-- The weights' block at any point is the whole weight array. -/
theorem iblk0_1_apply (c : Dev nD) (t : Fin cfg0.N) (k : Fin 128) (q : Fin 128) :
    (iblk0 V c 1 t : S128x128.Idx → EReal) (ix2 k q) = (V c main_arg2 : S128x128.Idx → EReal) (ix2 k q) := by
  obtain ⟨-, -, e0, e1, -⟩ := idx0 t
  unfold iblk0
  rw [View.read_apply]
  show V c main_arg2 _ = V c main_arg2 _
  congr 1
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- The bias row's block at any point is the whole row. -/
theorem iblk0_2_apply (c : Dev nD) (t : Fin cfg0.N) (q : Fin 128) :
    (iblk0 V c 2 t : S1x128.Idx → EReal) (ix2 (0 : Fin 1) q) = (V c main_v51 : S1x128.Idx → EReal) (ix2 (0 : Fin 1) q) := by
  obtain ⟨-, -, -, -, e0, e1, -⟩ := idx0 t
  unfold iblk0
  rw [View.read_apply]
  show V c main_v51 _ = V c main_v51 _
  congr 1
  funext a; apply Fin.ext
  match a with
  | ⟨0, _⟩ => show win0_2.index t (0 : Fin 2) * 1 + 1 * (0 : Fin 1).val = (0 : Fin 1).val; omega
  | ⟨1, _⟩ => show win0_2.index t (1 : Fin 2) * 128 + 1 * q.val = q.val; omega

/-- The matrix's block at point t is its rows 512 t … 512 t + 511. -/
theorem iblk0_3_apply (c : Dev nD) (t : Fin cfg0.N) (p : Fin 512) (j : Fin 2048) (r : Fin 2048) (hr : r.val = 512 * t.val + p.val) :
    (iblk0 V c 3 t : S512x2048.Idx → EReal) (ix2 p j) = (V c main_v50 : S2048x2048.Idx → EReal) (ix2 r j) := by
  obtain ⟨-, -, -, -, -, -, e0, e1, -⟩ := idx0 t
  unfold iblk0
  rw [View.read_apply]
  show V c main_v50 _ = V c main_v50 _
  congr 1
  funext a; apply Fin.ext
  match a with
  | ⟨0, _⟩ => show win0_3.index t (0 : Fin 2) * 512 + 1 * p.val = r.val; omega
  | ⟨1, _⟩ => show win0_3.index t (1 : Fin 2) * 2048 + 1 * j.val = j.val; omega

/-- What point t writes back is block t of the whole-array function. -/
theorem flushed0_eq (c : Dev nD) (t : Fin cfg0.N) :
    (dat0 (F := Ideal) V c).flushed 4 t
      = ((cfg0.win 4).blk t).view.read (Elt Ideal) (G0 (V c main_v50) (V c main_arg0) (V c main_arg2) (V c main_v51)) := by
  show (cfg0.win 4).cut (grid0.coords t) ((dat0 V c).after 4 t) = _
  rw [after0_4]
  unfold out0_4
  rw [View.canon_unit_zero zeroOff]
  simp only [View.ld_unit_zero (S := S2048x128) zeroOff, View.ld_unit_zero (S := S128x128) zeroOff,
    View.ld_unit_zero (S := S512x2048) zeroOff, View.ld_unit_zero (S := S1x128) zeroOff]
  obtain ⟨-, -, -, -, -, -, -, -, e0, e1⟩ := idx0 t
  have hN : cfg0.N = 4 := N_0
  have ht : t.val < 4 := by have := t.isLt; omega
  funext y
  have hy0 : (y 0).val < 512 := (y 0).isLt
  have hy1 : (y 1).val < 128 := (y 1).isLt
  have key := body0_entry (iblk0 V c 0 t) (iblk0 V c 1 t) (iblk0 V c 3 t) (iblk0 V c 2 t)
    (V c main_v50) (V c main_arg0) (V c main_arg2) (V c main_v51)
    ⟨(y 0).val, hy0⟩ ⟨(y 1).val, hy1⟩ ⟨512 * t.val + (y 0).val, by omega⟩
    (fun j => iblk0_3_apply V c t _ j _ rfl) (fun j k => iblk0_0_apply V c t j k)
    (fun k q => iblk0_1_apply V c t k q) (fun q => iblk0_2_apply V c t q)
  have e2 : (win0_4.xinj (grid0.coords t) y : S512x128.Idx) = ix2 ⟨(y 0).val, hy0⟩ ⟨(y 1).val, hy1⟩ :=
    funext fun a => by match a with | ⟨0, _⟩ => rfl | ⟨1, _⟩ => rfl
  have e3 : (((cfg0.win 4).blk t).view.emb y : S2048x128.Idx)
      = ix2 (⟨512 * t.val + (y 0).val, by omega⟩ : Fin 2048) (⟨(y 1).val, hy1⟩ : Fin 128) :=
    funext fun a => Fin.ext (by
      match a with
      | ⟨0, _⟩ => show win0_4.index t (0 : Fin 2) * 512 + 1 * (y 0).val = 512 * t.val + (y 0).val; omega
      | ⟨1, _⟩ => show win0_4.index t (1 : Fin 2) * 128 + 1 * (y 1).val = (y 1).val; omega)
  show k0_pay1 (F := Ideal) (iblk0 V c 0 t) (iblk0 V c 1 t) (iblk0 V c 3 t) (iblk0 V c 2 t) (win0_4.xinj (grid0.coords t) y)
      = G0 (V c main_v50) (V c main_arg0) (V c main_arg2) (V c main_v51) (((cfg0.win 4).blk t).view.emb y)
  rw [e2, e3]
  exact key

/-- Every row of the output lies in the block of the point that is the row's number divided by 512. -/
theorem cover0 (i : S2048x128.Idx) :
    ∃ t : Fin cfg0.N, (cfg0.win 4).flush t = true ∧ i ∈ ((cfg0.win 4).blk t).view.set := by
  have hi0 : (i 0).val < 2048 := (i 0).isLt
  have hi1 : (i 1).val < 128 := (i 1).isLt
  have hN : cfg0.N = 4 := N_0
  have hlt : (i 0).val / 512 < cfg0.N := by omega
  refine ⟨⟨(i 0).val / 512, hlt⟩, flush0_4 _, ?_⟩
  obtain ⟨-, -, -, -, -, -, -, -, e0, e1⟩ := idx0 ⟨(i 0).val / 512, hlt⟩
  have e0' : win0_4.index ⟨(i 0).val / 512, hlt⟩ (0 : Fin 2) = (i 0).val / 512 := e0
  show i ∈ ((View.whole main_v52).slice (win0_4.rect ⟨(i 0).val / 512, hlt⟩)).set
  rw [View.set_slice_whole, Rect.mem_set_unit]
  intro a
  match a with
  | ⟨0, _⟩ =>
    show win0_4.index ⟨(i 0).val / 512, hlt⟩ (0 : Fin 2) * 512 ≤ (i 0).val
      ∧ (i 0).val < win0_4.index ⟨(i 0).val / 512, hlt⟩ (0 : Fin 2) * 512 + 512
    omega
  | ⟨1, _⟩ =>
    show win0_4.index ⟨(i 0).val / 512, hlt⟩ (1 : Fin 2) * 128 ≤ (i 1).val
      ∧ (i 1).val < win0_4.index ⟨(i 0).val / 512, hlt⟩ (1 : Fin 2) * 128 + 128
    omega

/-- Region 0 (the hidden layer): its output array after all four grid points. -/
theorem region0_arr (c : Dev nD) (i : Fin 2048) (cc : Fin 128) :
    (show S2048x128.Idx → EReal from (dat0 (F := Ideal) V c).arrAt 4 cfg0.N) (ix2 i cc)
      = relu ((∑ j : Fin 2048, (show S2048x2048.Idx → EReal from V c main_v50) (ix2 i j)
                * ∑ k : Fin 128, (show S2048x128.Idx → EReal from V c main_arg0) (ix2 j k)
                    * (show S128x128.Idx → EReal from V c main_arg2) (ix2 k cc))
              + (show S1x128.Idx → EReal from V c main_v51) (ix2 (0 : Fin 1) cc)) := by
  have h := (dat0 (F := Ideal) V c).arrAt_eq_of_cover 4 (G0 (V c main_v50) (V c main_arg0) (V c main_arg2) (V c main_v51))
    (fun t _ => flushed0_eq V c t) cover0
  exact congrFun h (ix2 i cc)

/-! ## Regions 1 and 2: the two output heads -/

/-- An output head's whole output as one function of the four arrays: at (i, q) row i of the matrix times
    column q of the projected hidden features, plus the bias row's entry q. -/
def GH (M : S2048x2048.Idx → EReal) (X : S2048x128.Idx → EReal) (W : S128x64.Idx → EReal) (B : S1x64.Idx → EReal) :
    S2048x64.Idx → EReal := fun i =>
  (∑ j : Fin 2048, M (ix2 (i 0) j) * ∑ k : Fin 128, X (ix2 j k) * W (ix2 k (i 1))) + B (ix2 (0 : Fin 1) (i 1))

/-! ### Region 1: the mu head -/

/-- The body at entry (p, q) of its block, from what its four blocks hold: row r of the matrix M in row p of
    the matrix block, the whole arrays X, W, B in the other three. -/
theorem body1_entry (x0 : Vec Ideal S2048x128 .f32) (x1 : Vec Ideal S128x64 .f32) (x3 : Vec Ideal S512x2048 .bf16)
    (x2 : Vec Ideal S1x64 .f32) (M : S2048x2048.Idx → EReal) (X : S2048x128.Idx → EReal) (W : S128x64.Idx → EReal)
    (B : S1x64.Idx → EReal) (p : Fin 512) (q : Fin 64) (r : Fin 2048)
    (h3 : ∀ j : Fin 2048, x3 (ix2 p j) = M (ix2 r j)) (h0 : ∀ (j : Fin 2048) (k : Fin 128), x0 (ix2 j k) = X (ix2 j k))
    (h1 : ∀ (k : Fin 128) (q : Fin 64), x1 (ix2 k q) = W (ix2 k q)) (h2 : ∀ q : Fin 64, x2 (ix2 (0 : Fin 1) q) = B (ix2 (0 : Fin 1) q)) :
    k1_pay1 (F := Ideal) x0 x1 x3 x2 (ix2 p q) = GH M X W B (ix2 r q) := by
  rw [pay1_apply]
  simp only [h3, h0, h1, h2]
  rfl

/-- The block indices of the five windows at a grid point t: the three whole-array windows sit at block (0, 0),
    the matrix and the output at row block t. -/
theorem idx1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The hidden features' block at any point is the whole array. -/
theorem iblk1_0_apply (c : Dev nD) (t : Fin cfg1.N) (j : Fin 2048) (k : Fin 128) :
    (iblk1 V c 0 t : S2048x128.Idx → EReal) (ix2 j k) = (V c main_v52 : S2048x128.Idx → EReal) (ix2 j k) := by
  obtain ⟨e0, e1, -⟩ := idx1 t
  unfold iblk1
  rw [View.read_apply]
  show V c main_v52 _ = V c main_v52 _
  congr 1
  funext a; apply Fin.ext
  match a with
  | ⟨0, _⟩ => show win1_0.index t (0 : Fin 2) * 2048 + 1 * j.val = j.val; omega
  | ⟨1, _⟩ => show win1_0.index t (1 : Fin 2) * 128 + 1 * k.val = k.val; omega

/-- The weights' block at any point is the whole weight array. -/
theorem iblk1_1_apply (c : Dev nD) (t : Fin cfg1.N) (k : Fin 128) (q : Fin 64) :
    (iblk1 V c 1 t : S128x64.Idx → EReal) (ix2 k q) = (V c main_arg4 : S128x64.Idx → EReal) (ix2 k q) := by
  obtain ⟨-, -, e0, e1, -⟩ := idx1 t
  unfold iblk1
  rw [View.read_apply]
  show V c main_arg4 _ = V c main_arg4 _
  congr 1
  funext a; apply Fin.ext
  match a with
  | ⟨0, _⟩ => show win1_1.index t (0 : Fin 2) * 128 + 1 * k.val = k.val; omega
  | ⟨1, _⟩ => show win1_1.index t (1 : Fin 2) * 64 + 1 * q.val = q.val; omega

/-- The bias row's block at any point is the whole row. -/
theorem iblk1_2_apply (c : Dev nD) (t : Fin cfg1.N) (q : Fin 64) :
    (iblk1 V c 2 t : S1x64.Idx → EReal) (ix2 (0 : Fin 1) q) = (V c main_v53 : S1x64.Idx → EReal) (ix2 (0 : Fin 1) q) := by
  obtain ⟨-, -, -, -, e0, e1, -⟩ := idx1 t
  unfold iblk1
  rw [View.read_apply]
  show V c main_v53 _ = V c main_v53 _
  congr 1
  funext a; apply Fin.ext
  match a with
  | ⟨0, _⟩ => show win1_2.index t (0 : Fin 2) * 1 + 1 * (0 : Fin 1).val = (0 : Fin 1).val; omega
  | ⟨1, _⟩ => show win1_2.index t (1 : Fin 2) * 64 + 1 * q.val = q.val; omega

/-- The matrix's block at point t is its rows 512 t … 512 t + 511. -/
theorem iblk1_3_apply (c : Dev nD) (t : Fin cfg1.N) (p : Fin 512) (j : Fin 2048) (r : Fin 2048) (hr : r.val = 512 * t.val + p.val) :
    (iblk1 V c 3 t : S512x2048.Idx → EReal) (ix2 p j) = (V c main_v50 : S2048x2048.Idx → EReal) (ix2 r j) := by
  obtain ⟨-, -, -, -, -, -, e0, e1, -⟩ := idx1 t
  unfold iblk1
  rw [View.read_apply]
  show V c main_v50 _ = V c main_v50 _
  congr 1
  funext a; apply Fin.ext
  match a with
  | ⟨0, _⟩ => show win1_3.index t (0 : Fin 2) * 512 + 1 * p.val = r.val; omega
  | ⟨1, _⟩ => show win1_3.index t (1 : Fin 2) * 2048 + 1 * j.val = j.val; omega

/-- What point t writes back is block t of the whole-array function. -/
theorem flushed1_eq (c : Dev nD) (t : Fin cfg1.N) :
    (dat1 (F := Ideal) V c).flushed 4 t
      = ((cfg1.win 4).blk t).view.read (Elt Ideal) (GH (V c main_v50) (V c main_v52) (V c main_arg4) (V c main_v53)) := by
  show (cfg1.win 4).cut (grid1.coords t) ((dat1 V c).after 4 t) = _
  rw [after1_4]
  unfold out1_4
  rw [View.canon_unit_zero zeroOff]
  simp only [View.ld_unit_zero (S := S2048x128) zeroOff, View.ld_unit_zero (S := S128x64) zeroOff,
    View.ld_unit_zero (S := S512x2048) zeroOff, View.ld_unit_zero (S := S1x64) zeroOff]
  obtain ⟨-, -, -, -, -, -, -, -, e0, e1⟩ := idx1 t
  have hN : cfg1.N = 4 := N_1
  have ht : t.val < 4 := by have := t.isLt; omega
  funext y
  have hy0 : (y 0).val < 512 := (y 0).isLt
  have hy1 : (y 1).val < 64 := (y 1).isLt
  have key := body1_entry (iblk1 V c 0 t) (iblk1 V c 1 t) (iblk1 V c 3 t) (iblk1 V c 2 t)
    (V c main_v50) (V c main_v52) (V c main_arg4) (V c main_v53)
    ⟨(y 0).val, hy0⟩ ⟨(y 1).val, hy1⟩ ⟨512 * t.val + (y 0).val, by omega⟩
    (fun j => iblk1_3_apply V c t _ j _ rfl) (fun j k => iblk1_0_apply V c t j k)
    (fun k q => iblk1_1_apply V c t k q) (fun q => iblk1_2_apply V c t q)
  have e2 : (win1_4.xinj (grid1.coords t) y : S512x64.Idx) = ix2 ⟨(y 0).val, hy0⟩ ⟨(y 1).val, hy1⟩ :=
    funext fun a => by match a with | ⟨0, _⟩ => rfl | ⟨1, _⟩ => rfl
  have e3 : (((cfg1.win 4).blk t).view.emb y : S2048x64.Idx)
      = ix2 (⟨512 * t.val + (y 0).val, by omega⟩ : Fin 2048) (⟨(y 1).val, hy1⟩ : Fin 64) :=
    funext fun a => Fin.ext (by
      match a with
      | ⟨0, _⟩ => show win1_4.index t (0 : Fin 2) * 512 + 1 * (y 0).val = 512 * t.val + (y 0).val; omega
      | ⟨1, _⟩ => show win1_4.index t (1 : Fin 2) * 64 + 1 * (y 1).val = (y 1).val; omega)
  show k1_pay1 (F := Ideal) (iblk1 V c 0 t) (iblk1 V c 1 t) (iblk1 V c 3 t) (iblk1 V c 2 t) (win1_4.xinj (grid1.coords t) y)
      = GH (V c main_v50) (V c main_v52) (V c main_arg4) (V c main_v53) (((cfg1.win 4).blk t).view.emb y)
  rw [e2, e3]
  exact key

/-- Every row of the output lies in the block of the point that is the row's number divided by 512. -/
theorem cover1 (i : S2048x64.Idx) :
    ∃ t : Fin cfg1.N, (cfg1.win 4).flush t = true ∧ i ∈ ((cfg1.win 4).blk t).view.set := by
  have hi0 : (i 0).val < 2048 := (i 0).isLt
  have hi1 : (i 1).val < 64 := (i 1).isLt
  have hN : cfg1.N = 4 := N_1
  have hlt : (i 0).val / 512 < cfg1.N := by omega
  refine ⟨⟨(i 0).val / 512, hlt⟩, flush1_4 _, ?_⟩
  obtain ⟨-, -, -, -, -, -, -, -, e0, e1⟩ := idx1 ⟨(i 0).val / 512, hlt⟩
  have e0' : win1_4.index ⟨(i 0).val / 512, hlt⟩ (0 : Fin 2) = (i 0).val / 512 := e0
  show i ∈ ((View.whole main_v54).slice (win1_4.rect ⟨(i 0).val / 512, hlt⟩)).set
  rw [View.set_slice_whole, Rect.mem_set_unit]
  intro a
  match a with
  | ⟨0, _⟩ =>
    show win1_4.index ⟨(i 0).val / 512, hlt⟩ (0 : Fin 2) * 512 ≤ (i 0).val
      ∧ (i 0).val < win1_4.index ⟨(i 0).val / 512, hlt⟩ (0 : Fin 2) * 512 + 512
    omega
  | ⟨1, _⟩ =>
    show win1_4.index ⟨(i 0).val / 512, hlt⟩ (1 : Fin 2) * 64 ≤ (i 1).val
      ∧ (i 1).val < win1_4.index ⟨(i 0).val / 512, hlt⟩ (1 : Fin 2) * 64 + 64
    omega

/-- Region 1 (the mu head): its output array after all four grid points. -/
theorem region1_arr (c : Dev nD) (i : Fin 2048) (cc : Fin 64) :
    (show S2048x64.Idx → EReal from (dat1 (F := Ideal) V c).arrAt 4 cfg1.N) (ix2 i cc)
      = (∑ j : Fin 2048, (show S2048x2048.Idx → EReal from V c main_v50) (ix2 i j)
                * ∑ k : Fin 128, (show S2048x128.Idx → EReal from V c main_v52) (ix2 j k)
                    * (show S128x64.Idx → EReal from V c main_arg4) (ix2 k cc))
              + (show S1x64.Idx → EReal from V c main_v53) (ix2 (0 : Fin 1) cc) := by
  have h := (dat1 (F := Ideal) V c).arrAt_eq_of_cover 4 (GH (V c main_v50) (V c main_v52) (V c main_arg4) (V c main_v53))
    (fun t _ => flushed1_eq V c t) cover1
  exact congrFun h (ix2 i cc)

/-! ### Region 2: the log-std head -/

/-- The body at entry (p, q) of its block, from what its four blocks hold: row r of the matrix M in row p of
    the matrix block, the whole arrays X, W, B in the other three. -/
theorem body2_entry (x0 : Vec Ideal S2048x128 .f32) (x1 : Vec Ideal S128x64 .f32) (x3 : Vec Ideal S512x2048 .bf16)
    (x2 : Vec Ideal S1x64 .f32) (M : S2048x2048.Idx → EReal) (X : S2048x128.Idx → EReal) (W : S128x64.Idx → EReal)
    (B : S1x64.Idx → EReal) (p : Fin 512) (q : Fin 64) (r : Fin 2048)
    (h3 : ∀ j : Fin 2048, x3 (ix2 p j) = M (ix2 r j)) (h0 : ∀ (j : Fin 2048) (k : Fin 128), x0 (ix2 j k) = X (ix2 j k))
    (h1 : ∀ (k : Fin 128) (q : Fin 64), x1 (ix2 k q) = W (ix2 k q)) (h2 : ∀ q : Fin 64, x2 (ix2 (0 : Fin 1) q) = B (ix2 (0 : Fin 1) q)) :
    k2_pay1 (F := Ideal) x0 x1 x3 x2 (ix2 p q) = GH M X W B (ix2 r q) := by
  rw [pay2_apply]
  simp only [h3, h0, h1, h2]
  rfl

/-- The block indices of the five windows at a grid point t: the three whole-array windows sit at block (0, 0),
    the matrix and the output at row block t. -/
theorem idx2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The hidden features' block at any point is the whole array. -/
theorem iblk2_0_apply (c : Dev nD) (t : Fin cfg2.N) (j : Fin 2048) (k : Fin 128) :
    (iblk2 V c 0 t : S2048x128.Idx → EReal) (ix2 j k) = (V c main_v52 : S2048x128.Idx → EReal) (ix2 j k) := by
  obtain ⟨e0, e1, -⟩ := idx2 t
  unfold iblk2
  rw [View.read_apply]
  show V c main_v52 _ = V c main_v52 _
  congr 1
  funext a; apply Fin.ext
  match a with
  | ⟨0, _⟩ => show win2_0.index t (0 : Fin 2) * 2048 + 1 * j.val = j.val; omega
  | ⟨1, _⟩ => show win2_0.index t (1 : Fin 2) * 128 + 1 * k.val = k.val; omega

/-- The weights' block at any point is the whole weight array. -/
theorem iblk2_1_apply (c : Dev nD) (t : Fin cfg2.N) (k : Fin 128) (q : Fin 64) :
    (iblk2 V c 1 t : S128x64.Idx → EReal) (ix2 k q) = (V c main_arg6 : S128x64.Idx → EReal) (ix2 k q) := by
  obtain ⟨-, -, e0, e1, -⟩ := idx2 t
  unfold iblk2
  rw [View.read_apply]
  show V c main_arg6 _ = V c main_arg6 _
  congr 1
  funext a; apply Fin.ext
  match a with
  | ⟨0, _⟩ => show win2_1.index t (0 : Fin 2) * 128 + 1 * k.val = k.val; omega
  | ⟨1, _⟩ => show win2_1.index t (1 : Fin 2) * 64 + 1 * q.val = q.val; omega

/-- The bias row's block at any point is the whole row. -/
theorem iblk2_2_apply (c : Dev nD) (t : Fin cfg2.N) (q : Fin 64) :
    (iblk2 V c 2 t : S1x64.Idx → EReal) (ix2 (0 : Fin 1) q) = (V c main_v55 : S1x64.Idx → EReal) (ix2 (0 : Fin 1) q) := by
  obtain ⟨-, -, -, -, e0, e1, -⟩ := idx2 t
  unfold iblk2
  rw [View.read_apply]
  show V c main_v55 _ = V c main_v55 _
  congr 1
  funext a; apply Fin.ext
  match a with
  | ⟨0, _⟩ => show win2_2.index t (0 : Fin 2) * 1 + 1 * (0 : Fin 1).val = (0 : Fin 1).val; omega
  | ⟨1, _⟩ => show win2_2.index t (1 : Fin 2) * 64 + 1 * q.val = q.val; omega

/-- The matrix's block at point t is its rows 512 t … 512 t + 511. -/
theorem iblk2_3_apply (c : Dev nD) (t : Fin cfg2.N) (p : Fin 512) (j : Fin 2048) (r : Fin 2048) (hr : r.val = 512 * t.val + p.val) :
    (iblk2 V c 3 t : S512x2048.Idx → EReal) (ix2 p j) = (V c main_v50 : S2048x2048.Idx → EReal) (ix2 r j) := by
  obtain ⟨-, -, -, -, -, -, e0, e1, -⟩ := idx2 t
  unfold iblk2
  rw [View.read_apply]
  show V c main_v50 _ = V c main_v50 _
  congr 1
  funext a; apply Fin.ext
  match a with
  | ⟨0, _⟩ => show win2_3.index t (0 : Fin 2) * 512 + 1 * p.val = r.val; omega
  | ⟨1, _⟩ => show win2_3.index t (1 : Fin 2) * 2048 + 1 * j.val = j.val; omega

/-- What point t writes back is block t of the whole-array function. -/
theorem flushed2_eq (c : Dev nD) (t : Fin cfg2.N) :
    (dat2 (F := Ideal) V c).flushed 4 t
      = ((cfg2.win 4).blk t).view.read (Elt Ideal) (GH (V c main_v50) (V c main_v52) (V c main_arg6) (V c main_v55)) := by
  show (cfg2.win 4).cut (grid2.coords t) ((dat2 V c).after 4 t) = _
  rw [after2_4]
  unfold out2_4
  rw [View.canon_unit_zero zeroOff]
  simp only [View.ld_unit_zero (S := S2048x128) zeroOff, View.ld_unit_zero (S := S128x64) zeroOff,
    View.ld_unit_zero (S := S512x2048) zeroOff, View.ld_unit_zero (S := S1x64) zeroOff]
  obtain ⟨-, -, -, -, -, -, -, -, e0, e1⟩ := idx2 t
  have hN : cfg2.N = 4 := N_2
  have ht : t.val < 4 := by have := t.isLt; omega
  funext y
  have hy0 : (y 0).val < 512 := (y 0).isLt
  have hy1 : (y 1).val < 64 := (y 1).isLt
  have key := body2_entry (iblk2 V c 0 t) (iblk2 V c 1 t) (iblk2 V c 3 t) (iblk2 V c 2 t)
    (V c main_v50) (V c main_v52) (V c main_arg6) (V c main_v55)
    ⟨(y 0).val, hy0⟩ ⟨(y 1).val, hy1⟩ ⟨512 * t.val + (y 0).val, by omega⟩
    (fun j => iblk2_3_apply V c t _ j _ rfl) (fun j k => iblk2_0_apply V c t j k)
    (fun k q => iblk2_1_apply V c t k q) (fun q => iblk2_2_apply V c t q)
  have e2 : (win2_4.xinj (grid2.coords t) y : S512x64.Idx) = ix2 ⟨(y 0).val, hy0⟩ ⟨(y 1).val, hy1⟩ :=
    funext fun a => by match a with | ⟨0, _⟩ => rfl | ⟨1, _⟩ => rfl
  have e3 : (((cfg2.win 4).blk t).view.emb y : S2048x64.Idx)
      = ix2 (⟨512 * t.val + (y 0).val, by omega⟩ : Fin 2048) (⟨(y 1).val, hy1⟩ : Fin 64) :=
    funext fun a => Fin.ext (by
      match a with
      | ⟨0, _⟩ => show win2_4.index t (0 : Fin 2) * 512 + 1 * (y 0).val = 512 * t.val + (y 0).val; omega
      | ⟨1, _⟩ => show win2_4.index t (1 : Fin 2) * 64 + 1 * (y 1).val = (y 1).val; omega)
  show k2_pay1 (F := Ideal) (iblk2 V c 0 t) (iblk2 V c 1 t) (iblk2 V c 3 t) (iblk2 V c 2 t) (win2_4.xinj (grid2.coords t) y)
      = GH (V c main_v50) (V c main_v52) (V c main_arg6) (V c main_v55) (((cfg2.win 4).blk t).view.emb y)
  rw [e2, e3]
  exact key

/-- Every row of the output lies in the block of the point that is the row's number divided by 512. -/
theorem cover2 (i : S2048x64.Idx) :
    ∃ t : Fin cfg2.N, (cfg2.win 4).flush t = true ∧ i ∈ ((cfg2.win 4).blk t).view.set := by
  have hi0 : (i 0).val < 2048 := (i 0).isLt
  have hi1 : (i 1).val < 64 := (i 1).isLt
  have hN : cfg2.N = 4 := N_2
  have hlt : (i 0).val / 512 < cfg2.N := by omega
  refine ⟨⟨(i 0).val / 512, hlt⟩, flush2_4 _, ?_⟩
  obtain ⟨-, -, -, -, -, -, -, -, e0, e1⟩ := idx2 ⟨(i 0).val / 512, hlt⟩
  have e0' : win2_4.index ⟨(i 0).val / 512, hlt⟩ (0 : Fin 2) = (i 0).val / 512 := e0
  show i ∈ ((View.whole main_v56).slice (win2_4.rect ⟨(i 0).val / 512, hlt⟩)).set
  rw [View.set_slice_whole, Rect.mem_set_unit]
  intro a
  match a with
  | ⟨0, _⟩ =>
    show win2_4.index ⟨(i 0).val / 512, hlt⟩ (0 : Fin 2) * 512 ≤ (i 0).val
      ∧ (i 0).val < win2_4.index ⟨(i 0).val / 512, hlt⟩ (0 : Fin 2) * 512 + 512
    omega
  | ⟨1, _⟩ =>
    show win2_4.index ⟨(i 0).val / 512, hlt⟩ (1 : Fin 2) * 64 ≤ (i 1).val
      ∧ (i 1).val < win2_4.index ⟨(i 0).val / 512, hlt⟩ (1 : Fin 2) * 64 + 64
    omega

/-- Region 2 (the log-std head): its output array after all four grid points. -/
theorem region2_arr (c : Dev nD) (i : Fin 2048) (cc : Fin 64) :
    (show S2048x64.Idx → EReal from (dat2 (F := Ideal) V c).arrAt 4 cfg2.N) (ix2 i cc)
      = (∑ j : Fin 2048, (show S2048x2048.Idx → EReal from V c main_v50) (ix2 i j)
                * ∑ k : Fin 128, (show S2048x128.Idx → EReal from V c main_v52) (ix2 j k)
                    * (show S128x64.Idx → EReal from V c main_arg6) (ix2 k cc))
              + (show S1x64.Idx → EReal from V c main_v55) (ix2 (0 : Fin 1) cc) := by
  have h := (dat2 (F := Ideal) V c).arrAt_eq_of_cover 4 (GH (V c main_v50) (V c main_v52) (V c main_arg6) (V c main_v55))
    (fun t _ => flushed2_eq V c t) cover2
  exact congrFun h (ix2 i cc)

end Cert.Gcn.KerRegion

end
-- ==== Proof.KValue.lean ====
/-
  The kernel program's two results as functions of its arguments: each region's output array is one layer of the
  dense layout applied to the arrays the region finds, and the three regions chain into the two output heads.
-/
import proofs.«420779_j55757265436854_1_alg».proof.Proof.KHost
import proofs.«420779_j55757265436854_1_alg».proof.Proof.KRegion
import Idealize.ShloMosaic.Lib.ValueLayout

set_option maxRecDepth 16384

noncomputable section

namespace Cert.Gcn.Ker

open Idealize.ShloMosaic Idealize.ShloMosaic.TcCoe Idealize.ShloMosaic.ValueIdx Idealize.SL.Sem
open Cert.KernelIdeal Cert.KernelIdeal.Gen Cert.Gcn

variable (m : (ℓ : Loc nD τ sig) → Buf (Elt Ideal) ℓ) (ρ : Dev nD → PrngReg)

/-- One layer's sum depends only on the entries it reads: equal matrix rows, features, weights and bias give equal values. -/
theorem layer_sum_congr {A A' : Fin 2048 → EReal} {P P' : Fin 2048 → Fin 128 → EReal} {Q Q' : Fin 128 → EReal} {b b' : EReal}
    (hA : ∀ j, A j = A' j) (hP : ∀ j k, P j k = P' j k) (hQ : ∀ k, Q k = Q' k) (hb : b = b') :
    (∑ j : Fin 2048, A j * ∑ k : Fin 128, P j k * Q k) + b = (∑ j : Fin 2048, A' j * ∑ k : Fin 128, P' j k * Q' k) + b' := by
  have hA' : A = A' := funext hA
  have hP' : P = P' := funext fun j => funext (hP j)
  have hQ' : Q = Q' := funext hQ
  rw [hA', hP', hQ', hb]

/-- The reshape before the second region writes only the 1 x 64 bias row: any other buffer keeps its contents. -/
theorem W5_of_ne (c : Dev nD) (b : Ref sig .tc) (hb : b ≠ main_v53) :
    W5 (F := Ideal) m ρ c (Proc.devRef .tc b) = W4 (F := Ideal) m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- The reshape before the third region writes only its 1 x 64 bias row. -/
theorem W7_of_ne (c : Dev nD) (b : Ref sig .tc) (hb : b ≠ main_v55) :
    W7 (F := Ideal) m ρ c (Proc.devRef .tc b) = W6 (F := Ideal) m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

/-- The normalised matrix is an input window of the first region: it leaves it as it entered. -/
theorem W4_main_v50 (c : Dev nD) :
    W4 (F := Ideal) m ρ c (Proc.devRef .tc main_v50) = W3 (F := Ideal) m ρ c (Proc.devRef .tc main_v50) :=
  (W4_arr m ρ c 3).trans (((dat0 (V3 m ρ) c).arrAt_in 3 rfl _).trans (A_eq0 (V3 m ρ) c 3))

/-- The first region's output array is the hidden layer of the dense layout. -/
theorem W4_main_v52 (c : Dev nD) (hin : InRange (m ((c.tc : Thread nD τ).loc main_arg8))) (i : Fin 2048) (cc : Fin 128) :
    (show S2048x128.Idx → EReal from W4 (F := Ideal) m ρ c (Proc.devRef .tc main_v52)) (ix2 i cc)
      = hiddenK (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg8)) i cc := by
  have h := KerRegion.region0_arr (V3 (F := Ideal) m ρ) c i cc
  rw [← W4_arr m ρ c 4] at h
  refine h.trans ?_
  unfold hiddenK layerK aggK proj
  exact congrArg relu (layer_sum_congr
    (fun j => KerHost.W3_main_v50 m ρ c hin i j)
    (fun j k => congrFun (KerHost.W3_main_arg0 m ρ c) (ix2 j k))
    (fun k => congrFun (KerHost.W3_main_arg2 m ρ c) (ix2 k cc))
    (KerHost.W3_main_v51 m ρ c cc))

/-- The second region's entry: the normalised matrix is still the one built before the first region. -/
theorem W5_main_v50 (c : Dev nD) :
    W5 (F := Ideal) m ρ c (Proc.devRef .tc main_v50) = W3 (F := Ideal) m ρ c (Proc.devRef .tc main_v50) :=
  (W5_of_ne m ρ c main_v50 (by decide)).trans (W4_main_v50 m ρ c)

/-- The second region's weight matrix is the fifth argument, untouched so far. -/
theorem W5_main_arg4 (c : Dev nD) :
    W5 (F := Ideal) m ρ c (Proc.devRef .tc main_arg4) = m ((c.tc : Thread nD τ).loc main_arg4) :=
  ((W5_of_ne m ρ c main_arg4 (by decide)).trans (W4_of_ne m ρ c main_arg4 (by decide))).trans (KerHost.W3_main_arg4 m ρ c)

/-- The second region's bias row is the sixth argument laid out as 1 x 64. -/
theorem W5_main_v53 (c : Dev nD) (k : Fin 64) :
    (show S1x64.Idx → EReal from W5 (F := Ideal) m ρ c (Proc.devRef .tc main_v53)) (ix2 (0 : Fin 1) k)
      = (show S64.Idx → EReal from m ((c.tc : Thread nD τ).loc main_arg5)) (ix1 k) := by
  have e : W5 (F := Ideal) m ρ c (Proc.devRef .tc main_v53)
      = shapeCast S1x64 (show S64.Idx → EReal from W4 (F := Ideal) m ρ c (Proc.devRef .tc main_arg5)) shapeCasts_S64_S1x64 := by
    show StableHlo.after hostOps1 _ (Proc.devRef .tc main_v53) = _
    after_results
    rfl
  refine (congrFun e (ix2 (0 : Fin 1) k)).trans ?_
  refine (shapeCast_a_1a_apply _ shapeCasts_S64_S1x64 (0 : Fin 1) k).trans ?_
  exact congrFun ((W4_of_ne m ρ c main_arg5 (by decide)).trans (KerHost.W3_main_arg5 m ρ c)) (ix1 k)

/-- The second region's output array is the mu head over the hidden features. -/
theorem W6_main_v54 (c : Dev nD) (hin : InRange (m ((c.tc : Thread nD τ).loc main_arg8))) (i : Fin 2048) (cc : Fin 64) :
    (show S2048x64.Idx → EReal from W6 (F := Ideal) m ρ c (Proc.devRef .tc main_v54)) (ix2 i cc)
      = headK (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg8))
          (m ((c.tc : Thread nD τ).loc main_arg4)) (m ((c.tc : Thread nD τ).loc main_arg5)) i cc := by
  have h := KerRegion.region1_arr (V5 (F := Ideal) m ρ) c i cc
  rw [← W6_arr m ρ c 4] at h
  refine h.trans ?_
  unfold headK layerK aggK proj
  exact layer_sum_congr
    (fun j => (congrFun (W5_main_v50 m ρ c) (ix2 i j)).trans (KerHost.W3_main_v50 m ρ c hin i j))
    (fun j k => (congrFun (W5_of_ne m ρ c main_v52 (by decide)) (ix2 j k)).trans (W4_main_v52 m ρ c hin j k))
    (fun k => congrFun (W5_main_arg4 m ρ c) (ix2 k cc))
    (W5_main_v53 m ρ c cc)

/-- The normalised matrix and the hidden features are input windows of the second region: it leaves them as they entered. -/
theorem W6_main_v50 (c : Dev nD) :
    W6 (F := Ideal) m ρ c (Proc.devRef .tc main_v50) = W5 (F := Ideal) m ρ c (Proc.devRef .tc main_v50) :=
  (W6_arr m ρ c 3).trans (((dat1 (V5 m ρ) c).arrAt_in 3 rfl _).trans (A_eq1 (V5 m ρ) c 3))
theorem W6_main_v52 (c : Dev nD) :
    W6 (F := Ideal) m ρ c (Proc.devRef .tc main_v52) = W5 (F := Ideal) m ρ c (Proc.devRef .tc main_v52) :=
  (W6_arr m ρ c 0).trans (((dat1 (V5 m ρ) c).arrAt_in 0 rfl _).trans (A_eq1 (V5 m ρ) c 0))

/-- The third region's entry: the normalised matrix is still the one built before the first region. -/
theorem W7_main_v50 (c : Dev nD) :
    W7 (F := Ideal) m ρ c (Proc.devRef .tc main_v50) = W3 (F := Ideal) m ρ c (Proc.devRef .tc main_v50) :=
  ((W7_of_ne m ρ c main_v50 (by decide)).trans (W6_main_v50 m ρ c)).trans (W5_main_v50 m ρ c)

/-- The third region's entry: the hidden features are the first region's output. -/
theorem W7_main_v52 (c : Dev nD) :
    W7 (F := Ideal) m ρ c (Proc.devRef .tc main_v52) = W4 (F := Ideal) m ρ c (Proc.devRef .tc main_v52) :=
  ((W7_of_ne m ρ c main_v52 (by decide)).trans (W6_main_v52 m ρ c)).trans (W5_of_ne m ρ c main_v52 (by decide))

/-- The third region's weight matrix is the seventh argument, untouched so far. -/
theorem W7_main_arg6 (c : Dev nD) :
    W7 (F := Ideal) m ρ c (Proc.devRef .tc main_arg6) = m ((c.tc : Thread nD τ).loc main_arg6) :=
  ((((W7_of_ne m ρ c main_arg6 (by decide)).trans (W6_of_ne m ρ c main_arg6 (by decide))).trans
    (W5_of_ne m ρ c main_arg6 (by decide))).trans (W4_of_ne m ρ c main_arg6 (by decide))).trans (KerHost.W3_main_arg6 m ρ c)

/-- The eighth argument is untouched up to the second region's exit. -/
theorem W6_main_arg7 (c : Dev nD) :
    W6 (F := Ideal) m ρ c (Proc.devRef .tc main_arg7) = m ((c.tc : Thread nD τ).loc main_arg7) :=
  (((W6_of_ne m ρ c main_arg7 (by decide)).trans (W5_of_ne m ρ c main_arg7 (by decide))).trans
    (W4_of_ne m ρ c main_arg7 (by decide))).trans (KerHost.W3_main_arg7 m ρ c)

/-- The third region's bias row is the eighth argument laid out as 1 x 64. -/
theorem W7_main_v55 (c : Dev nD) (k : Fin 64) :
    (show S1x64.Idx → EReal from W7 (F := Ideal) m ρ c (Proc.devRef .tc main_v55)) (ix2 (0 : Fin 1) k)
      = (show S64.Idx → EReal from m ((c.tc : Thread nD τ).loc main_arg7)) (ix1 k) := by
  have e : W7 (F := Ideal) m ρ c (Proc.devRef .tc main_v55)
      = shapeCast S1x64 (show S64.Idx → EReal from W6 (F := Ideal) m ρ c (Proc.devRef .tc main_arg7)) shapeCasts_S64_S1x64 := by
    show StableHlo.after hostOps2 _ (Proc.devRef .tc main_v55) = _
    after_results
    rfl
  refine (congrFun e (ix2 (0 : Fin 1) k)).trans ?_
  refine (shapeCast_a_1a_apply _ shapeCasts_S64_S1x64 (0 : Fin 1) k).trans ?_
  exact congrFun (W6_main_arg7 m ρ c) (ix1 k)

/-- The third region's output array is the log-std head over the hidden features. -/
theorem W8_main_v56 (c : Dev nD) (hin : InRange (m ((c.tc : Thread nD τ).loc main_arg8))) (i : Fin 2048) (cc : Fin 64) :
    (show S2048x64.Idx → EReal from W8 (F := Ideal) m ρ c (Proc.devRef .tc main_v56)) (ix2 i cc)
      = headK (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg8))
          (m ((c.tc : Thread nD τ).loc main_arg6)) (m ((c.tc : Thread nD τ).loc main_arg7)) i cc := by
  have h := KerRegion.region2_arr (V7 (F := Ideal) m ρ) c i cc
  rw [← W8_arr m ρ c 4] at h
  refine h.trans ?_
  unfold headK layerK aggK proj
  exact layer_sum_congr
    (fun j => (congrFun (W7_main_v50 m ρ c) (ix2 i j)).trans (KerHost.W3_main_v50 m ρ c hin i j))
    (fun j k => (congrFun (W7_main_v52 m ρ c) (ix2 j k)).trans (W4_main_v52 m ρ c hin j k))
    (fun k => congrFun (W7_main_arg6 m ρ c) (ix2 k cc))
    (W7_main_v55 m ρ c cc)

/-- The first result array (the mu head) at the last boundary. -/
theorem mu_read (c : Dev nD) (hin : InRange (m ((c.tc : Thread nD τ).loc main_arg8))) (idx : S2048x64.Idx) :
    (show S2048x64.Idx → EReal from W8 (F := Ideal) m ρ c (Proc.devRef .tc main_v54)) idx
      = headK (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg8))
          (m ((c.tc : Thread nD τ).loc main_arg4)) (m ((c.tc : Thread nD τ).loc main_arg5)) (idx 0) (idx 1) := by
  obtain ⟨i, cc, rfl⟩ : ∃ (i : Fin 2048) (cc : Fin 64), idx = ix2 i cc := ⟨idx 0, idx 1, eq_ix2 idx⟩
  -- the mu array is written by the second region only: the third region and the reshape before it leave it
  have e : W8 (F := Ideal) m ρ c (Proc.devRef .tc main_v54) = W6 (F := Ideal) m ρ c (Proc.devRef .tc main_v54) :=
    (W8_of_ne m ρ c main_v54 (by decide)).trans (W7_of_ne m ρ c main_v54 (by decide))
  exact (congrFun e (ix2 i cc)).trans (W6_main_v54 m ρ c hin i cc)

/-- The second result array (the log-std head) at the last boundary. -/
theorem ls_read (c : Dev nD) (hin : InRange (m ((c.tc : Thread nD τ).loc main_arg8))) (idx : S2048x64.Idx) :
    (show S2048x64.Idx → EReal from W8 (F := Ideal) m ρ c (Proc.devRef .tc main_v56)) idx
      = headK (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg8))
          (m ((c.tc : Thread nD τ).loc main_arg6)) (m ((c.tc : Thread nD τ).loc main_arg7)) (idx 0) (idx 1) := by
  obtain ⟨i, cc, rfl⟩ : ∃ (i : Fin 2048) (cc : Fin 64), idx = ix2 i cc := ⟨idx 0, idx 1, eq_ix2 idx⟩
  exact W8_main_v56 m ρ c hin i cc

end Cert.Gcn.Ker

end
-- ==== Proof.REdges.lean ====
/-
  The reference program's edge list read at an index: sources, destinations and weights of the concatenated
  list, the degree of every node, its inverse square root, and every edge's normalised weight.
-/
import proofs.«420779_j55757265436854_1_alg».proof.Proof.Gen.ReferenceIdeal.Read
import proofs.«420779_j55757265436854_1_alg».proof.Proof.GcnSpec
import Idealize.ShloMosaic.Lib.StableHlo.Predicate

set_option maxRecDepth 16384

noncomputable section

namespace Cert.Gcn.RefEdges

open Idealize.ShloMosaic Idealize.ShloMosaic.TcCoe Idealize.ShloMosaic.ValueIdx Idealize.SL.Sem
open Cert.ReferenceIdeal Cert.ReferenceIdeal.Read Cert.Gcn

/-! ## Reading a three-piece concatenation -/

/-- The one coordinate of a rank-1 index. -/
private theorem ix1_val {n : Nat} (a : Fin n) (k : Fin 1) : (ix1 a k).val = a.val := by
  match k with
  | ⟨0, _⟩ => rfl

/-- A three-piece concatenation of vectors of lengths 65536, 1048576 and 2048 read in its first piece. -/
theorem cat3_left {α : Type} (x₁ : S65536.Idx → α) (x₂ : S1048576.Idx → α) (x₃ : S2048.Idx → α)
    (h : Shape.Concatenates [S65536, S1048576, S2048] S1116160 0)
    (e : Fin 1116160) (n : Fin 65536) (he : e.val = n.val) :
    concatenate S1116160 0 [⟨S65536, x₁⟩, ⟨S1048576, x₂⟩, ⟨S2048, x₃⟩] h (ix1 e) = x₁ (ix1 n) := by
  refine concatenate_apply_piece (t := S1116160) 0 [⟨S65536, x₁⟩, ⟨S1048576, x₂⟩, ⟨S2048, x₃⟩] h (ix1 e) 0 (by simp) S65536 x₁ rfl rfl 0 rfl _ ?_ ?_
  · intro b hb; exact absurd (Subsingleton.elim _ _) hb
  · rw [ix1_val, ix1_val, he, Nat.zero_add]

/-- The same read in its second piece: position 65536 + n is entry n of the second vector. -/
theorem cat3_mid {α : Type} (x₁ : S65536.Idx → α) (x₂ : S1048576.Idx → α) (x₃ : S2048.Idx → α)
    (h : Shape.Concatenates [S65536, S1048576, S2048] S1116160 0)
    (e : Fin 1116160) (n : Fin 1048576) (he : e.val = 65536 + n.val) :
    concatenate S1116160 0 [⟨S65536, x₁⟩, ⟨S1048576, x₂⟩, ⟨S2048, x₃⟩] h (ix1 e) = x₂ (ix1 n) := by
  refine concatenate_apply_piece (t := S1116160) 0 [⟨S65536, x₁⟩, ⟨S1048576, x₂⟩, ⟨S2048, x₃⟩] h (ix1 e) 1 (by simp) S1048576 x₂ rfl rfl 65536 rfl _ ?_ ?_
  · intro b hb; exact absurd (Subsingleton.elim _ _) hb
  · rw [ix1_val, ix1_val, he]

/-- The same read in its third piece: position 1114112 + n is entry n of the third vector. -/
theorem cat3_right {α : Type} (x₁ : S65536.Idx → α) (x₂ : S1048576.Idx → α) (x₃ : S2048.Idx → α)
    (h : Shape.Concatenates [S65536, S1048576, S2048] S1116160 0)
    (e : Fin 1116160) (n : Fin 2048) (he : e.val = 1114112 + n.val) :
    concatenate S1116160 0 [⟨S65536, x₁⟩, ⟨S1048576, x₂⟩, ⟨S2048, x₃⟩] h (ix1 e) = x₃ (ix1 n) := by
  refine concatenate_apply_piece (t := S1116160) 0 [⟨S65536, x₁⟩, ⟨S1048576, x₂⟩, ⟨S2048, x₃⟩] h (ix1 e) 2 (by simp) S2048 x₃ rfl rfl 1114112 (by simp) _ ?_ ?_
  · intro b hb; exact absurd (Subsingleton.elim _ _) hb
  · rw [ix1_val, ix1_val, he]

/-! ## Words and constants -/

/-- The pattern 0x3F800000 is the number one. -/
private theorem ofBits_one_f32 : Ideal.ofBits .f32 0x3F800000#32 = 1 := by
  have h1 : (0x3F800000#32 : BitVec 32).extractLsb' (8 + 23) 1 = 0#1 := by decide
  have h2 : ((0x3F800000#32 : BitVec 32).extractLsb' 23 8).toNat = 127 := by decide
  have h3 : ((0x3F800000#32 : BitVec 32).extractLsb' 0 23).toNat = 0 := by decide
  unfold Ideal.ofBits Ideal.ieee
  simp only [h1, h2, h3]
  norm_num

/-- A word whose signed value lies in 0 … 2047 reads the same signed, unsigned, and reduced modulo 2048. -/
private theorem toInt_of_range (w : BitVec 32) (h0 : 0 ≤ w.toInt) (h1 : w.toInt < 2048) :
    w.toInt = ((w.toNat % 2048 : Nat) : Int) := by
  have hc := BitVec.toInt_eq_toNat_cond w
  have hl := w.isLt
  split_ifs at hc <;> omega

/-! ## The accumulating scatter through a column of position words -/

/-- Positions of a length-n vector, as rank-1 indices. -/
private def idxEquiv1 (n : Nat) : Fin n ≃ (⟨1, ![n]⟩ : Shape).Idx where
  toFun := ix1
  invFun := fun j => j 0
  left_inv := fun _ => rfl
  right_inv := fun j => (eq_ix1 j).symm

/-- A scatter of a length-n update vector into a length-N vector through an [n x 1] column of positions
    (one inserted axis, no window axes): update e lands at node i exactly when its position word, read signed,
    is i. -/
theorem resultIdx?_col {N n : Nat} (d : ScatterDims ⟨1, ![N]⟩ ⟨2, ![n, 1]⟩ ⟨1, ![n]⟩)
    (hiw : d.insertedWindowDims = [0]) (hsd : d.scatterDimsToOperandDims = [0]) (hiv : d.indexVectorDim = 1)
    (idx : IVec ⟨2, ![n, 1]⟩ 32) (e : Fin n) (i : Fin N) :
    d.resultIdx? (ix1 e) idx = some (ix1 i) ↔ (idx (ix2 e (0 : Fin 1))).toInt = (i.val : Int) := by
  have hstart : ∀ a : Fin 1, d.start (ix1 e) idx a = (idx (ix2 e (0 : Fin 1))).toInt := by
    intro a
    have ha0 : a = 0 := Subsingleton.elim _ _
    subst ha0
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hiv]; simp)]
      unfold ScatterDims.siCoord
      apply Fin.ext
      simp only [Fin.val_cast]
      exact ix1_val _ _
    | ⟨1, _⟩ =>
      unfold ScatterDims.siIdx
      rw [dif_pos (by rw [hiv])]
      apply Fin.ext
      show List.idxOf (0 : Fin 1) d.scatterDimsToOperandDims = 0
      rw [hsd]; simp
  have hwin : ∀ a : Fin 1, d.window (ix1 e) a = 0 := by
    intro a
    unfold ScatterDims.window
    rw [dif_neg]
    have ha0 : a = 0 := Subsingleton.elim _ _
    subst ha0
    simp [ScatterDims.sKept, Shape.kept, hiw]
  unfold ScatterDims.resultIdx?
  simp only [hstart, hwin]
  constructor
  · intro h
    split at h
    · next hc =>
      have h3 : ((idx (ix2 e (0 : Fin 1))).toInt + ((0 : Nat) : Int)).toNat = i.val :=
        (congrArg Fin.val (congrFun (Option.some.inj h) 0)).trans (ix1_val i _)
      have h5 := (hc 0).1
      omega
    · exact absurd h (by simp)
  · intro h
    have hi := i.isLt
    have hc : ∀ a : Fin 1, 0 ≤ (idx (ix2 e (0 : Fin 1))).toInt + ((0 : Nat) : Int) ∧
        (idx (ix2 e (0 : Fin 1))).toInt + ((0 : Nat) : Int) < (((⟨1, ![N]⟩ : Shape).size a : Nat) : Int) := by
      intro a
      have ha0 : a = 0 := Subsingleton.elim _ _
      subst ha0
      show 0 ≤ _ + ((0 : Nat) : Int) ∧ _ + ((0 : Nat) : Int) < ((N : Nat) : Int)
      omega
    rw [dif_pos hc]
    congr 1
    funext a
    apply Fin.ext
    rw [ix1_val]
    show ((idx (ix2 e (0 : Fin 1))).toInt + ((0 : Nat) : Int)).toNat = i.val
    omega

/-- The accumulating scatter of that shape read at node i: the operand's entry plus the updates whose position
    word is i. -/
theorem scatterAdd_col_apply {N n : Nat} (d : ScatterDims ⟨1, ![N]⟩ ⟨2, ![n, 1]⟩ ⟨1, ![n]⟩)
    (hiw : d.insertedWindowDims = [0]) (hsd : d.scatterDimsToOperandDims = [0]) (hiv : d.indexVectorDim = 1)
    (x : (⟨1, ![N]⟩ : Shape).Idx → EReal) (idx : IVec ⟨2, ![n, 1]⟩ 32) (upd : (⟨1, ![n]⟩ : Shape).Idx → EReal) (i : Fin N) :
    Ideal.hostScatterAdd d x idx upd (ix1 i) =
      x (ix1 i) + ∑ e ∈ Finset.univ.filter (fun e : Fin n => (idx (ix2 e (0 : Fin 1))).toInt = (i.val : Int)), upd (ix1 e) := by
  unfold Ideal.hostScatterAdd
  congr 1
  refine (Finset.sum_equiv (idxEquiv1 n) ?_ (fun _ _ => rfl)).symm
  intro e
  simp only [Finset.mem_filter, Finset.mem_univ, true_and]
  exact (resultIdx?_col d hiw hsd hiv idx e i).symm

/-! ## The edge list -/

variable (x1 : S2048x2048.Idx → EReal) (x8 : IVec S2x65536 32)

/-- Row r of the table, reshaped to a vector, at position n: the table's word (r, n). -/
theorem v17_apply (n : Fin 65536) : val_main_v17 (F := Ideal) x8 (ix1 n) = x8 (ix2 (0 : Fin 2) n) := by
  rw [val_main_v17_apply, val_main_v16_apply]
  congr 1
  funext a
  match a with
  | ⟨0, _⟩ => rfl
  | ⟨1, _⟩ =>
    apply Fin.ext
    show ((ix1 n 0).val) % 65536 = n.val
    rw [ix1_val]; exact Nat.mod_eq_of_lt n.isLt

theorem v20_apply (n : Fin 65536) : val_main_v20 (F := Ideal) x8 (ix1 n) = x8 (ix2 (1 : Fin 2) n) := by
  rw [val_main_v20_apply, val_main_v19_apply]
  congr 1
  funext a
  match a with
  | ⟨0, _⟩ => rfl
  | ⟨1, _⟩ =>
    apply Fin.ext
    show ((ix1 n 0).val) % 65536 = n.val
    rw [ix1_val]; exact Nat.mod_eq_of_lt n.isLt

/-- The row numbers of the 1024 x 1024 block laid out row-major: position k holds k / 1024. -/
theorem v2_apply (n : Fin 1048576) : val_main_v2 (F := Ideal) (ix1 n) = BitVec.ofNat 32 (n.val / 1024) := by
  rw [val_main_v2_apply, val_main_v1_apply, val_main_v0_apply]

/-- The column numbers of the 1024 x 1024 block laid out row-major: position k holds k % 1024. -/
theorem v6_apply (n : Fin 1048576) : val_main_v6 (F := Ideal) (ix1 n) = BitVec.ofNat 32 (n.val % 1024) := by
  rw [val_main_v6_apply, val_main_v5_apply, val_main_v4_apply, val_main_v3_apply]
  show BitVec.ofNat 32 (0 * 1024 + (ix1 n 0).val % 1024) = _
  rw [ix1_val, Nat.zero_mul, Nat.zero_add]

theorem v15_apply (n : Fin 2048) : val_main_v15 (F := Ideal) (ix1 n) = BitVec.ofNat 32 n.val := by
  rw [val_main_v15_apply, ix1_val]

/-- The word of the concatenated source list at edge e is the edge's source node. -/
theorem v18_toInt (hin : InRange x8) (e : Fin 1116160) :
    (val_main_v18 (F := Ideal) x8 (ix1 e)).toInt = ((eSrc (nodeOf x8 0) e).val : Int) := by
  unfold val_main_v18 eSrc
  by_cases h1 : e.val < 65536
  · rw [dif_pos h1, cat3_left _ _ _ _ e ⟨e.val, h1⟩ rfl, v17_apply]
    exact toInt_of_range _ (hin 0 ⟨e.val, h1⟩).1 (hin 0 ⟨e.val, h1⟩).2
  · rw [dif_neg h1]
    by_cases h2 : e.val < 1114112
    · rw [dif_pos h2, cat3_mid _ _ _ _ e ⟨e.val - 65536, by omega⟩ (by show e.val = 65536 + (e.val - 65536); omega), v2_apply]
      exact StableHlo.Predicate.toInt_ofNat_small _ (by show (e.val - 65536) / 1024 < 2 ^ 31; omega)
    · rw [dif_neg h2, cat3_right _ _ _ _ e ⟨e.val - 1114112, by omega⟩ (by show e.val = 1114112 + (e.val - 1114112); omega), v15_apply]
      exact StableHlo.Predicate.toInt_ofNat_small _ (by show e.val - 1114112 < 2 ^ 31; omega)

/-- The word of the concatenated destination list at edge e is the edge's destination node. -/
theorem v21_toInt (hin : InRange x8) (e : Fin 1116160) :
    (val_main_v21 (F := Ideal) x8 (ix1 e)).toInt = ((eDst (nodeOf x8 1) e).val : Int) := by
  unfold val_main_v21 eDst
  by_cases h1 : e.val < 65536
  · rw [dif_pos h1, cat3_left _ _ _ _ e ⟨e.val, h1⟩ rfl, v20_apply]
    exact toInt_of_range _ (hin 1 ⟨e.val, h1⟩).1 (hin 1 ⟨e.val, h1⟩).2
  · rw [dif_neg h1]
    by_cases h2 : e.val < 1114112
    · rw [dif_pos h2, cat3_mid _ _ _ _ e ⟨e.val - 65536, by omega⟩ (by show e.val = 65536 + (e.val - 65536); omega), v6_apply]
      exact StableHlo.Predicate.toInt_ofNat_small _ (by show (e.val - 65536) % 1024 < 2 ^ 31; omega)
    · rw [dif_neg h2, cat3_right _ _ _ _ e ⟨e.val - 1114112, by omega⟩ (by show e.val = 1114112 + (e.val - 1114112); omega), v15_apply]
      exact StableHlo.Predicate.toInt_ofNat_small _ (by show e.val - 1114112 < 2 ^ 31; omega)

/-- The logistic of the reshaped 1024 x 1024 block at position n = 1024 r + c is the logistic of entry (r, c). -/
theorem v14_apply (n : Fin 1048576) :
    val_main_v14 (F := Ideal) x1 (ix1 n) =
      sgOf x1 ⟨n.val / 1024, by have := n.isLt; omega⟩ ⟨n.val % 1024, by omega⟩ := by
  rw [val_main_v14_apply, val_main_v13_apply, val_main_cst_0_apply, val_main_v12_apply, val_main_v11_apply,
    val_main_cst_apply, val_main_v10_apply, val_main_v9_apply, val_main_v8_apply, val_main_v7_apply]
  have hidx : idx_main_v7 (idx_main_v8 (ix1 n)) =
      ix2 (⟨n.val / 1024, by have := n.isLt; omega⟩ : Fin 2048) (⟨n.val % 1024, by omega⟩ : Fin 2048) := by
    funext a
    match a with
    | ⟨0, _⟩ => rfl
    | ⟨1, _⟩ => rfl
  rw [hidx]
  rfl

/-- The concatenated weight list at edge e. -/
theorem v24_apply (e : Fin 1116160) :
    val_main_v24 (F := Ideal) x1 (ix1 e) = eW (sgOf x1) e := by
  unfold val_main_v24 eW
  by_cases h1 : e.val < 65536
  · rw [dif_pos h1, cat3_left _ _ _ _ e ⟨e.val, h1⟩ rfl, val_main_v22_apply, val_main_cst_1_apply]
    exact ofBits_one_f32
  · rw [dif_neg h1]
    by_cases h2 : e.val < 1114112
    · rw [dif_pos h2, cat3_mid _ _ _ _ e ⟨e.val - 65536, by omega⟩ (by show e.val = 65536 + (e.val - 65536); omega), v14_apply]
    · rw [dif_neg h2, cat3_right _ _ _ _ e ⟨e.val - 1114112, by omega⟩ (by show e.val = 1114112 + (e.val - 1114112); omega),
        val_main_v23_apply, val_main_cst_2_apply]
      exact ofBits_one_f32

/-- A vector laid out as an [n x 1] column reads, at row e, its entry e. -/
private theorem col_apply {α : Type} (hb : S1116160.BroadcastsInDim S1116160x1 ![0]) (v : S1116160.Idx → α) (e : Fin 1116160) :
    broadcastInDim S1116160x1 ![0] hb v (ix2 e (0 : Fin 1)) = v (ix1 e) := by
  have hP : StableHlo.Predicate.ixP e = ix2 e (0 : Fin 1) := by
    funext a
    match a with
    | ⟨0, _⟩ => rfl
    | ⟨1, _⟩ => rfl
  have hF : (Shape.Idx.ofFin e : S1116160.Idx) = ix1 e := by
    funext a
    match a with
    | ⟨0, _⟩ => rfl
  rw [← hP, StableHlo.Predicate.bcast_col1, hF]

/-- A zero constant broadcast to 2048 entries is zero everywhere. -/
private theorem bzero (h : S_.BroadcastsInDim S2048 ![]) (i : S2048.Idx) :
    broadcastInDim S2048 ![] h (constant (F := Ideal) S_ .f32 0x00000000#32) i = 0 := Ideal.ofBits_zero_f32

/-- The segment sum of the edge weights by destination word, onto zeros, is the degree. -/
theorem deg_generic (z : S2048.Idx → EReal) (hz : ∀ i, z i = 0) (hb : S1116160.BroadcastsInDim S1116160x1 ![0])
    (hin : InRange x8) (i : Fin 2048) :
    Host.scatterAdd (F := Ideal) (φ := .f32) scatter_S2048_S1116160x1_S1116160_n_0_0_1 z
        (broadcastInDim S1116160x1 ![0] hb (val_main_v21 (F := Ideal) x8)) (val_main_v24 (F := Ideal) x1) (ix1 i)
      = degR (nodeOf x8 1) (sgOf x1) i := by
  have h1 : scatter_S2048_S1116160x1_S1116160_n_0_0_1.insertedWindowDims = [0] := rfl
  have h2 : scatter_S2048_S1116160x1_S1116160_n_0_0_1.scatterDimsToOperandDims = [0] := rfl
  have h3 : scatter_S2048_S1116160x1_S1116160_n_0_0_1.indexVectorDim = 1 := rfl
  have key := scatterAdd_col_apply scatter_S2048_S1116160x1_S1116160_n_0_0_1 h1 h2 h3 z
    (broadcastInDim S1116160x1 ![0] hb (val_main_v21 (F := Ideal) x8)) (val_main_v24 (F := Ideal) x1) i
  refine key.trans ?_
  have hp : ∀ e : Fin 1116160, ((broadcastInDim S1116160x1 ![0] hb (val_main_v21 (F := Ideal) x8)) (ix2 e (0 : Fin 1))).toInt = ((i.val : Nat) : Int)
      ↔ eDst (nodeOf x8 1) e = i := by
    intro e
    rw [col_apply, v21_toInt x8 hin, Nat.cast_inj, Fin.val_inj]
  have hs : ∑ e ∈ Finset.univ.filter (fun e : Fin 1116160 =>
        ((broadcastInDim S1116160x1 ![0] hb (val_main_v21 (F := Ideal) x8)) (ix2 e (0 : Fin 1))).toInt = ((i.val : Nat) : Int)),
        val_main_v24 (F := Ideal) x1 (ix1 e)
      = ∑ e ∈ Finset.univ.filter (fun e : Fin 1116160 => eDst (nodeOf x8 1) e = i), eW (sgOf x1) e :=
    Finset.sum_congr (Finset.filter_congr fun e _ => hp e) (fun e _ => v24_apply x1 e)
  exact congrArg₂ (· + ·) (hz (ix1 i)) hs

/-! ## Degrees, their inverse square roots, and the normalised weights -/

/-- The three copies of the segment sum of the weights are the degree. -/
theorem v27_apply (hin : InRange x8) (i : Fin 2048) :
    val_main_v27 (F := Ideal) x1 x8 (ix1 i) = degR (nodeOf x8 1) (sgOf x1) i :=
  deg_generic x1 x8 _ (fun j => bzero _ j) _ hin i
theorem v68_apply (hin : InRange x8) (i : Fin 2048) :
    val_main_v68 (F := Ideal) x1 x8 (ix1 i) = degR (nodeOf x8 1) (sgOf x1) i :=
  deg_generic x1 x8 _ (fun j => bzero _ j) _ hin i
theorem v108_apply (hin : InRange x8) (i : Fin 2048) :
    val_main_v108 (F := Ideal) x1 x8 (ix1 i) = degR (nodeOf x8 1) (sgOf x1) i :=
  deg_generic x1 x8 _ (fun j => bzero _ j) _ hin i

/-- Selecting the inverse square root where the degree is positive, zero elsewhere. -/
theorem dinv_generic (dg z2 zero : S2048.Idx → EReal) (hz2 : ∀ i, z2 i = 0) (hzero : ∀ i, zero i = 0) (i : S2048.Idx) :
    select (cmpf (F := Ideal) (φ := .f32) .ogt dg z2) (Host.rsqrt (F := Ideal) (φ := .f32) dg) zero i = dinvOf (dg i) := by
  show Scalar.select (Ideal.cmp .ogt (dg i) (z2 i)) (Ideal.rsqrt (dg i)) (zero i) = _
  rw [hz2, hzero]
  unfold dinvOf Ideal.cmp Scalar.select
  by_cases h : 0 < dg i
  · simp [h]
  · simp [h]

/-- Adding the node count to a negative position word leaves a non-negative word as it is. -/
private theorem fix_nonneg (w zs os : S1116160.Idx → BitVec 32) (hzs : ∀ i, zs i = 0#32) (i : S1116160.Idx) (h : 0 ≤ (w i).toInt) :
    select (cmpi .slt w zs) (addi w os) w i = w i := by
  show Scalar.select (IntOp.cmpi .slt (w i) (zs i)) (IntOp.addi (w i) (os i)) (w i) = w i
  rw [hzs]
  have hs : (w i).slt 0#32 = false := by
    simp only [BitVec.slt, BitVec.toInt_zero, decide_eq_false_iff_not, not_lt]
    exact h
  unfold Scalar.select IntOp.cmpi
  simp [hs]

/-- The take of a 2048-vector at the column of fixed-up position words: entry k where the word at e is k. -/
theorem gather_generic (t : S2048.Idx → EReal) (w zs os : S1116160.Idx → BitVec 32) (hzs : ∀ i, zs i = 0#32)
    (hb : S1116160.BroadcastsInDim S1116160x1 ![0]) (e : Fin 1116160) (k : Fin 2048)
    (hk : (w (ix1 e)).toInt = ((k.val : Nat) : Int)) :
    Host.gather gather_S2048_S1116160x1_S1116160_n_0_n_n_0_1_1 t
      (broadcastInDim S1116160x1 ![0] hb (select (cmpi .slt w zs) (addi w os) w)) (ix1 e) = t (ix1 k) := by
  have hP : StableHlo.Predicate.ixP e = ix2 e (0 : Fin 1) := by
    funext a
    match a with
    | ⟨0, _⟩ => rfl
    | ⟨1, _⟩ => rfl
  have hF : (Shape.Idx.ofFin e : S1116160.Idx) = ix1 e := by
    funext a
    match a with
    | ⟨0, _⟩ => rfl
  have key := StableHlo.Predicate.gather_take gather_S2048_S1116160x1_S1116160_n_0_n_n_0_1_1 rfl rfl rfl rfl t
    (broadcastInDim S1116160x1 ![0] hb (select (cmpi .slt w zs) (addi w os) w)) e (by norm_num)
  rw [hF] at key
  rw [key]
  congr 1
  funext a
  match a with
  | ⟨0, _⟩ =>
    apply Fin.ext
    show min ((broadcastInDim S1116160x1 ![0] hb (select (cmpi .slt w zs) (addi w os) w))
      (StableHlo.Predicate.ixP e)).toInt.toNat (2048 - 1) = k.val
    rw [hP, col_apply, fix_nonneg w zs os hzs _ (by rw [hk]; exact Int.natCast_nonneg _), hk]
    have := k.isLt
    omega

/-- Every edge's normalised weight: the gathered inverse-root degree of its source, its weight, the gathered
    inverse-root degree of its destination. -/
theorem norm_generic (t : S2048.Idx → EReal)
    (ht : ∀ i : Fin 2048, t (ix1 i) = dinvOf (degR (nodeOf x8 1) (sgOf x1) i))
    (zs os zd od : S1116160.Idx → BitVec 32) (hzs : ∀ i, zs i = 0#32) (hzd : ∀ i, zd i = 0#32)
    (hb hb' : S1116160.BroadcastsInDim S1116160x1 ![0]) (hin : InRange x8) (e : Fin 1116160) :
    mulf (F := Ideal) (φ := .f32)
      (mulf (F := Ideal) (φ := .f32)
        (Host.gather gather_S2048_S1116160x1_S1116160_n_0_n_n_0_1_1 t
          (broadcastInDim S1116160x1 ![0] hb
            (select (cmpi .slt (val_main_v18 (F := Ideal) x8) zs) (addi (val_main_v18 (F := Ideal) x8) os) (val_main_v18 (F := Ideal) x8))))
        (val_main_v24 (F := Ideal) x1))
      (Host.gather gather_S2048_S1116160x1_S1116160_n_0_n_n_0_1_1 t
        (broadcastInDim S1116160x1 ![0] hb'
          (select (cmpi .slt (val_main_v21 (F := Ideal) x8) zd) (addi (val_main_v21 (F := Ideal) x8) od) (val_main_v21 (F := Ideal) x8))))
      (ix1 e)
    = normR (nodeOf x8 0) (nodeOf x8 1) (sgOf x1) e := by
  have hs := gather_generic t (val_main_v18 (F := Ideal) x8) zs os hzs hb e _ (v18_toInt x8 hin e)
  have hd := gather_generic t (val_main_v21 (F := Ideal) x8) zd od hzd hb' e _ (v21_toInt x8 hin e)
  show (Host.gather _ t _ (ix1 e) * val_main_v24 (F := Ideal) x1 (ix1 e)) * Host.gather _ t _ (ix1 e) = _
  rw [hs, hd, ht, ht, v24_apply]
  rfl

theorem v31_apply (hin : InRange x8) (i : Fin 2048) :
    val_main_v31 (F := Ideal) x1 x8 (ix1 i) = dinvOf (degR (nodeOf x8 1) (sgOf x1) i) := by
  rw [← v27_apply x1 x8 hin i]
  exact dinv_generic _ _ _ (fun j => bzero _ j) (fun j => bzero _ j) (ix1 i)
theorem v72_apply (hin : InRange x8) (i : Fin 2048) :
    val_main_v72 (F := Ideal) x1 x8 (ix1 i) = dinvOf (degR (nodeOf x8 1) (sgOf x1) i) := by
  rw [← v68_apply x1 x8 hin i]
  exact dinv_generic _ _ _ (fun j => bzero _ j) (fun j => bzero _ j) (ix1 i)
theorem v112_apply (hin : InRange x8) (i : Fin 2048) :
    val_main_v112 (F := Ideal) x1 x8 (ix1 i) = dinvOf (degR (nodeOf x8 1) (sgOf x1) i) := by
  rw [← v108_apply x1 x8 hin i]
  exact dinv_generic _ _ _ (fun j => bzero _ j) (fun j => bzero _ j) (ix1 i)

/-- The three copies of every edge's normalised weight. -/
theorem v47_apply (hin : InRange x8) (e : Fin 1116160) :
    val_main_v47 (F := Ideal) x1 x8 (ix1 e) = normR (nodeOf x8 0) (nodeOf x8 1) (sgOf x1) e :=
  norm_generic x1 x8 _ (v31_apply x1 x8 hin) _ _ _ _ (fun _ => rfl) (fun _ => rfl) _ _ hin e
theorem v88_apply (hin : InRange x8) (e : Fin 1116160) :
    val_main_v88 (F := Ideal) x1 x8 (ix1 e) = normR (nodeOf x8 0) (nodeOf x8 1) (sgOf x1) e :=
  norm_generic x1 x8 _ (v72_apply x1 x8 hin) _ _ _ _ (fun _ => rfl) (fun _ => rfl) _ _ hin e
theorem v128_apply (hin : InRange x8) (e : Fin 1116160) :
    val_main_v128 (F := Ideal) x1 x8 (ix1 e) = normR (nodeOf x8 0) (nodeOf x8 1) (sgOf x1) e :=
  norm_generic x1 x8 _ (v112_apply x1 x8 hin) _ _ _ _ (fun _ => rfl) (fun _ => rfl) _ _ hin e

end Cert.Gcn.RefEdges

end
-- ==== Proof.RLayers.lean ====
/-
  The reference program's three layers read at an index: each gathers the projected features along the edge
  list, scales them by the normalised weights and sums them into the destination rows; the two results are the
  edge-wise output heads.
-/
import proofs.«420779_j55757265436854_1_alg».proof.Proof.REdges

set_option maxRecDepth 16384

noncomputable section

open scoped BigOperators

namespace Cert.Gcn.Rows

open Idealize.ShloMosaic Idealize.ShloMosaic.ValueIdx

/-! ## Row gather

An operand of N rows and C columns, a column of E row words: result element (e, c) is the operand at row
"word e, read signed and clamped into [0, N - 1]", column c. -/

/-- The dimension numbers of a row gather: the row axis collapsed and start-indexed, the column axis an offset axis of
    full width, the index vector on axis 1. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row gather read at (e, c): row word e read signed and clamped, column c. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (fun h : (1 : Fin 2) ∈ (rowGatherDims N E C wf).startIndexMap => absurd (List.mem_singleton.mp h) (show ¬ ((1 : Fin 2) = (0 : Fin 2)) by decide))]
    rw [hs]
    simp only [Nat.add_zero, Nat.zero_add]
    rfl

/-! ## Row scatter-add

Updates of E rows and C columns, a column of E row words, an operand of N rows and C columns: update (e, c) is added
into row "word e, read signed" at column c when that row exists. -/

/-- The dimension numbers of a row scatter: the updates' column axis a window axis, the operand's row axis inserted
    and named by the one-component index vector on axis 1. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

/-- On the row axis the window starts at the row word, read signed. -/
theorem scatter_start0 : (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0. -/
theorem scatter_start1 : (rowScatterDims N E C wf).start (ix2 e c) idx 1 = 0 := by
  unfold ScatterDims.start
  rw [dif_neg (fun h : (1 : Fin 2) ∈ (rowScatterDims N E C wf).scatterDimsToOperandDims =>
    absurd (List.mem_singleton.mp h) (show ¬ ((1 : Fin 2) = (0 : Fin 2)) by decide))]

/-- The row axis carries no window coordinate. -/
theorem scatter_window0 : (rowScatterDims N E C wf).window (ix2 e c) 0 = 0 := rfl

/-- The column axis carries the update's column. -/
theorem scatter_window1 : (rowScatterDims N E C wf).window (ix2 e c) 1 = c.val := rfl

/-- An update whose row word is a node number lands in that node's row, same column. -/
theorem scatter_resultIdx (r : Fin N) (hr : (idx (ix2 e (0 : Fin 1))).toInt = (r.val : Int)) :
    (rowScatterDims N E C wf).resultIdx? (ix2 e c) idx = some (ix2 r c) := by
  have h0 := scatter_start0 wf idx e c
  have h1 := scatter_start1 wf idx e c
  have hw0 := scatter_window0 wf e c
  have hw1 := scatter_window1 wf e c
  have hrl : r.val < N := r.isLt
  have hcl : c.val < C := c.isLt
  unfold ScatterDims.resultIdx?
  rw [dif_pos (by
    intro a
    match a with
    | ⟨0, _⟩ =>
      show 0 ≤ (rowScatterDims N E C wf).start (ix2 e c) idx 0 + ((rowScatterDims N E C wf).window (ix2 e c) 0 : Int) ∧
        (rowScatterDims N E C wf).start (ix2 e c) idx 0 + ((rowScatterDims N E C wf).window (ix2 e c) 0 : Int) < (N : Int)
      rw [h0, hw0, hr]; omega
    | ⟨1, _⟩ =>
      show 0 ≤ (rowScatterDims N E C wf).start (ix2 e c) idx 1 + ((rowScatterDims N E C wf).window (ix2 e c) 1 : Int) ∧
        (rowScatterDims N E C wf).start (ix2 e c) idx 1 + ((rowScatterDims N E C wf).window (ix2 e c) 1 : Int) < (C : Int)
      rw [h1, hw1]; omega)]
  congr 1
  funext a
  refine Fin.ext ?_
  match a with
  | ⟨0, _⟩ =>
    show ((rowScatterDims N E C wf).start (ix2 e c) idx 0 + ((rowScatterDims N E C wf).window (ix2 e c) 0 : Int)).toNat = r.val
    rw [h0, hw0, hr]; omega
  | ⟨1, _⟩ =>
    show ((rowScatterDims N E C wf).start (ix2 e c) idx 1 + ((rowScatterDims N E C wf).window (ix2 e c) 1 : Int)).toNat = c.val
    rw [h1, hw1]; omega

end Scatter

/-- Row scatter-add with in-range raw row words: element (i, c) receives the updates (e, c) of the rows e sent to i. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (dst : Fin E → Fin N) (hdst : ∀ e, (idx (ix2 e (0 : Fin 1))).toInt = ((dst e).val : Int))
    (i : Fin N) (c : Fin C) :
    Ideal.hostScatterAdd (rowScatterDims N E C wf) x idx upd (ix2 i c)
      = x (ix2 i c) + ∑ e ∈ Finset.univ.filter (fun e : Fin E => dst e = i), upd (ix2 e c) := by
  unfold Ideal.hostScatterAdd
  congr 1
  rw [Finset.sum_filter, Finset.sum_filter, sum_idx2]
  refine Finset.sum_congr rfl fun e _ => ?_
  by_cases he : dst e = i
  · rw [if_pos he, Finset.sum_eq_single c]
    · rw [if_pos (by rw [scatter_resultIdx wf idx e c (dst e) (hdst e), he])]
    · intro c' _ hc'
      rw [if_neg]
      rw [scatter_resultIdx wf idx e c' (dst e) (hdst e)]
      intro h
      exact hc' (congrArg (fun v : (⟨2, ![N, C]⟩ : Shape).Idx => v 1) (Option.some.inj h))
    · intro h; exact absurd (Finset.mem_univ _) h
  · rw [if_neg he]
    refine Finset.sum_eq_zero fun c' _ => ?_
    rw [if_neg]
    rw [scatter_resultIdx wf idx e c' (dst e) (hdst e)]
    intro h
    exact he (congrArg (fun v : (⟨2, ![N, C]⟩ : Shape).Idx => v 0) (Option.some.inj h))

/-- Gather the rows, scale them, scatter-add them: element (i, c) of the result is the start value plus, over the
    rows e sent to i, the operand's row `src e` at column c times the scale at (e, c). -/
theorem agg_rows_apply {N E C w : Nat} (hN : 0 < N)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (z P : (⟨2, ![N, C]⟩ : Shape).Idx → EReal) (srcw dstw : IVec ⟨2, ![E, 1]⟩ w)
    (nrm : (⟨2, ![E, C]⟩ : Shape).Idx → EReal) (src dst : Fin E → Fin N)
    (hsrc : ∀ e, (srcw (ix2 e (0 : Fin 1))).toInt = ((src e).val : Int))
    (hdst : ∀ e, (dstw (ix2 e (0 : Fin 1))).toInt = ((dst e).val : Int))
    (i : Fin N) (c : Fin C) :
    Host.scatterAdd (F := Ideal) (φ := .f32) (rowScatterDims N E C wfS) z dstw
        (mulf (F := Ideal) (φ := .f32) (Host.gather (rowGatherDims N E C wfG) P srcw) nrm) (ix2 i c)
      = z (ix2 i c) + ∑ e ∈ Finset.univ.filter (fun e : Fin E => dst e = i), P (ix2 (src e) c) * nrm (ix2 e c) := by
  show Ideal.hostScatterAdd (rowScatterDims N E C wfS) z dstw _ (ix2 i c) = _
  rw [scatterAdd_rows_apply wfS z dstw _ dst hdst i c]
  congr 1
  refine Finset.sum_congr rfl fun e _ => ?_
  show Host.gather (rowGatherDims N E C wfG) P srcw (ix2 e c) * nrm (ix2 e c) = _
  rw [gather_rows_apply hN wfG P srcw e c]
  have hrow : (⟨min (srcw (ix2 e (0 : Fin 1))).toInt.toNat (N - 1), by omega⟩ : Fin N) = src e := by
    refine Fin.ext ?_
    show min (srcw (ix2 e (0 : Fin 1))).toInt.toNat (N - 1) = (src e).val
    have := (src e).isLt
    rw [hsrc e]; omega
  rw [hrow]

/-- A word that is not negative is kept by "add the size where negative". -/
theorem select_nonneg (w a : BitVec 32) (h : 0 ≤ w.toInt) :
    Scalar.select (IntOp.cmpi .slt w 0#32) a w = w := by
  have hc : IntOp.cmpi .slt w 0#32 = 0#1 := by
    unfold IntOp.cmpi
    show BitVec.ofBool (w.slt 0#32) = 0#1
    have hs : w.slt 0#32 = false := by
      rw [BitVec.slt]
      exact decide_eq_false (by rw [show (0#32 : BitVec 32).toInt = 0 from rfl]; omega)
    rw [hs]; rfl
  rw [hc]; exact select_zero a w

end Cert.Gcn.Rows

namespace Cert.Gcn.Rows

open Idealize.ShloMosaic Idealize.ShloMosaic.ValueIdx Cert.Gcn

/-- One layer's aggregation: the gather-scale-scatter over the edge list is the edge-wise neighbourhood sum. -/
theorem agg_layer (x1 : (⟨2, ![2048, 2048]⟩ : Shape).Idx → EReal) (x8 : IVec (⟨2, ![2, 65536]⟩ : Shape) 32) {C : Nat}
    (wfG : GatherDims.WF ⟨2, ![2048, C]⟩ ⟨2, ![1116160, 1]⟩ ⟨2, ![1116160, C]⟩ [1] [0] [] [0] [] 1 ![1, C])
    (wfS : ScatterDims.WF ⟨2, ![2048, C]⟩ ⟨2, ![1116160, 1]⟩ ⟨2, ![1116160, C]⟩ [1] [0] [0] 1)
    (z P : (⟨2, ![2048, C]⟩ : Shape).Idx → EReal) (srcw dstw : IVec ⟨2, ![1116160, 1]⟩ 32)
    (nrm : (⟨2, ![1116160, C]⟩ : Shape).Idx → EReal) (G : Fin 2048 → Fin C → EReal)
    (hz : ∀ i c, z (ix2 i c) = 0) (hP : ∀ j c, P (ix2 j c) = G j c)
    (hsrc : ∀ e, (srcw (ix2 e (0 : Fin 1))).toInt = ((eSrc (nodeOf x8 0) e).val : Int))
    (hdst : ∀ e, (dstw (ix2 e (0 : Fin 1))).toInt = ((eDst (nodeOf x8 1) e).val : Int))
    (hn : ∀ e c, nrm (ix2 e c) = normR (nodeOf x8 0) (nodeOf x8 1) (sgOf x1) e)
    (i : Fin 2048) (c : Fin C) :
    Host.scatterAdd (F := Ideal) (φ := .f32) (rowScatterDims 2048 1116160 C wfS) z dstw
        (mulf (F := Ideal) (φ := .f32) (Host.gather (rowGatherDims 2048 1116160 C wfG) P srcw) nrm) (ix2 i c)
      = aggR (nodeOf x8 0) (nodeOf x8 1) (sgOf x1) G i c := by
  rw [agg_rows_apply (by norm_num) wfG wfS z P srcw dstw nrm _ _ hsrc hdst i c, hz]
  unfold aggR
  refine congrArg (fun t : EReal => 0 + t) ?_
  refine Finset.sum_congr rfl fun e _ => ?_
  rw [hP, hn]

end Cert.Gcn.Rows

namespace Cert.Gcn.Ref

open Idealize.ShloMosaic Idealize.ShloMosaic.TcCoe Idealize.ShloMosaic.ValueIdx Idealize.SL.Sem
open Cert.ReferenceIdeal Cert.ReferenceIdeal.Read Cert.Gcn Cert.Gcn.Rows Cert.Gcn.RefEdges

variable (x0 : S2048x128.Idx → EReal) (x1 : S2048x2048.Idx → EReal) (x2 : S128x128.Idx → EReal) (x3 : S128.Idx → EReal)
  (x8 : IVec S2x65536 32)

/-! ## Layer 1 -/

/-- The normalised source words of layer 1 are the source nodes. -/
theorem v54_toInt (hin : InRange x8) (e : Fin 1116160) :
    (val_main_v54 (F := Ideal) x8 (ix2 e (0 : Fin 1))).toInt = ((eSrc (nodeOf x8 0) e).val : Int) := by
  rw [val_main_v54_apply, show idx_main_v54 (ix2 e (0 : Fin 1)) = ix1 e from by funext a; match a with | ⟨0, _⟩ => rfl,
    val_main_v53_apply, val_main_v50_apply, val_main_v49_apply, val_main_c_9_apply,
    select_nonneg _ _ (by rw [v18_toInt x8 hin e]; exact Int.natCast_nonneg _)]
  exact v18_toInt x8 hin e

/-- The destination words of layer 1 are the destination nodes. -/
theorem v60_toInt (hin : InRange x8) (e : Fin 1116160) :
    (val_main_v60 (F := Ideal) x8 (ix2 e (0 : Fin 1))).toInt = ((eDst (nodeOf x8 1) e).val : Int) := by
  rw [val_main_v60_apply, show idx_main_v60 (ix2 e (0 : Fin 1)) = ix1 e from by funext a; match a with | ⟨0, _⟩ => rfl]
  exact v21_toInt x8 hin e

/-- The scale of layer 1 at (e, c) is edge e's normalised weight. -/
theorem v57_apply (hin : InRange x8) (e : Fin 1116160) (c : Fin 128) :
    val_main_v57 (F := Ideal) x1 x8 (ix2 e c) = normR (nodeOf x8 0) (nodeOf x8 1) (sgOf x1) e := by
  rw [val_main_v57_apply, val_main_v56_apply,
    show idx_main_v56 (idx_main_v57 (ix2 e c)) = ix1 e from by funext a; match a with | ⟨0, _⟩ => rfl]
  exact v47_apply x1 x8 hin e

/-- The projected input features. -/
theorem v48_apply (j : Fin 2048) (c : Fin 128) :
    val_main_v48 (F := Ideal) x0 x2 (ix2 j c) = proj (fun j k => x0 (ix2 j k)) (fun k c => x2 (ix2 k c)) j c := by
  rw [val_main_v48_apply]
  unfold proj
  refine Finset.sum_congr rfl fun k _ => ?_
  rw [show lidx_main_v48 (ix2 j c) k = ix2 j k from by funext a; match a with | ⟨0, _⟩ => rfl | ⟨1, _⟩ => rfl,
    show ridx_main_v48 (ix2 j c) k = ix2 k c from by funext a; match a with | ⟨0, _⟩ => rfl | ⟨1, _⟩ => rfl]

/-- The aggregation of layer 1. -/
theorem v61_apply (hin : InRange x8) (i : Fin 2048) (c : Fin 128) :
    val_main_v61 (F := Ideal) x0 x1 x2 x8 (ix2 i c)
      = aggR (nodeOf x8 0) (nodeOf x8 1) (sgOf x1) (proj (fun j k => x0 (ix2 j k)) (fun k c => x2 (ix2 k c))) i c :=
  agg_layer x1 x8 _ _ (val_main_v59 (F := Ideal)) (val_main_v48 (F := Ideal) x0 x2) (val_main_v54 (F := Ideal) x8)
    (val_main_v60 (F := Ideal) x8) (val_main_v57 (F := Ideal) x1 x8) _
    (fun i c => by rw [val_main_v59_apply, val_main_cst_11_apply]; exact Ideal.ofBits_zero_f32)
    (v48_apply x0 x2) (v54_toInt x8 hin) (v60_toInt x8 hin) (v57_apply x1 x8 hin) i c

/-- The hidden features (after the rectifier). -/
theorem v65_apply (hin : InRange x8) (i : Fin 2048) (c : Fin 128) :
    val_main_v65 (F := Ideal) x0 x1 x2 x3 x8 (ix2 i c) = hiddenR x0 x1 x2 x3 x8 i c := by
  rw [val_main_v65_apply, val_main_v64_apply, val_main_call1_v0_apply, val_main_call1_cst_apply, val_main_v63_apply,
    val_main_v62_apply, v61_apply x0 x1 x2 x8 hin i c,
    show idx_main_v62 (idx_main_v63 (ix2 i c)) = ix1 c from by funext a; match a with | ⟨0, _⟩ => rfl,
    show (FloatOps.ofBits (F := Ideal) .f32 0x00000000#32) = 0 from Ideal.ofBits_zero_f32]
  rfl

/-! ## Layer 2: the mu head -/

/-- The normalised source words of this layer are the source nodes. -/
theorem v95_toInt (hin : InRange x8) (e : Fin 1116160) :
    (val_main_v95 (F := Ideal) x8 (ix2 e (0 : Fin 1))).toInt = ((eSrc (nodeOf x8 0) e).val : Int) := by
  rw [val_main_v95_apply, show idx_main_v95 (ix2 e (0 : Fin 1)) = ix1 e from by funext a; match a with | ⟨0, _⟩ => rfl,
    val_main_v94_apply, val_main_v91_apply, val_main_v90_apply, val_main_c_19_apply,
    select_nonneg _ _ (by rw [v18_toInt x8 hin e]; exact Int.natCast_nonneg _)]
  exact v18_toInt x8 hin e

/-- The destination words of this layer are the destination nodes. -/
theorem v101_toInt (hin : InRange x8) (e : Fin 1116160) :
    (val_main_v101 (F := Ideal) x8 (ix2 e (0 : Fin 1))).toInt = ((eDst (nodeOf x8 1) e).val : Int) := by
  rw [val_main_v101_apply, show idx_main_v101 (ix2 e (0 : Fin 1)) = ix1 e from by funext a; match a with | ⟨0, _⟩ => rfl]
  exact v21_toInt x8 hin e

/-- The scale of this layer at (e, c) is edge e's normalised weight. -/
theorem v98_apply (hin : InRange x8) (e : Fin 1116160) (c : Fin 64) :
    val_main_v98 (F := Ideal) x1 x8 (ix2 e c) = normR (nodeOf x8 0) (nodeOf x8 1) (sgOf x1) e := by
  rw [val_main_v98_apply, val_main_v97_apply,
    show idx_main_v97 (idx_main_v98 (ix2 e c)) = ix1 e from by funext a; match a with | ⟨0, _⟩ => rfl]
  exact v88_apply x1 x8 hin e

/-- The projected hidden features. -/
theorem v89_apply (x4 : S128x64.Idx → EReal) (hin : InRange x8) (j : Fin 2048) (c : Fin 64) :
    val_main_v89 (F := Ideal) x0 x1 x2 x3 x4 x8 (ix2 j c)
      = proj (hiddenR x0 x1 x2 x3 x8) (fun k c => x4 (ix2 k c)) j c := by
  rw [val_main_v89_apply]
  unfold proj
  refine Finset.sum_congr rfl fun k _ => ?_
  rw [show lidx_main_v89 (ix2 j c) k = ix2 j k from by funext a; match a with | ⟨0, _⟩ => rfl | ⟨1, _⟩ => rfl,
    show ridx_main_v89 (ix2 j c) k = ix2 k c from by funext a; match a with | ⟨0, _⟩ => rfl | ⟨1, _⟩ => rfl,
    v65_apply x0 x1 x2 x3 x8 hin j k]

/-- The aggregation of this layer. -/
theorem v102_apply (x4 : S128x64.Idx → EReal) (hin : InRange x8) (i : Fin 2048) (c : Fin 64) :
    val_main_v102 (F := Ideal) x0 x1 x2 x3 x4 x8 (ix2 i c)
      = aggR (nodeOf x8 0) (nodeOf x8 1) (sgOf x1) (proj (hiddenR x0 x1 x2 x3 x8) (fun k c => x4 (ix2 k c))) i c :=
  agg_layer x1 x8 _ _ (val_main_v100 (F := Ideal)) (val_main_v89 (F := Ideal) x0 x1 x2 x3 x4 x8)
    (val_main_v95 (F := Ideal) x8) (val_main_v101 (F := Ideal) x8) (val_main_v98 (F := Ideal) x1 x8) _
    (fun i c => by rw [val_main_v100_apply, val_main_cst_21_apply]; exact Ideal.ofBits_zero_f32)
    (v89_apply x0 x1 x2 x3 x8 x4 hin) (v95_toInt x8 hin) (v101_toInt x8 hin) (v98_apply x1 x8 hin) i c

/-- The first result (the mu head). -/
theorem mu_read (x4 : S128x64.Idx → EReal) (x5 : S64.Idx → EReal) (hin : InRange x8) (idx : S2048x64.Idx) :
    val_main_v105 (F := Ideal) x0 x1 x2 x3 x4 x5 x8 idx = headR x0 x1 x2 x3 x8 x4 x5 (idx 0) (idx 1) := by
  obtain ⟨i, cc, rfl⟩ : ∃ (i : Fin 2048) (cc : Fin 64), idx = ix2 i cc := ⟨idx 0, idx 1, eq_ix2 idx⟩
  rw [val_main_v105_apply, val_main_v104_apply, val_main_v103_apply, v102_apply x0 x1 x2 x3 x8 x4 hin i cc,
    show idx_main_v103 (idx_main_v104 (ix2 i cc)) = ix1 cc from by funext a; match a with | ⟨0, _⟩ => rfl]
  rfl

/-! ## Layer 3: the log-std head -/

/-- The normalised source words of this layer are the source nodes. -/
theorem v135_toInt (hin : InRange x8) (e : Fin 1116160) :
    (val_main_v135 (F := Ideal) x8 (ix2 e (0 : Fin 1))).toInt = ((eSrc (nodeOf x8 0) e).val : Int) := by
  rw [val_main_v135_apply, show idx_main_v135 (ix2 e (0 : Fin 1)) = ix1 e from by funext a; match a with | ⟨0, _⟩ => rfl,
    val_main_v134_apply, val_main_v131_apply, val_main_v130_apply, val_main_c_29_apply,
    select_nonneg _ _ (by rw [v18_toInt x8 hin e]; exact Int.natCast_nonneg _)]
  exact v18_toInt x8 hin e

/-- The destination words of this layer are the destination nodes. -/
theorem v141_toInt (hin : InRange x8) (e : Fin 1116160) :
    (val_main_v141 (F := Ideal) x8 (ix2 e (0 : Fin 1))).toInt = ((eDst (nodeOf x8 1) e).val : Int) := by
  rw [val_main_v141_apply, show idx_main_v141 (ix2 e (0 : Fin 1)) = ix1 e from by funext a; match a with | ⟨0, _⟩ => rfl]
  exact v21_toInt x8 hin e

/-- The scale of this layer at (e, c) is edge e's normalised weight. -/
theorem v138_apply (hin : InRange x8) (e : Fin 1116160) (c : Fin 64) :
    val_main_v138 (F := Ideal) x1 x8 (ix2 e c) = normR (nodeOf x8 0) (nodeOf x8 1) (sgOf x1) e := by
  rw [val_main_v138_apply, val_main_v137_apply,
    show idx_main_v137 (idx_main_v138 (ix2 e c)) = ix1 e from by funext a; match a with | ⟨0, _⟩ => rfl]
  exact v128_apply x1 x8 hin e

/-- The projected hidden features. -/
theorem v129_apply (x6 : S128x64.Idx → EReal) (hin : InRange x8) (j : Fin 2048) (c : Fin 64) :
    val_main_v129 (F := Ideal) x0 x1 x2 x3 x6 x8 (ix2 j c)
      = proj (hiddenR x0 x1 x2 x3 x8) (fun k c => x6 (ix2 k c)) j c := by
  rw [val_main_v129_apply]
  unfold proj
  refine Finset.sum_congr rfl fun k _ => ?_
  rw [show lidx_main_v129 (ix2 j c) k = ix2 j k from by funext a; match a with | ⟨0, _⟩ => rfl | ⟨1, _⟩ => rfl,
    show ridx_main_v129 (ix2 j c) k = ix2 k c from by funext a; match a with | ⟨0, _⟩ => rfl | ⟨1, _⟩ => rfl,
    v65_apply x0 x1 x2 x3 x8 hin j k]

/-- The aggregation of this layer. -/
theorem v142_apply (x6 : S128x64.Idx → EReal) (hin : InRange x8) (i : Fin 2048) (c : Fin 64) :
    val_main_v142 (F := Ideal) x0 x1 x2 x3 x6 x8 (ix2 i c)
      = aggR (nodeOf x8 0) (nodeOf x8 1) (sgOf x1) (proj (hiddenR x0 x1 x2 x3 x8) (fun k c => x6 (ix2 k c))) i c :=
  agg_layer x1 x8 _ _ (val_main_v140 (F := Ideal)) (val_main_v129 (F := Ideal) x0 x1 x2 x3 x6 x8)
    (val_main_v135 (F := Ideal) x8) (val_main_v141 (F := Ideal) x8) (val_main_v138 (F := Ideal) x1 x8) _
    (fun i c => by rw [val_main_v140_apply, val_main_cst_31_apply]; exact Ideal.ofBits_zero_f32)
    (v129_apply x0 x1 x2 x3 x8 x6 hin) (v135_toInt x8 hin) (v141_toInt x8 hin) (v138_apply x1 x8 hin) i c

/-- The second result (the log-std head). -/
theorem ls_read (x6 : S128x64.Idx → EReal) (x7 : S64.Idx → EReal) (hin : InRange x8) (idx : S2048x64.Idx) :
    val_main_v145 (F := Ideal) x0 x1 x2 x3 x6 x7 x8 idx = headR x0 x1 x2 x3 x8 x6 x7 (idx 0) (idx 1) := by
  obtain ⟨i, cc, rfl⟩ : ∃ (i : Fin 2048) (cc : Fin 64), idx = ix2 i cc := ⟨idx 0, idx 1, eq_ix2 idx⟩
  rw [val_main_v145_apply, val_main_v144_apply, val_main_v143_apply, v142_apply x0 x1 x2 x3 x8 x6 hin i cc,
    show idx_main_v143 (idx_main_v144 (ix2 i cc)) = ix1 cc from by funext a; match a with | ⟨0, _⟩ => rfl]
  rfl

end Cert.Gcn.Ref

end
-- ==== Proof.lean ====
/-
  The certificate of a two-layer graph convolution with two output heads (hidden = relu(conv(x)); mu = conv(hidden);
  log-std = conv(hidden)) on a 2048-node graph whose edges are 65536 table edges, a dense 1024 x 1024 block of
  logistic-weighted edges, and the self loops.

  The kernel program collects the edge weights into one dense 2048 x 2048 matrix (a block write, an identity, a
  scatter-add of ones at (destination, source)), normalises it by the inverse square roots of its row sums, and runs
  each convolution as a region that multiplies row blocks of the matrix with the projected features.  The reference
  walks the concatenated edge list: segment sums for the degrees, gathers for the per-edge normalisation and the
  source features, a segment sum into the destination rows.

  The two agree on the extended reals index by index: grouping the edge list by (destination, source) turns the
  edge-wise sum into the matrix product, and a product distributes over a sum of nonnegative terms (weights and
  inverse square roots are nonnegative) whatever the other factor is — so no finiteness of the features is used.
  They agree only where the table's words are node numbers 0 ≤ w < 2048: the reference's segment sums drop a
  negative destination while the kernel's indexing wraps it around, so the precondition states that range.
  The frames of the two kernel programs are the generated ones; the reference's frame is its generated run; the
  idealisation ledger is empty.
-/
import proofs.«420779_j55757265436854_1_alg».proof.Defs
import proofs.«420779_j55757265436854_1_alg».proof.Proof.Gen.Kernel
import proofs.«420779_j55757265436854_1_alg».proof.Proof.Gen.Kernel.Skeleton
import proofs.«420779_j55757265436854_1_alg».proof.Proof.Gen.Kernel.Launch
import proofs.«420779_j55757265436854_1_alg».proof.Proof.Gen.Kernel.Points
import proofs.«420779_j55757265436854_1_alg».proof.Proof.Gen.Kernel.Frame
import proofs.«420779_j55757265436854_1_alg».proof.Proof.Gen.KernelIdeal
import proofs.«420779_j55757265436854_1_alg».proof.Proof.Gen.KernelIdeal.Skeleton
import proofs.«420779_j55757265436854_1_alg».proof.Proof.Gen.KernelIdeal.Launch
import proofs.«420779_j55757265436854_1_alg».proof.Proof.Gen.KernelIdeal.Points
import proofs.«420779_j55757265436854_1_alg».proof.Proof.Gen.KernelIdeal.Frame
import proofs.«420779_j55757265436854_1_alg».proof.Proof.Gen.ReferenceIdeal
import proofs.«420779_j55757265436854_1_alg».proof.Proof.Gen.ReferenceIdeal.Run
import proofs.«420779_j55757265436854_1_alg».proof.Proof.Gen.ReferenceIdeal.Read
import proofs.«420779_j55757265436854_1_alg».proof.Proof.Gen.Pre_finite_inputs
import proofs.«420779_j55757265436854_1_alg».proof.Proof.PreRange
import proofs.«420779_j55757265436854_1_alg».proof.Proof.GcnBridge
import proofs.«420779_j55757265436854_1_alg».proof.Proof.KRun
import proofs.«420779_j55757265436854_1_alg».proof.Proof.KValue
import proofs.«420779_j55757265436854_1_alg».proof.Proof.RLayers
import Idealize.ShloMosaic.Adequacy
import Idealize.ShloMosaic.Init

noncomputable section

namespace Cert.Proof

open Idealize.ShloMosaic Idealize.ShloMosaic.TcCoe Idealize.SL.Sem Cert.Gcn

theorem frame_k : Cert.frame_Kernel := fun m ρ _ => Cert.Kernel.Gen.frame m ρ

theorem frame_ki : Cert.frame_KernelIdeal := fun m ρ _ => Cert.KernelIdeal.Gen.frame m ρ

/-- The reference's frame: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the same two heads: the kernel's arrays are the dense layout of the network, the
    reference's the edge-wise layout, of arguments that agree and whose edge table holds node numbers. -/
theorem algebraic : Cert.algebraic_KernelIdeal_ReferenceIdeal := by
  intro m ρ m' ρ' hpre hagree
  refine ⟨fun c => Cert.KernelIdeal.Gen.W8 (F := Ideal) m ρ c (Proc.devRef .tc Cert.KernelIdeal.main_v54),
    fun c => Cert.KernelIdeal.Gen.W8 (F := Ideal) m ρ c (Proc.devRef .tc Cert.KernelIdeal.main_v56),
    Cert.KernelIdeal.RunValues.run_values m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · have hin := inRange_of_pre _ _ _ _ _ _ _ _ _ (hpre c)
    obtain ⟨h0, h1, h2, h3, h4, h5, h6, h7, h8⟩ := hagree c
    rw [Cert.ReferenceIdeal.Read.val_main_v105_eq, h0, h1, h2, h3, h4, h5, h8]
    funext idx
    exact ((Cert.Gcn.Ref.mu_read _ _ _ _ _ _ _ hin idx).trans (headK_eq_headR _ _ _ _ _ _ _ _ _).symm).trans
      (Cert.Gcn.Ker.mu_read m ρ c hin idx).symm
  · have hin := inRange_of_pre _ _ _ _ _ _ _ _ _ (hpre c)
    obtain ⟨h0, h1, h2, h3, h4, h5, h6, h7, h8⟩ := hagree c
    rw [Cert.ReferenceIdeal.Read.val_main_v145_eq, h0, h1, h2, h3, h6, h7, h8]
    funext idx
    exact ((Cert.Gcn.Ref.ls_read _ _ _ _ _ _ _ hin idx).trans (headK_eq_headR _ _ _ _ _ _ _ _ _).symm).trans
      (Cert.Gcn.Ker.ls_read m ρ c hin idx).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
